-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v9_0)) (v2 : (c : Dev Cert.KernelIdeal.nD) → Buf (Elt Ideal) ((c.tc : Thread Cert.KernelIdeal.nD Cert.KernelIdeal.τ).loc Cert.KernelIdeal.main_v9_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v9_0) = v1 c
          ∧ r.2.mem ((c.tc : Thread Cert.KernelIdeal.nD Cert.KernelIdeal.τ).loc Cert.KernelIdeal.main_v9_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_v79) = v1 c
          ∧ r.2.mem ((c.tc : Thread Cert.ReferenceIdeal.nD Cert.ReferenceIdeal.τ).loc Cert.ReferenceIdeal.main_v81) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x256 : Shape := ⟨2, ![512, 256]⟩
abbrev S512 : Shape := ⟨1, ![512]⟩
abbrev S128x512 : Shape := ⟨2, ![128, 512]⟩
abbrev S128 : Shape := ⟨1, ![128]⟩
abbrev S512x512 : Shape := ⟨2, ![512, 512]⟩
abbrev S33x512 : Shape := ⟨2, ![33, 512]⟩
abbrev S33 : Shape := ⟨1, ![33]⟩
abbrev S_ : Shape := ⟨0, ![]⟩

class Facts : Prop where
  bcast_S_S512x256 : S_.BroadcastsInDim S512x256 (![] : Fin 0 → Fin S512x256.rank)
  reducesTo_S512x256_S_d0_1 : S512x256.ReducesTo [0, 1] S_
  h_S_ : 0 < S_.numel
  bcast_S_S512 : S_.BroadcastsInDim S512 (![] : Fin 0 → Fin S512.rank)
  reducesTo_S512_S_d0 : S512.ReducesTo [0] S_
  bcast_S_S128x512 : S_.BroadcastsInDim S128x512 (![] : Fin 0 → Fin S128x512.rank)
  reducesTo_S128x512_S_d0_1 : S128x512.ReducesTo [0, 1] S_
  bcast_S_S128 : S_.BroadcastsInDim S128 (![] : Fin 0 → Fin S128.rank)
  reducesTo_S128_S_d0 : S128.ReducesTo [0] S_
  bcast_S_S512x512 : S_.BroadcastsInDim S512x512 (![] : Fin 0 → Fin S512x512.rank)
  reducesTo_S512x512_S_d0_1 : S512x512.ReducesTo [0, 1] S_
  bcast_S_S33x512 : S_.BroadcastsInDim S33x512 (![] : Fin 0 → Fin S33x512.rank)
  reducesTo_S33x512_S_d0_1 : S33x512.ReducesTo [0, 1] S_
  bcast_S_S33 : S_.BroadcastsInDim S33 (![] : Fin 0 → Fin S33.rank)
  reducesTo_S33_S_d0 : S33.ReducesTo [0] S_

variable [Facts]

def fn_part7 {F : FTy → Type} [FloatOps F] (main_arg14 : FVec F S512 .f32) (main_arg20 : FVec F S512 .f32) (main_v113 : IVec S_ 1) (main_v118 : IVec S_ 1) : IVec S_ 1 :=
  let main_v119 : IVec S_ 1 := andi main_v113 main_v118
  let main_cst_47 : FVec F S_ .f32 := constant S_ .f32 0x3727C5AC#32
  let main_v120 : FVec F S512 .f32 := broadcastInDim S512 ![] bcast_S_S512 main_cst_47
  let main_v121 : FVec F S512 .f32 := addf main_arg14 main_v120
  let main_cst_48 : FVec F S_ .f32 := constant S_ .f32 0x00000000#32
  let main_v122 : FVec F S512 .f32 := broadcastInDim S512 ![] bcast_S_S512 main_cst_48
  let main_v123 : IVec S512 1 := cmpf .ogt main_v121 main_v122
  let main_c_49 : IVec S_ 1 := constantI S_ 1 1#1
  let main_v124 : IVec S_ 1 := (fun x v => Host.reduce IntOp.andi x v reducesTo_S512_S_d0 h_S_) main_v123 main_c_49
  let main_v125 : IVec S_ 1 := andi main_v119 main_v124
  let main_cst_50 : FVec F S_ .f32 := constant S_ .f32 0x3727C5AC#32
  let main_v126 : FVec F S512 .f32 := broadcastInDim S512 ![] bcast_S_S512 main_cst_50
  let main_v127 : FVec F S512 .f32 := addf main_arg20 main_v126
  let main_cst_51 : FVec F S_ .f32 := constant S_ .f32 0x00000000#32
  let main_v128 : FVec F S512 .f32 := broadcastInDim S512 ![] bcast_S_S512 main_cst_51
  let main_v129 : IVec S512 1 := cmpf .ogt main_v127 main_v128
  let main_c_52 : IVec S_ 1 := constantI S_ 1 1#1
  let main_v130 : IVec S_ 1 := (fun x v => Host.reduce IntOp.andi x v reducesTo_S512_S_d0 h_S_) main_v129 main_c_52
  let main_v131 : IVec S_ 1 := andi main_v125 main_v130
  main_v131

def fn_part6 {F : FTy → Type} [FloatOps F] (main_arg6 : FVec F S512 .f32) (main_arg14 : FVec F S512 .f32) (main_arg20 : FVec F S512 .f32) (main_arg21 : FVec F S33x512 .f32) (main_arg22 : FVec F S33 .f32) (main_v98 : IVec S_ 1) (main_v101 : IVec S512 1) (main_c_39 : IVec S_ 1) : IVec S_ 1 :=
  let main_v102 : IVec S_ 1 := (fun x v => Host.reduce IntOp.andi x v reducesTo_S512_S_d0 h_S_) main_v101 main_c_39
  let main_v103 : IVec S_ 1 := andi main_v98 main_v102
  let main_v104 : FVec F S33x512 .f32 := Host.absf main_arg21
  let main_cst_40 : FVec F S_ .f32 := constant S_ .f32 0x7F800000#32
  let main_v105 : FVec F S33x512 .f32 := broadcastInDim S33x512 ![] bcast_S_S33x512 main_cst_40
  let main_v106 : IVec S33x512 1 := cmpf .olt main_v104 main_v105
  let main_c_41 : IVec S_ 1 := constantI S_ 1 1#1
  let main_v107 : IVec S_ 1 := (fun x v => Host.reduce IntOp.andi x v reducesTo_S33x512_S_d0_1 h_S_) main_v106 main_c_41
  let main_v108 : IVec S_ 1 := andi main_v103 main_v107
  let main_v109 : FVec F S33 .f32 := Host.absf main_arg22
  let main_cst_42 : FVec F S_ .f32 := constant S_ .f32 0x7F800000#32
  let main_v110 : FVec F S33 .f32 := broadcastInDim S33 ![] bcast_S_S33 main_cst_42
  let main_v111 : IVec S33 1 := cmpf .olt main_v109 main_v110
  let main_c_43 : IVec S_ 1 := constantI S_ 1 1#1
  let main_v112 : IVec S_ 1 := (fun x v => Host.reduce IntOp.andi x v reducesTo_S33_S_d0 h_S_) main_v111 main_c_43
  let main_v113 : IVec S_ 1 := andi main_v108 main_v112
  let main_cst_44 : FVec F S_ .f32 := constant S_ .f32 0x3727C5AC#32
  let main_v114 : FVec F S512 .f32 := broadcastInDim S512 ![] bcast_S_S512 main_cst_44
  let main_v115 : FVec F S512 .f32 := addf main_arg6 main_v114
  let main_cst_45 : FVec F S_ .f32 := constant S_ .f32 0x00000000#32
  let main_v116 : FVec F S512 .f32 := broadcastInDim S512 ![] bcast_S_S512 main_cst_45
  let main_v117 : IVec S512 1 := cmpf .ogt main_v115 main_v116
  let main_c_46 : IVec S_ 1 := constantI S_ 1 1#1
  let main_v118 : IVec S_ 1 := (fun x v => Host.reduce IntOp.andi x v reducesTo_S512_S_d0 h_S_) main_v117 main_c_46
  fn_part7 (F := F) main_arg14 main_arg20 main_v113 main_v118

def fn_part5 {F : FTy → Type} [FloatOps F] (main_arg6 : FVec F S512 .f32) (main_arg14 : FVec F S512 .f32) (main_arg18 : FVec F S512 .f32) (main_arg19 : FVec F S512 .f32) (main_arg20 : FVec F S512 .f32) (main_arg21 : FVec F S33x512 .f32) (main_arg22 : FVec F S33 .f32) (main_v83 : IVec S_ 1) (main_v84 : FVec F S512 .f32) (main_cst_32 : FVec F S_ .f32) : IVec S_ 1 :=
  let main_v85 : FVec F S512 .f32 := broadcastInDim S512 ![] bcast_S_S512 main_cst_32
  let main_v86 : IVec S512 1 := cmpf .olt main_v84 main_v85
  let main_c_33 : IVec S_ 1 := constantI S_ 1 1#1
  let main_v87 : IVec S_ 1 := (fun x v => Host.reduce IntOp.andi x v reducesTo_S512_S_d0 h_S_) main_v86 main_c_33
  let main_v88 : IVec S_ 1 := andi main_v83 main_v87
  let main_v89 : FVec F S512 .f32 := Host.absf main_arg18
  let main_cst_34 : FVec F S_ .f32 := constant S_ .f32 0x7F800000#32
  let main_v90 : FVec F S512 .f32 := broadcastInDim S512 ![] bcast_S_S512 main_cst_34
  let main_v91 : IVec S512 1 := cmpf .olt main_v89 main_v90
  let main_c_35 : IVec S_ 1 := constantI S_ 1 1#1
  let main_v92 : IVec S_ 1 := (fun x v => Host.reduce IntOp.andi x v reducesTo_S512_S_d0 h_S_) main_v91 main_c_35
  let main_v93 : IVec S_ 1 := andi main_v88 main_v92
  let main_v94 : FVec F S512 .f32 := Host.absf main_arg19
  let main_cst_36 : FVec F S_ .f32 := constant S_ .f32 0x7F800000#32
  let main_v95 : FVec F S512 .f32 := broadcastInDim S512 ![] bcast_S_S512 main_cst_36
  let main_v96 : IVec S512 1 := cmpf .olt main_v94 main_v95
  let main_c_37 : IVec S_ 1 := constantI S_ 1 1#1
  let main_v97 : IVec S_ 1 := (fun x v => Host.reduce IntOp.andi x v reducesTo_S512_S_d0 h_S_) main_v96 main_c_37
  let main_v98 : IVec S_ 1 := andi main_v93 main_v97
  let main_v99 : FVec F S512 .f32 := Host.absf main_arg20
  let main_cst_38 : FVec F S_ .f32 := constant S_ .f32 0x7F800000#32
  let main_v100 : FVec F S512 .f32 := broadcastInDim S512 ![] bcast_S_S512 main_cst_38
  let main_v101 : IVec S512 1 := cmpf .olt main_v99 main_v100
  let main_c_39 : IVec S_ 1 := constantI S_ 1 1#1
  fn_part6 (F := F) main_arg6 main_arg14 main_arg20 main_arg21 main_arg22 main_v98 main_v101 main_c_39

def fn_part4 {F : FTy → Type} [FloatOps F] (main_arg6 : FVec F S512 .f32) (main_arg14 : FVec F S512 .f32) (main_arg15 : FVec F S512x512 .f32) (main_arg16 : FVec F S512 .f32) (main_arg17 : FVec F S512 .f32) (main_arg18 : FVec F S512 .f32) (main_arg19 : FVec F S512 .f32) (main_arg20 : FVec F S512 .f32) (main_arg21 : FVec F S33x512 .f32) (main_arg22 : FVec F S33 .f32) (main_v63 : IVec S_ 1) (main_v67 : IVec S_ 1) : IVec S_ 1 :=
  let main_v68 : IVec S_ 1 := andi main_v63 main_v67
  let main_v69 : FVec F S512 .f32 := Host.absf main_arg14
  let main_cst_26 : FVec F S_ .f32 := constant S_ .f32 0x7F800000#32
  let main_v70 : FVec F S512 .f32 := broadcastInDim S512 ![] bcast_S_S512 main_cst_26
  let main_v71 : IVec S512 1 := cmpf .olt main_v69 main_v70
  let main_c_27 : IVec S_ 1 := constantI S_ 1 1#1
  let main_v72 : IVec S_ 1 := (fun x v => Host.reduce IntOp.andi x v reducesTo_S512_S_d0 h_S_) main_v71 main_c_27
  let main_v73 : IVec S_ 1 := andi main_v68 main_v72
  let main_v74 : FVec F S512x512 .f32 := Host.absf main_arg15
  let main_cst_28 : FVec F S_ .f32 := constant S_ .f32 0x7F800000#32
  let main_v75 : FVec F S512x512 .f32 := broadcastInDim S512x512 ![] bcast_S_S512x512 main_cst_28
  let main_v76 : IVec S512x512 1 := cmpf .olt main_v74 main_v75
  let main_c_29 : IVec S_ 1 := constantI S_ 1 1#1
  let main_v77 : IVec S_ 1 := (fun x v => Host.reduce IntOp.andi x v reducesTo_S512x512_S_d0_1 h_S_) main_v76 main_c_29
  let main_v78 : IVec S_ 1 := andi main_v73 main_v77
  let main_v79 : FVec F S512 .f32 := Host.absf main_arg16
  let main_cst_30 : FVec F S_ .f32 := constant S_ .f32 0x7F800000#32
  let main_v80 : FVec F S512 .f32 := broadcastInDim S512 ![] bcast_S_S512 main_cst_30
  let main_v81 : IVec S512 1 := cmpf .olt main_v79 main_v80
  let main_c_31 : IVec S_ 1 := constantI S_ 1 1#1
  let main_v82 : IVec S_ 1 := (fun x v => Host.reduce IntOp.andi x v reducesTo_S512_S_d0 h_S_) main_v81 main_c_31
  let main_v83 : IVec S_ 1 := andi main_v78 main_v82
  let main_v84 : FVec F S512 .f32 := Host.absf main_arg17
  let main_cst_32 : FVec F S_ .f32 := constant S_ .f32 0x7F800000#32
  fn_part5 (F := F) main_arg6 main_arg14 main_arg18 main_arg19 main_arg20 main_arg21 main_arg22 main_v83 main_v84 main_cst_32

def fn_part3 {F : FTy → Type} [FloatOps F] (main_arg6 : FVec F S512 .f32) (main_arg11 : FVec F S512 .f32) (main_arg12 : FVec F S512 .f32) (main_arg13 : FVec F S512 .f32) (main_arg14 : FVec F S512 .f32) (main_arg15 : FVec F S512x512 .f32) (main_arg16 : FVec F S512 .f32) (main_arg17 : FVec F S512 .f32) (main_arg18 : FVec F S512 .f32) (main_arg19 : FVec F S512 .f32) (main_arg20 : FVec F S512 .f32) (main_arg21 : FVec F S33x512 .f32) (main_arg22 : FVec F S33 .f32) (main_v48 : IVec S_ 1) (main_v49 : FVec F S512 .f32) (main_v50 : FVec F S512 .f32) : IVec S_ 1 :=
  let main_v51 : IVec S512 1 := cmpf .olt main_v49 main_v50
  let main_c_19 : IVec S_ 1 := constantI S_ 1 1#1
  let main_v52 : IVec S_ 1 := (fun x v => Host.reduce IntOp.andi x v reducesTo_S512_S_d0 h_S_) main_v51 main_c_19
  let main_v53 : IVec S_ 1 := andi main_v48 main_v52
  let main_v54 : FVec F S512 .f32 := Host.absf main_arg11
  let main_cst_20 : FVec F S_ .f32 := constant S_ .f32 0x7F800000#32
  let main_v55 : FVec F S512 .f32 := broadcastInDim S512 ![] bcast_S_S512 main_cst_20
  let main_v56 : IVec S512 1 := cmpf .olt main_v54 main_v55
  let main_c_21 : IVec S_ 1 := constantI S_ 1 1#1
  let main_v57 : IVec S_ 1 := (fun x v => Host.reduce IntOp.andi x v reducesTo_S512_S_d0 h_S_) main_v56 main_c_21
  let main_v58 : IVec S_ 1 := andi main_v53 main_v57
  let main_v59 : FVec F S512 .f32 := Host.absf main_arg12
  let main_cst_22 : FVec F S_ .f32 := constant S_ .f32 0x7F800000#32
  let main_v60 : FVec F S512 .f32 := broadcastInDim S512 ![] bcast_S_S512 main_cst_22
  let main_v61 : IVec S512 1 := cmpf .olt main_v59 main_v60
  let main_c_23 : IVec S_ 1 := constantI S_ 1 1#1
  let main_v62 : IVec S_ 1 := (fun x v => Host.reduce IntOp.andi x v reducesTo_S512_S_d0 h_S_) main_v61 main_c_23
  let main_v63 : IVec S_ 1 := andi main_v58 main_v62
  let main_v64 : FVec F S512 .f32 := Host.absf main_arg13
  let main_cst_24 : FVec F S_ .f32 := constant S_ .f32 0x7F800000#32
  let main_v65 : FVec F S512 .f32 := broadcastInDim S512 ![] bcast_S_S512 main_cst_24
  let main_v66 : IVec S512 1 := cmpf .olt main_v64 main_v65
  let main_c_25 : IVec S_ 1 := constantI S_ 1 1#1
  let main_v67 : IVec S_ 1 := (fun x v => Host.reduce IntOp.andi x v reducesTo_S512_S_d0 h_S_) main_v66 main_c_25
  fn_part4 (F := F) main_arg6 main_arg14 main_arg15 main_arg16 main_arg17 main_arg18 main_arg19 main_arg20 main_arg21 main_arg22 main_v63 main_v67

def fn_part2 {F : FTy → Type} [FloatOps F] (main_arg6 : FVec F S512 .f32) (main_arg7 : FVec F S128x512 .f32) (main_arg8 : FVec F S128 .f32) (main_arg9 : FVec F S512x512 .f32) (main_arg10 : FVec F S512 .f32) (main_arg11 : FVec F S512 .f32) (main_arg12 : FVec F S512 .f32) (main_arg13 : FVec F S512 .f32) (main_arg14 : FVec F S512 .f32) (main_arg15 : FVec F S512x512 .f32) (main_arg16 : FVec F S512 .f32) (main_arg17 : FVec F S512 .f32) (main_arg18 : FVec F S512 .f32) (main_arg19 : FVec F S512 .f32) (main_arg20 : FVec F S512 .f32) (main_arg21 : FVec F S33x512 .f32) (main_arg22 : FVec F S33 .f32) (main_v33 : IVec S_ 1) : IVec S_ 1 :=
  let main_v34 : FVec F S128x512 .f32 := Host.absf main_arg7
  let main_cst_12 : FVec F S_ .f32 := constant S_ .f32 0x7F800000#32
  let main_v35 : FVec F S128x512 .f32 := broadcastInDim S128x512 ![] bcast_S_S128x512 main_cst_12
  let main_v36 : IVec S128x512 1 := cmpf .olt main_v34 main_v35
  let main_c_13 : IVec S_ 1 := constantI S_ 1 1#1
  let main_v37 : IVec S_ 1 := (fun x v => Host.reduce IntOp.andi x v reducesTo_S128x512_S_d0_1 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S512x512 .f32 := Host.absf main_arg9
  let main_cst_16 : FVec F S_ .f32 := constant S_ .f32 0x7F800000#32
  let main_v45 : FVec F S512x512 .f32 := broadcastInDim S512x512 ![] bcast_S_S512x512 main_cst_16
  let main_v46 : IVec S512x512 1 := cmpf .olt main_v44 main_v45
  let main_c_17 : IVec S_ 1 := constantI S_ 1 1#1
  let main_v47 : IVec S_ 1 := (fun x v => Host.reduce IntOp.andi x v reducesTo_S512x512_S_d0_1 h_S_) main_v46 main_c_17
  let main_v48 : IVec S_ 1 := andi main_v43 main_v47
  let main_v49 : FVec F S512 .f32 := Host.absf main_arg10
  let main_cst_18 : FVec F S_ .f32 := constant S_ .f32 0x7F800000#32
  let main_v50 : FVec F S512 .f32 := broadcastInDim S512 ![] bcast_S_S512 main_cst_18
  fn_part3 (F := F) main_arg6 main_arg11 main_arg12 main_arg13 main_arg14 main_arg15 main_arg16 main_arg17 main_arg18 main_arg19 main_arg20 main_arg21 main_arg22 main_v48 main_v49 main_v50

def fn_part1 {F : FTy → Type} [FloatOps F] (main_arg4 : FVec F S512 .f32) (main_arg5 : FVec F S512 .f32) (main_arg6 : FVec F S512 .f32) (main_arg7 : FVec F S128x512 .f32) (main_arg8 : FVec F S128 .f32) (main_arg9 : FVec F S512x512 .f32) (main_arg10 : FVec F S512 .f32) (main_arg11 : FVec F S512 .f32) (main_arg12 : FVec F S512 .f32) (main_arg13 : FVec F S512 .f32) (main_arg14 : FVec F S512 .f32) (main_arg15 : FVec F S512x512 .f32) (main_arg16 : FVec F S512 .f32) (main_arg17 : FVec F S512 .f32) (main_arg18 : FVec F S512 .f32) (main_arg19 : FVec F S512 .f32) (main_arg20 : FVec F S512 .f32) (main_arg21 : FVec F S33x512 .f32) (main_arg22 : FVec F S33 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg6 main_arg7 main_arg8 main_arg9 main_arg10 main_arg11 main_arg12 main_arg13 main_arg14 main_arg15 main_arg16 main_arg17 main_arg18 main_arg19 main_arg20 main_arg21 main_arg22 main_v33

def fn {F : FTy → Type} [FloatOps F] (main_arg0 : FVec F S512x256 .f32) (main_arg1 : FVec F S512x256 .f32) (main_arg2 : FVec F S512 .f32) (main_arg3 : FVec F S512 .f32) (main_arg4 : FVec F S512 .f32) (main_arg5 : FVec F S512 .f32) (main_arg6 : FVec F S512 .f32) (main_arg7 : FVec F S128x512 .f32) (main_arg8 : FVec F S128 .f32) (main_arg9 : FVec F S512x512 .f32) (main_arg10 : FVec F S512 .f32) (main_arg11 : FVec F S512 .f32) (main_arg12 : FVec F S512 .f32) (main_arg13 : FVec F S512 .f32) (main_arg14 : FVec F S512 .f32) (main_arg15 : FVec F S512x512 .f32) (main_arg16 : FVec F S512 .f32) (main_arg17 : FVec F S512 .f32) (main_arg18 : FVec F S512 .f32) (main_arg19 : FVec F S512 .f32) (main_arg20 : FVec F S512 .f32) (main_arg21 : FVec F S33x512 .f32) (main_arg22 : FVec F S33 .f32) : IVec S_ 1 :=
  let main_v0 : FVec F S512x256 .f32 := Host.absf main_arg0
  let main_cst : FVec F S_ .f32 := constant S_ .f32 0x7F800000#32
  let main_v1 : FVec F S512x256 .f32 := broadcastInDim S512x256 ![] bcast_S_S512x256 main_cst
  let main_v2 : IVec S512x256 1 := cmpf .olt main_v0 main_v1
  let main_c : IVec S_ 1 := constantI S_ 1 1#1
  let main_v3 : IVec S_ 1 := (fun x v => Host.reduce IntOp.andi x v reducesTo_S512x256_S_d0_1 h_S_) main_v2 main_c
  let main_v4 : FVec F S512x256 .f32 := Host.absf main_arg1
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_v13 main_v16
-- ==== Kernel.lean ====
abbrev S512x256 : Shape := ⟨2, ![512, 256]⟩
abbrev S512 : Shape := ⟨1, ![512]⟩
abbrev S128x512 : Shape := ⟨2, ![128, 512]⟩
abbrev S128 : Shape := ⟨1, ![128]⟩
abbrev S512x512 : Shape := ⟨2, ![512, 512]⟩
abbrev S33x512 : Shape := ⟨2, ![33, 512]⟩
abbrev S33 : Shape := ⟨1, ![33]⟩
abbrev S256x512 : Shape := ⟨2, ![256, 512]⟩
abbrev S512x128 : Shape := ⟨2, ![512, 128]⟩
abbrev S512x33 : Shape := ⟨2, ![512, 33]⟩
abbrev S1x512 : Shape := ⟨2, ![1, 512]⟩
abbrev S1x128 : Shape := ⟨2, ![1, 128]⟩
abbrev S512x512x32 : Shape := ⟨3, ![512, 512, 32]⟩
abbrev S64x512 : Shape := ⟨2, ![64, 512]⟩
abbrev S64x128 : Shape := ⟨2, ![64, 128]⟩
abbrev S64x128x32 : Shape := ⟨3, ![64, 128, 32]⟩
abbrev S64x1x512 : Shape := ⟨3, ![64, 1, 512]⟩
abbrev S1x128x512 : Shape := ⟨3, ![1, 128, 512]⟩
abbrev S64x128x512 : Shape := ⟨3, ![64, 128, 512]⟩
abbrev S1x1x512 : Shape := ⟨3, ![1, 1, 512]⟩
abbrev S8192x512 : Shape := ⟨2, ![8192, 512]⟩
abbrev S8192x33 : Shape := ⟨2, ![8192, 33]⟩
abbrev S1x33 : Shape := ⟨2, ![1, 33]⟩
abbrev S64x128x33 : Shape := ⟨3, ![64, 128, 33]⟩
abbrev S64x128x1 : Shape := ⟨3, ![64, 128, 1]⟩

abbrev nBuf : Space → Nat
  | .hbm => 36
  | .vmem => 35
  | .smem => 0
  | _ => 0

abbrev bufTy : (tb : Table) → Fin (tcTables nBuf tb) → BufTy
  | .hbm, ⟨0, _⟩ => ⟨S512x256, .f32⟩
  | .hbm, ⟨1, _⟩ => ⟨S512x256, .f32⟩
  | .hbm, ⟨2, _⟩ => ⟨S512, .f32⟩
  | .hbm, ⟨3, _⟩ => ⟨S512, .f32⟩
  | .hbm, ⟨4, _⟩ => ⟨S512, .f32⟩
  | .hbm, ⟨5, _⟩ => ⟨S512, .f32⟩
  | .hbm, ⟨6, _⟩ => ⟨S512, .f32⟩
  | .hbm, ⟨7, _⟩ => ⟨S128x512, .f32⟩
  | .hbm, ⟨8, _⟩ => ⟨S128, .f32⟩
  | .hbm, ⟨9, _⟩ => ⟨S512x512, .f32⟩
  | .hbm, ⟨10, _⟩ => ⟨S512, .f32⟩
  | .hbm, ⟨11, _⟩ => ⟨S512, .f32⟩
  | .hbm, ⟨12, _⟩ => ⟨S512, .f32⟩
  | .hbm, ⟨13, _⟩ => ⟨S512, .f32⟩
  | .hbm, ⟨14, _⟩ => ⟨S512, .f32⟩
  | .hbm, ⟨15, _⟩ => ⟨S512x512, .f32⟩
  | .hbm, ⟨16, _⟩ => ⟨S512, .f32⟩
  | .hbm, ⟨17, _⟩ => ⟨S512, .f32⟩
  | .hbm, ⟨18, _⟩ => ⟨S512, .f32⟩
  | .hbm, ⟨19, _⟩ => ⟨S512, .f32⟩
  | .hbm, ⟨20, _⟩ => ⟨S512, .f32⟩
  | .hbm, ⟨21, _⟩ => ⟨S33x512, .f32⟩
  | .hbm, ⟨22, _⟩ => ⟨S33, .f32⟩
  | .hbm, ⟨23, _⟩ => ⟨S256x512, .f32⟩
  | .hbm, ⟨24, _⟩ => ⟨S512x128, .f32⟩
  | .hbm, ⟨25, _⟩ => ⟨S512x256, .f32⟩
  | .hbm, ⟨26, _⟩ => ⟨S512x256, .f32⟩
  | .hbm, ⟨27, _⟩ => ⟨S256x512, .f32⟩
  | .hbm, ⟨28, _⟩ => ⟨S256x512, .f32⟩
  | .hbm, ⟨29, _⟩ => ⟨S512x512, .f32⟩
  | .hbm, ⟨30, _⟩ => ⟨S512x33, .f32⟩
  | .hbm, ⟨31, _⟩ => ⟨S512x128, .f32⟩
  | .hbm, ⟨32, _⟩ => ⟨S512x512, .bf16⟩
  | .hbm, ⟨33, _⟩ => ⟨S512x512, .bf16⟩
  | .hbm, ⟨34, _⟩ => ⟨S512x512, .f32⟩
  | .hbm, ⟨35, _⟩ => ⟨S512x512x32, .f32⟩
  | .local _ .vmem, ⟨0, _⟩ => ⟨S512x256, .f32⟩
  | .local _ .vmem, ⟨1, _⟩ => ⟨S256x512, .f32⟩
  | .local _ .vmem, ⟨2, _⟩ => ⟨S512, .f32⟩
  | .local _ .vmem, ⟨3, _⟩ => ⟨S512, .f32⟩
  | .local _ .vmem, ⟨4, _⟩ => ⟨S512, .f32⟩
  | .local _ .vmem, ⟨5, _⟩ => ⟨S512, .f32⟩
  | .local _ .vmem, ⟨6, _⟩ => ⟨S512, .f32⟩
  | .local _ .vmem, ⟨7, _⟩ => ⟨S512x128, .f32⟩
  | .local _ .vmem, ⟨8, _⟩ => ⟨S128, .f32⟩
  | .local _ .vmem, ⟨9, _⟩ => ⟨S256x512, .f32⟩
  | .local _ .vmem, ⟨10, _⟩ => ⟨S256x512, .f32⟩
  | .local _ .vmem, ⟨11, _⟩ => ⟨S512x128, .f32⟩
  | .local _ .vmem, ⟨12, _⟩ => ⟨S512x512, .bf16⟩
  | .local _ .vmem, ⟨13, _⟩ => ⟨S512x512, .bf16⟩
  | .local _ .vmem, ⟨14, _⟩ => ⟨S64x512, .bf16⟩
  | .local _ .vmem, ⟨15, _⟩ => ⟨S64x512, .bf16⟩
  | .local _ .vmem, ⟨16, _⟩ => ⟨S128x512, .bf16⟩
  | .local _ .vmem, ⟨17, _⟩ => ⟨S128x512, .bf16⟩
  | .local _ .vmem, ⟨18, _⟩ => ⟨S512, .f32⟩
  | .local _ .vmem, ⟨19, _⟩ => ⟨S512, .f32⟩
  | .local _ .vmem, ⟨20, _⟩ => ⟨S512, .f32⟩
  | .local _ .vmem, ⟨21, _⟩ => ⟨S512, .f32⟩
  | .local _ .vmem, ⟨22, _⟩ => ⟨S512, .f32⟩
  | .local _ .vmem, ⟨23, _⟩ => ⟨S512x512, .f32⟩
  | .local _ .vmem, ⟨24, _⟩ => ⟨S512, .f32⟩
  | .local _ .vmem, ⟨25, _⟩ => ⟨S512, .f32⟩
  | .local _ .vmem, ⟨26, _⟩ => ⟨S512, .f32⟩
  | .local _ .vmem, ⟨27, _⟩ => ⟨S512, .f32⟩
  | .local _ .vmem, ⟨28, _⟩ => ⟨S512, .f32⟩
  | .local _ .vmem, ⟨29, _⟩ => ⟨S512x33, .f32⟩
  | .local _ .vmem, ⟨30, _⟩ => ⟨S33, .f32⟩
  | .local _ .vmem, ⟨31, _⟩ => ⟨S64x128, .f32⟩
  | .local _ .vmem, ⟨32, _⟩ => ⟨S64x128, .f32⟩
  | .local _ .vmem, ⟨33, _⟩ => ⟨S64x128x32, .f32⟩
  | .local _ .vmem, ⟨34, _⟩ => ⟨S64x128x32, .f32⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8_0 : Ref sig .tc := ⟨.hbm, 31, rfl⟩
abbrev main_v8_1 : Ref sig .tc := ⟨.hbm, 32, rfl⟩
abbrev main_v8_2 : Ref sig .tc := ⟨.hbm, 33, rfl⟩
abbrev main_v9_0 : Ref sig .tc := ⟨.hbm, 34, rfl⟩
abbrev main_v9_1 : Ref sig .tc := ⟨.hbm, 35, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg7_0 : Ref sig .tc := ⟨.vmem, 23, rfl⟩
abbrev cc1_stg8_0 : Ref sig .tc := ⟨.vmem, 24, rfl⟩
abbrev cc1_stg9_0 : Ref sig .tc := ⟨.vmem, 25, rfl⟩
abbrev cc1_stg10_0 : Ref sig .tc := ⟨.vmem, 26, rfl⟩
abbrev cc1_stg11_0 : Ref sig .tc := ⟨.vmem, 27, rfl⟩
abbrev cc1_stg12_0 : Ref sig .tc := ⟨.vmem, 28, rfl⟩
abbrev cc1_stg13_0 : Ref sig .tc := ⟨.vmem, 29, rfl⟩
abbrev cc1_stg14_0 : Ref sig .tc := ⟨.vmem, 30, rfl⟩
abbrev cc1_stg15_0 : Ref sig .tc := ⟨.vmem, 31, rfl⟩
abbrev cc1_stg15_1 : Ref sig .tc := ⟨.vmem, 32, rfl⟩
abbrev cc1_stg16_0 : Ref sig .tc := ⟨.vmem, 33, rfl⟩
abbrev cc1_stg16_1 : Ref sig .tc := ⟨.vmem, 34, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem3_0 : DmaSem sig := 19
abbrev cc1_sem4_0 : DmaSem sig := 20
abbrev cc1_sem5_0 : DmaSem sig := 21
abbrev cc1_sem6_0 : DmaSem sig := 22
abbrev cc1_sem7_0 : DmaSem sig := 23
abbrev cc1_sem8_0 : DmaSem sig := 24
abbrev cc1_sem9_0 : DmaSem sig := 25
abbrev cc1_sem10_0 : DmaSem sig := 26
abbrev cc1_sem11_0 : DmaSem sig := 27
abbrev cc1_sem12_0 : DmaSem sig := 28
abbrev cc1_sem13_0 : DmaSem sig := 29
abbrev cc1_sem14_0 : DmaSem sig := 30
abbrev cc1_sem15_0 : DmaSem sig := 31
abbrev cc1_sem15_1 : DmaSem sig := 32
abbrev cc1_sem16_0 : DmaSem sig := 33
abbrev cc1_sem16_1 : DmaSem sig := 34

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S512x512 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S512x512 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev grid1 : Pipeline.Grid := ⟨2, ![8, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_3 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_4 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_5 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_6 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_9 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_10 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_11 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_12 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_13 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_14 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_15 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_16 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S64x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S128x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S512 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S512 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 1 → Memref sig .tc .vmem S512x512 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev stage1_8 : Fin 1 → Memref sig .tc .vmem S512 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false, false]

abbrev stage1_9 : Fin 1 → Memref sig .tc .vmem S512 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false, false]

abbrev stage1_10 : Fin 1 → Memref sig .tc .vmem S512 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false, false]

abbrev stage1_11 : Fin 1 → Memref sig .tc .vmem S512 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false, false]

abbrev stage1_12 : Fin 1 → Memref sig .tc .vmem S512 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false, false]

abbrev stage1_13 : Fin 1 → Memref sig .tc .vmem S512x33 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false, false]

abbrev stage1_14 : Fin 1 → Memref sig .tc .vmem S33 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false, false]

abbrev stage1_15 : Fin 2 → Memref sig .tc .vmem S64x128 .f32 := fun | 0 => Memref.whole cc1_stg15_0 | 1 => Memref.whole cc1_stg15_1 | ⟨_ + 2, h⟩ => absurd h (Nat.not_lt.2 (Nat.le_add_left _ _))
abbrev sem1_15 : Fin 2 → DmaSem sig := fun | 0 => cc1_sem15_0 | 1 => cc1_sem15_1 | ⟨_ + 2, h⟩ => absurd h (Nat.not_lt.2 (Nat.le_add_left _ _))
abbrev reads1_15 : Fin grid1.rank → Bool := ![true, true]

abbrev stage1_16 : Fin 2 → Memref sig .tc .vmem S64x128x32 .f32 := fun | 0 => Memref.whole cc1_stg16_0 | 1 => Memref.whole cc1_stg16_1 | ⟨_ + 2, h⟩ => absurd h (Nat.not_lt.2 (Nat.le_add_left _ _))
abbrev sem1_16 : Fin 2 → DmaSem sig := fun | 0 => cc1_sem16_0 | 1 => cc1_sem16_1 | ⟨_ + 2, h⟩ => absurd h (Nat.not_lt.2 (Nat.le_add_left _ _))
abbrev reads1_16 : Fin grid1.rank → Bool := ![true, true]

class Facts₀ : Prop where
  transposes_S512x256_S256x512_1_0 : S512x256.Transposes [1, 0] S256x512
  transposes_S128x512_S512x128_1_0 : S128x512.Transposes [1, 0] S512x128
  slices_S512x512_S512x256_0_0 : S512x512.Slices ![0, 0] S512x256
  slices_S512x512_S512x256_0_256 : S512x512.Slices ![0, 256] S512x256
  transposes_S512x512_S512x512_1_0 : S512x512.Transposes [1, 0] S512x512
  transposes_S33x512_S512x33_1_0 : S33x512.Transposes [1, 0] S512x33
  inb_S512x256_S512x256_0_0 : ∀ a, (![0, 0] : Fin 2 → Nat) a + S512x256.size a ≤ S512x256.size a
  h_S512x256 : 0 < S512x256.numel
  bitsLt_bf16_f32 : FTy.bits .bf16 < FTy.bits .f32
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S512_S512_0 : ∀ a, (![0] : Fin 1 → Nat) a + S512.size a ≤ S512.size a
  h_S512 : 0 < S512.numel
  shapeCasts_S512_S1x512 : S512.ShapeCasts S1x512
  broadcasts_S1x512_S512x512 : S1x512.Broadcasts S512x512
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S128_S128_0 : ∀ a, (![0] : Fin 1 → Nat) a + S128.size a ≤ S128.size a
  h_S128 : 0 < S128.numel
  shapeCasts_S128_S1x128 : S128.ShapeCasts S1x128
  broadcasts_S1x128_S512x128 : S1x128.Broadcasts S512x128
  inb_S512x512_S512x512_0_0 : ∀ a, (![0, 0] : Fin 2 → Nat) a + S512x512.size a ≤ S512x512.size a
  h_S512x512 : 0 < S512x512.numel
  packedbf16_S512x512_S512x512_0_0 : (Rect.unit (s := S512x512) ![0, 0] S512x512.size inb_S512x512_S512x512_0_0).PackedRows (EltTy.packing .bf16)
  inb_S64x512_S64x512_0_0 : ∀ a, (![0, 0] : Fin 2 → Nat) a + S64x512.size a ≤ S64x512.size a
  h_S64x512 : 0 < S64x512.numel
  shapeCasts_S64x512_S64x512 : S64x512.ShapeCasts S64x512
  inb_S128x512_S128x512_0_0 : ∀ a, (![0, 0] : Fin 2 → Nat) a + S128x512.size a ≤ S128x512.size a
  h_S128x512 : 0 < S128x512.numel
  shapeCasts_S128x512_S128x512 : S128x512.ShapeCasts S128x512
  shapeCasts_S64x512_S64x1x512 : S64x512.ShapeCasts S64x1x512
  shapeCasts_S128x512_S1x128x512 : S128x512.ShapeCasts S1x128x512
  broadcasts_S64x1x512_S64x128x512 : S64x1x512.Broadcasts S64x128x512
  broadcasts_S1x128x512_S64x128x512 : S1x128x512.Broadcasts S64x128x512
  shapeCasts_S512_S1x1x512 : S512.ShapeCasts S1x1x512
  broadcasts_S1x1x512_S64x128x512 : S1x1x512.Broadcasts S64x128x512
  shapeCasts_S64x128x512_S8192x512 : S64x128x512.ShapeCasts S8192x512
  shapeCasts_S512x512_S512x512 : S512x512.ShapeCasts S512x512
  shapeCasts_S8192x512_S64x128x512 : S8192x512.ShapeCasts S64x128x512
  inb_S512x33_S512x33_0_0 : ∀ a, (![0, 0] : Fin 2 → Nat) a + S512x33.size a ≤ S512x33.size a
  h_S512x33 : 0 < S512x33.numel
  shapeCasts_S512x33_S512x33 : S512x33.ShapeCasts S512x33
  inb_S33_S33_0 : ∀ a, (![0] : Fin 1 → Nat) a + S33.size a ≤ S33.size a
  h_S33 : 0 < S33.numel
  shapeCasts_S33_S1x33 : S33.ShapeCasts S1x33
  broadcasts_S1x33_S8192x33 : S1x33.Broadcasts S8192x33
  shapeCasts_S8192x33_S64x128x33 : S8192x33.ShapeCasts S64x128x33
  slices_S64x128x33_o0_0_0_S64x128x1 : S64x128x33.Slices ![0, 0, 0] S64x128x1
  shapeCasts_S64x128x1_S64x128 : S64x128x1.ShapeCasts S64x128
  inb_S64x128_S64x128_0_0 : ∀ a, (![0, 0] : Fin 2 → Nat) a + S64x128.size a ≤ S64x128.size a
  h_S64x128 : 0 < S64x128.numel
  slices_S64x128x33_o0_0_1_S64x128x32 : S64x128x33.Slices ![0, 0, 1] S64x128x32
  inb_S64x128x32_S64x128x32_0_0_0 : ∀ a, (![0, 0, 0] : Fin 3 → Nat) a + S64x128x32.size a ≤ S64x128x32.size a
  h_S64x128x32 : 0 < S64x128x32.numel
  dot_S512x256_S256x512_S512x512_1_0_0_1_n_n_wf : DotDims.WF S512x256 S256x512 S512x512 [1] [0] [0] [1] [] []
  dot_S512x512_S512x128_S512x128_1_0_0_1_n_n_wf : DotDims.WF S512x512 S512x128 S512x128 [1] [0] [0] [1] [] []
  dot_S8192x512_S512x512_S8192x512_1_0_0_1_n_n_wf : DotDims.WF S8192x512 S512x512 S8192x512 [1] [0] [0] [1] [] []
  dot_S8192x512_S512x33_S8192x33_1_0_0_1_n_n_wf : DotDims.WF S8192x512 S512x33 S8192x33 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S512x256.size a ≤ S512x256.size a
  hwx0_0 : ∀ i : grid0.Coords, EltTy.bits .f32 = 32 ∨ (Rect.block (s := S512x256) S512x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x512.size a ≤ S256x512.size a
  hwx0_1 : ∀ i : grid0.Coords, EltTy.bits .f32 = 32 ∨ (Rect.block (s := S256x512) S256x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512.size a ≤ S512.size a
  hwx0_2 : ∀ i : grid0.Coords, EltTy.bits .f32 = 32 ∨ (Rect.block (s := S512) S512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512.size a ≤ S512.size a
  hwx0_3 : ∀ i : grid0.Coords, EltTy.bits .f32 = 32 ∨ (Rect.block (s := S512) S512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512.size a ≤ S512.size a
  hwx0_4 : ∀ i : grid0.Coords, EltTy.bits .f32 = 32 ∨ (Rect.block (s := S512) S512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512.size a ≤ S512.size a
  hwx0_5 : ∀ i : grid0.Coords, EltTy.bits .f32 = 32 ∨ (Rect.block (s := S512) S512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512.size a ≤ S512.size a
  hwx0_6 : ∀ i : grid0.Coords, EltTy.bits .f32 = 32 ∨ (Rect.block (s := S512) S512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512x128.size a ≤ S512x128.size a
  hwx0_7 : ∀ i : grid0.Coords, EltTy.bits .f32 = 32 ∨ (Rect.block (s := S512x128) S512x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128.size a ≤ S128.size a
  hwx0_8 : ∀ i : grid0.Coords, EltTy.bits .f32 = 32 ∨ (Rect.block (s := S128) S128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S256x512.size a ≤ S256x512.size a
  hwx0_9 : ∀ i : grid0.Coords, EltTy.bits .f32 = 32 ∨ (Rect.block (s := S256x512) S256x512.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S256x512.size a ≤ S256x512.size a
  hwx0_10 : ∀ i : grid0.Coords, EltTy.bits .f32 = 32 ∨ (Rect.block (s := S256x512) S256x512.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S512x128.size a ≤ S512x128.size a
  hwx0_11 : ∀ i : grid0.Coords, EltTy.bits .f32 = 32 ∨ (Rect.block (s := S512x128) S512x128.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S512x512.size a ≤ S512x512.size a
  hwx0_12 : ∀ i : grid0.Coords, EltTy.bits .bf16 = 32 ∨ (Rect.block (s := S512x512) S512x512.size (cc0_transform_12 i) (hinb0_12 i)).WholeWords (EltTy.packing .bf16)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S512x512.size a ≤ S512x512.size a
  hwx0_13 : ∀ i : grid0.Coords, EltTy.bits .bf16 = 32 ∨ (Rect.block (s := S512x512) S512x512.size (cc0_transform_13 i) (hinb0_13 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S64x512.size a ≤ S512x512.size a
  hwx1_0 : ∀ i : grid1.Coords, EltTy.bits .bf16 = 32 ∨ (Rect.block (s := S512x512) S64x512.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S128x512.size a ≤ S512x512.size a
  hwx1_1 : ∀ i : grid1.Coords, EltTy.bits .bf16 = 32 ∨ (Rect.block (s := S512x512) S128x512.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S512.size a ≤ S512.size a
  hwx1_2 : ∀ i : grid1.Coords, EltTy.bits .f32 = 32 ∨ (Rect.block (s := S512) S512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S512.size a ≤ S512.size a
  hwx1_3 : ∀ i : grid1.Coords, EltTy.bits .f32 = 32 ∨ (Rect.block (s := S512) S512.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S512.size a ≤ S512.size a
  hwx1_4 : ∀ i : grid1.Coords, EltTy.bits .f32 = 32 ∨ (Rect.block (s := S512) S512.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S512.size a ≤ S512.size a
  hwx1_5 : ∀ i : grid1.Coords, EltTy.bits .f32 = 32 ∨ (Rect.block (s := S512) S512.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S512.size a ≤ S512.size a
  hwx1_6 : ∀ i : grid1.Coords, EltTy.bits .f32 = 32 ∨ (Rect.block (s := S512) S512.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S512x512.size a ≤ S512x512.size a
  hwx1_7 : ∀ i : grid1.Coords, EltTy.bits .f32 = 32 ∨ (Rect.block (s := S512x512) S512x512.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S512.size a ≤ S512.size a
  hwx1_8 : ∀ i : grid1.Coords, EltTy.bits .f32 = 32 ∨ (Rect.block (s := S512) S512.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S512.size a ≤ S512.size a
  hwx1_9 : ∀ i : grid1.Coords, EltTy.bits .f32 = 32 ∨ (Rect.block (s := S512) S512.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S512.size a ≤ S512.size a
  hwx1_10 : ∀ i : grid1.Coords, EltTy.bits .f32 = 32 ∨ (Rect.block (s := S512) S512.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S512.size a ≤ S512.size a
  hwx1_11 : ∀ i : grid1.Coords, EltTy.bits .f32 = 32 ∨ (Rect.block (s := S512) S512.size (cc1_transform_11 i) (hinb1_11 i)).WholeWords (EltTy.packing .f32)
  hstage1_12 : ∀ j, (stage1_12 j).IsWhole
  nbuf1_12 : grid1.bufCount reads1_12 true = 1
  hreads1_12 : ∀ i i' : grid1.Coords, (∀ a, reads1_12 a = true → i a = i' a) → cc1_transform_12 i = cc1_transform_12 i'
  hinb1_12 : ∀ (i : grid1.Coords) a, (cc1_transform_12 i a + 1) * S512.size a ≤ S512.size a
  hwx1_12 : ∀ i : grid1.Coords, EltTy.bits .f32 = 32 ∨ (Rect.block (s := S512) S512.size (cc1_transform_12 i) (hinb1_12 i)).WholeWords (EltTy.packing .f32)
  hstage1_13 : ∀ j, (stage1_13 j).IsWhole
  nbuf1_13 : grid1.bufCount reads1_13 true = 1
  hreads1_13 : ∀ i i' : grid1.Coords, (∀ a, reads1_13 a = true → i a = i' a) → cc1_transform_13 i = cc1_transform_13 i'
  hinb1_13 : ∀ (i : grid1.Coords) a, (cc1_transform_13 i a + 1) * S512x33.size a ≤ S512x33.size a
  hwx1_13 : ∀ i : grid1.Coords, EltTy.bits .f32 = 32 ∨ (Rect.block (s := S512x33) S512x33.size (cc1_transform_13 i) (hinb1_13 i)).WholeWords (EltTy.packing .f32)
  hstage1_14 : ∀ j, (stage1_14 j).IsWhole
  nbuf1_14 : grid1.bufCount reads1_14 true = 1
  hreads1_14 : ∀ i i' : grid1.Coords, (∀ a, reads1_14 a = true → i a = i' a) → cc1_transform_14 i = cc1_transform_14 i'
  hinb1_14 : ∀ (i : grid1.Coords) a, (cc1_transform_14 i a + 1) * S33.size a ≤ S33.size a
  hwx1_14 : ∀ i : grid1.Coords, EltTy.bits .f32 = 32 ∨ (Rect.block (s := S33) S33.size (cc1_transform_14 i) (hinb1_14 i)).WholeWords (EltTy.packing .f32)
  hstage1_15 : ∀ j, (stage1_15 j).IsWhole
  nbuf1_15 : grid1.bufCount reads1_15 false = 2
  hreads1_15 : ∀ i i' : grid1.Coords, (∀ a, reads1_15 a = true → i a = i' a) → cc1_transform_15 i = cc1_transform_15 i'
  hinb1_15 : ∀ (i : grid1.Coords) a, (cc1_transform_15 i a + 1) * S64x128.size a ≤ S512x512.size a
  hwx1_15 : ∀ i : grid1.Coords, EltTy.bits .f32 = 32 ∨ (Rect.block (s := S512x512) S64x128.size (cc1_transform_15 i) (hinb1_15 i)).WholeWords (EltTy.packing .f32)
  hstage1_16 : ∀ j, (stage1_16 j).IsWhole
  nbuf1_16 : grid1.bufCount reads1_16 false = 2
  hreads1_16 : ∀ i i' : grid1.Coords, (∀ a, reads1_16 a = true → i a = i' a) → cc1_transform_16 i = cc1_transform_16 i'
  hinb1_16 : ∀ (i : grid1.Coords) a, (cc1_transform_16 i a + 1) * S64x128x32.size a ≤ S512x512x32.size a
  hwx1_16 : ∀ i : grid1.Coords, EltTy.bits .f32 = 32 ∨ (Rect.block (s := S512x512x32) S64x128x32.size (cc1_transform_16 i) (hinb1_16 i)).WholeWords (EltTy.packing .f32)

variable [Facts₀]

def dot_S512x256_S256x512_S512x512_1_0_0_1_n_n : DotDims S512x256 S256x512 S512x512 where
  lhsContracting := [1]
  rhsContracting := [0]
  lhsNonContracting := [0]
  rhsNonContracting := [1]
  lhsBatch := []
  rhsBatch := []
  wf := dot_S512x256_S256x512_S512x512_1_0_0_1_n_n_wf
def dot_S512x512_S512x128_S512x128_1_0_0_1_n_n : DotDims S512x512 S512x128 S512x128 where
  lhsContracting := [1]
  rhsContracting := [0]
  lhsNonContracting := [0]
  rhsNonContracting := [1]
  lhsBatch := []
  rhsBatch := []
  wf := dot_S512x512_S512x128_S512x128_1_0_0_1_n_n_wf
def dot_S8192x512_S512x512_S8192x512_1_0_0_1_n_n : DotDims S8192x512 S512x512 S8192x512 where
  lhsContracting := [1]
  rhsContracting := [0]
  lhsNonContracting := [0]
  rhsNonContracting := [1]
  lhsBatch := []
  rhsBatch := []
  wf := dot_S8192x512_S512x512_S8192x512_1_0_0_1_n_n_wf
def dot_S8192x512_S512x33_S8192x33_1_0_0_1_n_n : DotDims S8192x512 S512x33 S8192x33 where
  lhsContracting := [1]
  rhsContracting := [0]
  lhsNonContracting := [0]
  rhsNonContracting := [1]
  lhsBatch := []
  rhsBatch := []
  wf := dot_S8192x512_S512x33_S8192x33_1_0_0_1_n_n_wf

abbrev win0_0 : Pipeline.Window sig grid0 :=
  Pipeline.Window.ofSpec (Memref.whole main_arg0) S512x256.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v1) S512x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v4) S256x512.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v5) S256x512.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v8_0) S512x128.size cc0_transform_11 reads0_11 true true 1 stage0_11 sem0_11
    hrank0 hreads0_11 hinb0_11 nbuf0_11 (Memref.isWhole_whole _) hwx0_11 hstage0_11

abbrev win0_12 : Pipeline.Window sig grid0 :=
  Pipeline.Window.ofSpec (Memref.whole main_v8_1) S512x512.size cc0_transform_12 reads0_12 true true 1 stage0_12 sem0_12
    hrank0 hreads0_12 hinb0_12 nbuf0_12 (Memref.isWhole_whole _) hwx0_12 hstage0_12

abbrev win0_13 : Pipeline.Window sig grid0 :=
  Pipeline.Window.ofSpec (Memref.whole main_v8_2) S512x512.size cc0_transform_13 reads0_13 true true 1 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

abbrev win1_0 : Pipeline.Window sig grid1 :=
  Pipeline.Window.ofSpec (Memref.whole main_v8_1) S64x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8_2) S128x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg10) S512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg11) S512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg12) S512.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg13) S512.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg14) S512.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v6) S512x512.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg16) S512.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_arg17) S512.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_arg18) S512.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_arg19) S512.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_arg20) S512.size cc1_transform_12 reads1_12 false true 1 stage1_12 sem1_12
    hrank1 hreads1_12 hinb1_12 nbuf1_12 (Memref.isWhole_whole _) hwx1_12 hstage1_12

abbrev win1_13 : Pipeline.Window sig grid1 :=
  Pipeline.Window.ofSpec (Memref.whole main_v7) S512x33.size cc1_transform_13 reads1_13 false true 1 stage1_13 sem1_13
    hrank1 hreads1_13 hinb1_13 nbuf1_13 (Memref.isWhole_whole _) hwx1_13 hstage1_13

abbrev win1_14 : Pipeline.Window sig grid1 :=
  Pipeline.Window.ofSpec (Memref.whole main_arg22) S33.size cc1_transform_14 reads1_14 false true 1 stage1_14 sem1_14
    hrank1 hreads1_14 hinb1_14 nbuf1_14 (Memref.isWhole_whole _) hwx1_14 hstage1_14

abbrev win1_15 : Pipeline.Window sig grid1 :=
  Pipeline.Window.ofSpec (Memref.whole main_v9_0) S64x128.size cc1_transform_15 reads1_15 true false 2 stage1_15 sem1_15
    hrank1 hreads1_15 hinb1_15 nbuf1_15 (Memref.isWhole_whole _) hwx1_15 hstage1_15

abbrev win1_16 : Pipeline.Window sig grid1 :=
  Pipeline.Window.ofSpec (Memref.whole main_v9_1) S64x128x32.size cc1_transform_16 reads1_16 true false 2 stage1_16 sem1_16
    hrank1 hreads1_16 hinb1_16 nbuf1_16 (Memref.isWhole_whole _) hwx1_16 hstage1_16

abbrev win1 : Fin 17 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | 14 => win1_14 | 15 => win1_15 | 16 => win1_16 | ⟨_ + 17, h⟩ => absurd h (Nat.not_lt.2 (Nat.le_add_left _ _))
abbrev spec1 : Fin 17 → Pipeline.WinSpec sig grid1.rank := fun w => (win1 w).toWinSpec

class Facts : Prop extends Facts₀ where

variable [Facts]
-- ==== ReferenceIdeal.lean ====
abbrev S512x256 : Shape := ⟨2, ![512, 256]⟩
abbrev S512 : Shape := ⟨1, ![512]⟩
abbrev S128x512 : Shape := ⟨2, ![128, 512]⟩
abbrev S128 : Shape := ⟨1, ![128]⟩
abbrev S512x512 : Shape := ⟨2, ![512, 512]⟩
abbrev S33x512 : Shape := ⟨2, ![33, 512]⟩
abbrev S33 : Shape := ⟨1, ![33]⟩
abbrev S256x512 : Shape := ⟨2, ![256, 512]⟩
abbrev S1x512 : Shape := ⟨2, ![1, 512]⟩
abbrev S_ : Shape := ⟨0, ![]⟩
abbrev S512x128 : Shape := ⟨2, ![512, 128]⟩
abbrev S1x128 : Shape := ⟨2, ![1, 128]⟩
abbrev S512x1x512 : Shape := ⟨3, ![512, 1, 512]⟩
abbrev S1x512x512 : Shape := ⟨3, ![1, 512, 512]⟩
abbrev S512x512x512 : Shape := ⟨3, ![512, 512, 512]⟩
abbrev S1x1x512 : Shape := ⟨3, ![1, 1, 512]⟩
abbrev S262144x512 : Shape := ⟨2, ![262144, 512]⟩
abbrev S512x33 : Shape := ⟨2, ![512, 33]⟩
abbrev S262144x33 : Shape := ⟨2, ![262144, 33]⟩
abbrev S1x33 : Shape := ⟨2, ![1, 33]⟩
abbrev S262144x1 : Shape := ⟨2, ![262144, 1]⟩
abbrev S262144 : Shape := ⟨1, ![262144]⟩
abbrev S262144x32 : Shape := ⟨2, ![262144, 32]⟩
abbrev S512x512x32 : Shape := ⟨3, ![512, 512, 32]⟩

abbrev nBuf : Space → Nat
  | .hbm => 114
  | .vmem => 0
  | .smem => 0
  | _ => 0

abbrev bufTy : (tb : Table) → Fin (tcTables nBuf tb) → BufTy
  | .hbm, ⟨0, _⟩ => ⟨S512x256, .f32⟩
  | .hbm, ⟨1, _⟩ => ⟨S512x256, .f32⟩
  | .hbm, ⟨2, _⟩ => ⟨S512, .f32⟩
  | .hbm, ⟨3, _⟩ => ⟨S512, .f32⟩
  | .hbm, ⟨4, _⟩ => ⟨S512, .f32⟩
  | .hbm, ⟨5, _⟩ => ⟨S512, .f32⟩
  | .hbm, ⟨6, _⟩ => ⟨S512, .f32⟩
  | .hbm, ⟨7, _⟩ => ⟨S128x512, .f32⟩
  | .hbm, ⟨8, _⟩ => ⟨S128, .f32⟩
  | .hbm, ⟨9, _⟩ => ⟨S512x512, .f32⟩
  | .hbm, ⟨10, _⟩ => ⟨S512, .f32⟩
  | .hbm, ⟨11, _⟩ => ⟨S512, .f32⟩
  | .hbm, ⟨12, _⟩ => ⟨S512, .f32⟩
  | .hbm, ⟨13, _⟩ => ⟨S512, .f32⟩
  | .hbm, ⟨14, _⟩ => ⟨S512, .f32⟩
  | .hbm, ⟨15, _⟩ => ⟨S512x512, .f32⟩
  | .hbm, ⟨16, _⟩ => ⟨S512, .f32⟩
  | .hbm, ⟨17, _⟩ => ⟨S512, .f32⟩
  | .hbm, ⟨18, _⟩ => ⟨S512, .f32⟩
  | .hbm, ⟨19, _⟩ => ⟨S512, .f32⟩
  | .hbm, ⟨20, _⟩ => ⟨S512, .f32⟩
  | .hbm, ⟨21, _⟩ => ⟨S33x512, .f32⟩
  | .hbm, ⟨22, _⟩ => ⟨S33, .f32⟩
  | .hbm, ⟨23, _⟩ => ⟨S256x512, .f32⟩
  | .hbm, ⟨24, _⟩ => ⟨S512x512, .f32⟩
  | .hbm, ⟨25, _⟩ => ⟨S1x512, .f32⟩
  | .hbm, ⟨26, _⟩ => ⟨S512x512, .f32⟩
  | .hbm, ⟨27, _⟩ => ⟨S512x512, .f32⟩
  | .hbm, ⟨28, _⟩ => ⟨S1x512, .f32⟩
  | .hbm, ⟨29, _⟩ => ⟨S512x512, .f32⟩
  | .hbm, ⟨30, _⟩ => ⟨S512x512, .f32⟩
  | .hbm, ⟨31, _⟩ => ⟨S_, .f32⟩
  | .hbm, ⟨32, _⟩ => ⟨S512, .f32⟩
  | .hbm, ⟨33, _⟩ => ⟨S512, .f32⟩
  | .hbm, ⟨34, _⟩ => ⟨S512, .f32⟩
  | .hbm, ⟨35, _⟩ => ⟨S512, .f32⟩
  | .hbm, ⟨36, _⟩ => ⟨S1x512, .f32⟩
  | .hbm, ⟨37, _⟩ => ⟨S512x512, .f32⟩
  | .hbm, ⟨38, _⟩ => ⟨S512x512, .f32⟩
  | .hbm, ⟨39, _⟩ => ⟨S1x512, .f32⟩
  | .hbm, ⟨40, _⟩ => ⟨S512x512, .f32⟩
  | .hbm, ⟨41, _⟩ => ⟨S512x512, .f32⟩
  | .hbm, ⟨42, _⟩ => ⟨S_, .f32⟩
  | .hbm, ⟨43, _⟩ => ⟨S512x512, .f32⟩
  | .hbm, ⟨44, _⟩ => ⟨S512x512, .f32⟩
  | .hbm, ⟨45, _⟩ => ⟨S512x128, .f32⟩
  | .hbm, ⟨46, _⟩ => ⟨S512x128, .f32⟩
  | .hbm, ⟨47, _⟩ => ⟨S1x128, .f32⟩
  | .hbm, ⟨48, _⟩ => ⟨S512x128, .f32⟩
  | .hbm, ⟨49, _⟩ => ⟨S512x128, .f32⟩
  | .hbm, ⟨50, _⟩ => ⟨S512x256, .f32⟩
  | .hbm, ⟨51, _⟩ => ⟨S512x256, .f32⟩
  | .hbm, ⟨52, _⟩ => ⟨S256x512, .f32⟩
  | .hbm, ⟨53, _⟩ => ⟨S512x512, .f32⟩
  | .hbm, ⟨54, _⟩ => ⟨S256x512, .f32⟩
  | .hbm, ⟨55, _⟩ => ⟨S512x512, .f32⟩
  | .hbm, ⟨56, _⟩ => ⟨S512x1x512, .f32⟩
  | .hbm, ⟨57, _⟩ => ⟨S1x512x512, .f32⟩
  | .hbm, ⟨58, _⟩ => ⟨S512x512x512, .f32⟩
  | .hbm, ⟨59, _⟩ => ⟨S512x512x512, .f32⟩
  | .hbm, ⟨60, _⟩ => ⟨S512x512x512, .f32⟩
  | .hbm, ⟨61, _⟩ => ⟨S1x1x512, .f32⟩
  | .hbm, ⟨62, _⟩ => ⟨S512x512x512, .f32⟩
  | .hbm, ⟨63, _⟩ => ⟨S512x512x512, .f32⟩
  | .hbm, ⟨64, _⟩ => ⟨S262144x512, .f32⟩
  | .hbm, ⟨65, _⟩ => ⟨S1x512, .f32⟩
  | .hbm, ⟨66, _⟩ => ⟨S262144x512, .f32⟩
  | .hbm, ⟨67, _⟩ => ⟨S262144x512, .f32⟩
  | .hbm, ⟨68, _⟩ => ⟨S_, .f32⟩
  | .hbm, ⟨69, _⟩ => ⟨S512, .f32⟩
  | .hbm, ⟨70, _⟩ => ⟨S512, .f32⟩
  | .hbm, ⟨71, _⟩ => ⟨S512, .f32⟩
  | .hbm, ⟨72, _⟩ => ⟨S512, .f32⟩
  | .hbm, ⟨73, _⟩ => ⟨S1x512, .f32⟩
  | .hbm, ⟨74, _⟩ => ⟨S262144x512, .f32⟩
  | .hbm, ⟨75, _⟩ => ⟨S262144x512, .f32⟩
  | .hbm, ⟨76, _⟩ => ⟨S1x512, .f32⟩
  | .hbm, ⟨77, _⟩ => ⟨S262144x512, .f32⟩
  | .hbm, ⟨78, _⟩ => ⟨S262144x512, .f32⟩
  | .hbm, ⟨79, _⟩ => ⟨S_, .f32⟩
  | .hbm, ⟨80, _⟩ => ⟨S262144x512, .f32⟩
  | .hbm, ⟨81, _⟩ => ⟨S262144x512, .f32⟩
  | .hbm, ⟨82, _⟩ => ⟨S512x512, .f32⟩
  | .hbm, ⟨83, _⟩ => ⟨S262144x512, .f32⟩
  | .hbm, ⟨84, _⟩ => ⟨S1x512, .f32⟩
  | .hbm, ⟨85, _⟩ => ⟨S262144x512, .f32⟩
  | .hbm, ⟨86, _⟩ => ⟨S262144x512, .f32⟩
  | .hbm, ⟨87, _⟩ => ⟨S1x512, .f32⟩
  | .hbm, ⟨88, _⟩ => ⟨S262144x512, .f32⟩
  | .hbm, ⟨89, _⟩ => ⟨S262144x512, .f32⟩
  | .hbm, ⟨90, _⟩ => ⟨S_, .f32⟩
  | .hbm, ⟨91, _⟩ => ⟨S512, .f32⟩
  | .hbm, ⟨92, _⟩ => ⟨S512, .f32⟩
  | .hbm, ⟨93, _⟩ => ⟨S512, .f32⟩
  | .hbm, ⟨94, _⟩ => ⟨S512, .f32⟩
  | .hbm, ⟨95, _⟩ => ⟨S1x512, .f32⟩
  | .hbm, ⟨96, _⟩ => ⟨S262144x512, .f32⟩
  | .hbm, ⟨97, _⟩ => ⟨S262144x512, .f32⟩
  | .hbm, ⟨98, _⟩ => ⟨S1x512, .f32⟩
  | .hbm, ⟨99, _⟩ => ⟨S262144x512, .f32⟩
  | .hbm, ⟨100, _⟩ => ⟨S262144x512, .f32⟩
  | .hbm, ⟨101, _⟩ => ⟨S_, .f32⟩
  | .hbm, ⟨102, _⟩ => ⟨S262144x512, .f32⟩
  | .hbm, ⟨103, _⟩ => ⟨S262144x512, .f32⟩
  | .hbm, ⟨104, _⟩ => ⟨S512x33, .f32⟩
  | .hbm, ⟨105, _⟩ => ⟨S262144x33, .f32⟩
  | .hbm, ⟨106, _⟩ => ⟨S1x33, .f32⟩
  | .hbm, ⟨107, _⟩ => ⟨S262144x33, .f32⟩
  | .hbm, ⟨108, _⟩ => ⟨S262144x33, .f32⟩
  | .hbm, ⟨109, _⟩ => ⟨S262144x1, .f32⟩
  | .hbm, ⟨110, _⟩ => ⟨S262144, .f32⟩
  | .hbm, ⟨111, _⟩ => ⟨S512x512, .f32⟩
  | .hbm, ⟨112, _⟩ => ⟨S262144x32, .f32⟩
  | .hbm, ⟨113, _⟩ => ⟨S512x512x32, .f32⟩
  | _, _ => ⟨S512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_cst : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_call0_cst : Ref sig .tc := ⟨.hbm, 42, rfl⟩
abbrev main_call0_v0 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_cst_0 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_call1_cst : Ref sig .tc := ⟨.hbm, 79, rfl⟩
abbrev main_call1_v0 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_cst_1 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_call2_cst : Ref sig .tc := ⟨.hbm, 101, rfl⟩
abbrev main_call2_v0 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩

abbrev nD : Nat := 1
abbrev τ : Topo := Topo.v7x

variable {F : FTy → Type} [FloatOps F]

class Facts₀ : Prop where
  transposes_S512x256_S256x512_1_0 : S512x256.Transposes [1, 0] S256x512
  bcast_S512_S1x512_1 : S512.BroadcastsInDim S1x512 (![1] : Fin 1 → Fin S1x512.rank)
  bcast_S1x512_S512x512_0_1 : S1x512.BroadcastsInDim S512x512 (![0, 1] : Fin 2 → Fin S512x512.rank)
  bcast_S_S512 : S_.BroadcastsInDim S512 (![] : Fin 0 → Fin S512.rank)
  bcast_S_S512x512 : S_.BroadcastsInDim S512x512 (![] : Fin 0 → Fin S512x512.rank)
  transposes_S128x512_S512x128_1_0 : S128x512.Transposes [1, 0] S512x128
  bcast_S128_S1x128_1 : S128.BroadcastsInDim S1x128 (![1] : Fin 1 → Fin S1x128.rank)
  bcast_S1x128_S512x128_0_1 : S1x128.BroadcastsInDim S512x128 (![0, 1] : Fin 2 → Fin S512x128.rank)
  slices_S512x512_S512x256_0_0 : S512x512.Slices ![0, 0] S512x256
  slices_S512x512_S512x256_0_256 : S512x512.Slices ![0, 256] S512x256
  bcast_S512x512_S512x1x512_0_2 : S512x512.BroadcastsInDim S512x1x512 (![0, 2] : Fin 2 → Fin S512x1x512.rank)
  bcast_S512x512_S1x512x512_1_2 : S512x512.BroadcastsInDim S1x512x512 (![1, 2] : Fin 2 → Fin S1x512x512.rank)
  bcast_S512x1x512_S512x512x512_0_1_2 : S512x1x512.BroadcastsInDim S512x512x512 (![0, 1, 2] : Fin 3 → Fin S512x512x512.rank)
  bcast_S1x512x512_S512x512x512_0_1_2 : S1x512x512.BroadcastsInDim S512x512x512 (![0, 1, 2] : Fin 3 → Fin S512x512x512.rank)
  bcast_S512_S1x1x512_2 : S512.BroadcastsInDim S1x1x512 (![2] : Fin 1 → Fin S1x1x512.rank)
  bcast_S1x1x512_S512x512x512_0_1_2 : S1x1x512.BroadcastsInDim S512x512x512 (![0, 1, 2] : Fin 3 → Fin S512x512x512.rank)
  shapeCasts_S512x512x512_S262144x512 : S512x512x512.ShapeCasts S262144x512
  bcast_S1x512_S262144x512_0_1 : S1x512.BroadcastsInDim S262144x512 (![0, 1] : Fin 2 → Fin S262144x512.rank)
  bcast_S_S262144x512 : S_.BroadcastsInDim S262144x512 (![] : Fin 0 → Fin S262144x512.rank)
  transposes_S512x512_S512x512_1_0 : S512x512.Transposes [1, 0] S512x512
  transposes_S33x512_S512x33_1_0 : S33x512.Transposes [1, 0] S512x33
  bcast_S33_S1x33_1 : S33.BroadcastsInDim S1x33 (![1] : Fin 1 → Fin S1x33.rank)
  bcast_S1x33_S262144x33_0_1 : S1x33.BroadcastsInDim S262144x33 (![0, 1] : Fin 2 → Fin S262144x33.rank)
  slices_S262144x33_S262144x1_0_0 : S262144x33.Slices ![0, 0] S262144x1
  shapeCasts_S262144x1_S262144 : S262144x1.ShapeCasts S262144
  shapeCasts_S262144_S512x512 : S262144.ShapeCasts S512x512
  slices_S262144x33_S262144x32_0_1 : S262144x33.Slices ![0, 1] S262144x32
  shapeCasts_S262144x32_S512x512x32 : S262144x32.ShapeCasts S512x512x32
  dot_S512x256_S256x512_S512x512_1_0_0_1_n_n_wf : DotDims.WF S512x256 S256x512 S512x512 [1] [0] [0] [1] [] []
  dot_S512x512_S512x128_S512x128_1_0_0_1_n_n_wf : DotDims.WF S512x512 S512x128 S512x128 [1] [0] [0] [1] [] []
  dot_S262144x512_S512x512_S262144x512_1_0_0_1_n_n_wf : DotDims.WF S262144x512 S512x512 S262144x512 [1] [0] [0] [1] [] []
  dot_S262144x512_S512x33_S262144x33_1_0_0_1_n_n_wf : DotDims.WF S262144x512 S512x33 S262144x33 [1] [0] [0] [1] [] []

variable [Facts₀]

def dot_S512x256_S256x512_S512x512_1_0_0_1_n_n : DotDims S512x256 S256x512 S512x512 where
  lhsContracting := [1]
  rhsContracting := [0]
  lhsNonContracting := [0]
  rhsNonContracting := [1]
  lhsBatch := []
  rhsBatch := []
  wf := dot_S512x256_S256x512_S512x512_1_0_0_1_n_n_wf
def dot_S512x512_S512x128_S512x128_1_0_0_1_n_n : DotDims S512x512 S512x128 S512x128 where
  lhsContracting := [1]
  rhsContracting := [0]
  lhsNonContracting := [0]
  rhsNonContracting := [1]
  lhsBatch := []
  rhsBatch := []
  wf := dot_S512x512_S512x128_S512x128_1_0_0_1_n_n_wf
def dot_S262144x512_S512x512_S262144x512_1_0_0_1_n_n : DotDims S262144x512 S512x512 S262144x512 where
  lhsContracting := [1]
  rhsContracting := [0]
  lhsNonContracting := [0]
  rhsNonContracting := [1]
  lhsBatch := []
  rhsBatch := []
  wf := dot_S262144x512_S512x512_S262144x512_1_0_0_1_n_n_wf
def dot_S262144x512_S512x33_S262144x33_1_0_0_1_n_n : DotDims S262144x512 S512x33 S262144x33 where
  lhsContracting := [1]
  rhsContracting := [0]
  lhsNonContracting := [0]
  rhsNonContracting := [1]
  lhsBatch := []
  rhsBatch := []
  wf := dot_S262144x512_S512x33_S262144x33_1_0_0_1_n_n_wf

class Facts : Prop extends Facts₀ where

variable [Facts]
-- ==== Proof.PairDecoder.lean ====
/-
  The graph decoder as functions on the extended reals, element by element.

  A node multilayer perceptron (a dense layer, evaluation-mode batch normalisation, a rectifier, a dense layer) gives
  the node features; an edge predictor over ALL ordered pairs (i, j) of nodes gives one logit and 32 features per pair:
  its first dense layer on the concatenation [x_i ; x_j] is the sum of two projections (one of x_i, one of x_j) plus a
  bias, followed by batch normalisation, a rectifier, a dense layer, batch normalisation, a rectifier and a last dense
  layer with 33 outputs (output 0 is the logit, outputs 1 … 32 the features).

  Everything is stated over curried coordinate functions, so that neither a tiling nor a flattening of the pair axis
  nor the storage order of a weight matrix appears here: a weight `w e k` is always indexed (input feature, output
  feature). Batch normalisation is written with its per-feature scale `s` as a parameter: the two programs compute it
  by different expressions (`γ · (var + ε)^(-1/2)` and `γ / √(var + ε)`), which agree where `0 < var + ε`.
-/
import Idealize.ShloMosaic.PureOps.Ideal
import Idealize.ShloMosaic.Lib.ValueIdx

noncomputable section

open scoped BigOperators

namespace Cert.PairDecoder

open Idealize.ShloMosaic Idealize.ShloMosaic.ValueIdx

/-! ## Arrays read by coordinates -/

/-- A vector read at a coordinate. -/
abbrev rd1 {α : Type} {n : Nat} (a : (⟨1, ![n]⟩ : Shape).Idx → α) (k : Fin n) : α := a (ix1 k)

/-- A matrix read at (row, column). -/
abbrev rd2 {α : Type} {n0 n1 : Nat} (a : (⟨2, ![n0, n1]⟩ : Shape).Idx → α) (i : Fin n0) (k : Fin n1) : α := a (ix2 i k)

/-- A matrix read transposed: `rd2T a k i = a[i, k]` (a weight stored (output, input), read (input, output)). -/
abbrev rd2T {α : Type} {n0 n1 : Nat} (a : (⟨2, ![n0, n1]⟩ : Shape).Idx → α) (k : Fin n1) (i : Fin n0) : α := a (ix2 i k)

/-- The first edge layer's weight on x_i: columns 0 … 255 of the stored (output, input) matrix, read (input, output). -/
def loHalf {α : Type} (a : (⟨2, ![512, 512]⟩ : Shape).Idx → α) (e : Fin 256) (k : Fin 512) : α :=
  a (ix2 k ⟨e.val, by omega⟩)

/-- The first edge layer's weight on x_j: columns 256 … 511 of the stored matrix, read (input, output). -/
def hiHalf {α : Type} (a : (⟨2, ![512, 512]⟩ : Shape).Idx → α) (e : Fin 256) (k : Fin 512) : α :=
  a (ix2 k ⟨256 + e.val, by omega⟩)

/-! ## The layers -/

/-- The rectifier, against the zero both programs print. -/
def relu0 (x : EReal) : EReal := max x (Ideal.ofBits .f32 0x00000000#32)

/-- Batch normalisation's ε as both programs print it. -/
def eps : EReal := Ideal.ofBits .f32 0x3727C5AC#32

/-- The per-feature scale as `γ · (var + ε)^(-1/2)`. -/
def scaleR (g v : Fin 512 → EReal) (k : Fin 512) : EReal := g k * Ideal.rsqrt (v k + eps)

/-- The per-feature scale as `γ / √(var + ε)`. -/
def scaleD (g v : Fin 512 → EReal) (k : Fin 512) : EReal := Ideal.div (g k) (Ideal.sqrt (v k + eps))

/-- Where `0 < u` the two spellings of `g · u^(-1/2)` agree on the extended reals (at `u = ⊤` both are `0`). -/
theorem mul_rsqrt_eq_div_sqrt (g u : EReal) (hu : 0 < u) : g * Ideal.rsqrt u = Ideal.div g (Ideal.sqrt u) := by
  induction u using EReal.rec with
  | bot => exact absurd hu (by simp)
  | top => simp [Ideal.div]
  | coe r =>
    have hr : 0 < r := by exact_mod_cast hu
    have hs : Real.sqrt r ≠ 0 := (Real.sqrt_pos.mpr hr).ne'
    rw [Ideal.rsqrt_coe, Ideal.sqrt_coe, if_neg (not_lt.mpr hr.le), if_neg hr.ne', if_neg (not_lt.mpr hr.le),
      Ideal.div, if_neg (by exact_mod_cast hs), EReal.coe_inv]

theorem scaleR_eq_scaleD (g v : Fin 512 → EReal) (h : ∀ k, 0 < v k + eps) : scaleR g v = scaleD g v :=
  funext fun k => mul_rsqrt_eq_div_sqrt (g k) (v k + eps) (h k)

/-! ## The node decoder -/

/-- The hidden layer of the node decoder at node `i`, feature `k`. -/
def nodeHidden (x : Fin 512 → Fin 256 → EReal) (w1 : Fin 256 → Fin 512 → EReal) (b1 mu1 s1 be1 : Fin 512 → EReal)
    (i k : Fin 512) : EReal :=
  relu0 ((((∑ e : Fin 256, x i e * w1 e k) + b1 k) - mu1 k) * s1 k + be1 k)

/-- The node features at node `i`, feature `f`. -/
def nodeFeat (x : Fin 512 → Fin 256 → EReal) (w1 : Fin 256 → Fin 512 → EReal) (b1 mu1 s1 be1 : Fin 512 → EReal)
    (w2 : Fin 512 → Fin 128 → EReal) (b2 : Fin 128 → EReal) (i : Fin 512) (f : Fin 128) : EReal :=
  (∑ k : Fin 512, nodeHidden x w1 b1 mu1 s1 be1 i k * w2 k f) + b2 f

/-! ## The edge predictor -/

/-- One of the two projections the first edge layer is the sum of. -/
def proj (x : Fin 512 → Fin 256 → EReal) (w : Fin 256 → Fin 512 → EReal) (i k : Fin 512) : EReal :=
  ∑ e : Fin 256, x i e * w e k

/-- The first hidden layer of the edge predictor at the pair (i, j), feature `k` (the numbers of nodes on the two sides
    are parameters, so that the same function reads a tile of the pair grid from its two row blocks). -/
def pairHidden1 {ni nj : Nat} (hi : Fin ni → Fin 512 → EReal) (hj : Fin nj → Fin 512 → EReal) (b1 mu1 s1 be1 : Fin 512 → EReal)
    (i : Fin ni) (j : Fin nj) (k : Fin 512) : EReal :=
  relu0 ((((hi i k + hj j k) + b1 k) - mu1 k) * s1 k + be1 k)

/-- The second hidden layer at the pair (i, j), feature `k'`. -/
def pairHidden2 {ni nj : Nat} (hi : Fin ni → Fin 512 → EReal) (hj : Fin nj → Fin 512 → EReal) (b1 mu1 s1 be1 : Fin 512 → EReal)
    (w2 : Fin 512 → Fin 512 → EReal) (b2 mu2 s2 be2 : Fin 512 → EReal) (i : Fin ni) (j : Fin nj) (k' : Fin 512) : EReal :=
  relu0 ((((∑ k : Fin 512, pairHidden1 hi hj b1 mu1 s1 be1 i j k * w2 k k') + b2 k') - mu2 k') * s2 k' + be2 k')

/-- The edge predictor's 33 outputs at the pair (i, j). -/
def pairOut {ni nj : Nat} (hi : Fin ni → Fin 512 → EReal) (hj : Fin nj → Fin 512 → EReal) (b1 mu1 s1 be1 : Fin 512 → EReal)
    (w2 : Fin 512 → Fin 512 → EReal) (b2 mu2 s2 be2 : Fin 512 → EReal)
    (w3 : Fin 512 → Fin 33 → EReal) (b3 : Fin 33 → EReal) (i : Fin ni) (j : Fin nj) (o : Fin 33) : EReal :=
  (∑ k' : Fin 512, pairHidden2 hi hj b1 mu1 s1 be1 w2 b2 mu2 s2 be2 i j k' * w3 k' o) + b3 o

/-! ## The pair axis flattened: pair (i, j) is row `512 · i + j` of a matrix with 262144 rows -/

/-- The first node of the pair a flattened row stands for. -/
def pairRow (r : Fin 262144) : Fin 512 := ⟨r.val / 512, by omega⟩

/-- The second node of the pair a flattened row stands for. -/
def pairCol (r : Fin 262144) : Fin 512 := ⟨r.val % 512, by omega⟩

/-- The flattened row of the pair (i, j). -/
def pairFlat (i j : Fin 512) : Fin 262144 := ⟨i.val * 512 + j.val, by omega⟩

theorem pairRow_flat (i j : Fin 512) : pairRow (pairFlat i j) = i := by
  apply Fin.ext; show (i.val * 512 + j.val) / 512 = i.val; omega

theorem pairCol_flat (i j : Fin 512) : pairCol (pairFlat i j) = j := by
  apply Fin.ext; show (i.val * 512 + j.val) % 512 = j.val; omega

/-- Output `1 + d` of the edge predictor is feature `d`. -/
def featIx (d : Fin 32) : Fin 33 := ⟨d.val + 1, by omega⟩

/-- The edge predictor at a pair depends on the two projections only through the two rows it reads. -/
theorem pairOut_congr {ni nj ni' nj' : Nat} (hi : Fin ni → Fin 512 → EReal) (hj : Fin nj → Fin 512 → EReal)
    (hi' : Fin ni' → Fin 512 → EReal) (hj' : Fin nj' → Fin 512 → EReal) (b1 mu1 s1 be1 : Fin 512 → EReal)
    (w2 : Fin 512 → Fin 512 → EReal) (b2 mu2 s2 be2 : Fin 512 → EReal)
    (w3 : Fin 512 → Fin 33 → EReal) (b3 : Fin 33 → EReal) (i : Fin ni) (j : Fin nj) (i' : Fin ni') (j' : Fin nj')
    (ei : ∀ k, hi i k = hi' i' k) (ej : ∀ k, hj j k = hj' j' k) (o : Fin 33) :
    pairOut hi hj b1 mu1 s1 be1 w2 b2 mu2 s2 be2 w3 b3 i j o = pairOut hi' hj' b1 mu1 s1 be1 w2 b2 mu2 s2 be2 w3 b3 i' j' o := by
  unfold pairOut pairHidden2 pairHidden1
  simp only [ei, ej]

end Cert.PairDecoder

end
-- ==== Proof.KernelInputs.lean ====
/-
  What the two regions find in their input arrays. Before the first region the host transposes the four weight
  matrices (stored (output, input)) and cuts the first edge weight into its two column halves; nothing else is
  written before or between the regions, so every other input array of a region holds its argument as launched, and
  the second region finds the two projections where the first region left them.
-/
import proofs.«154958_j32916629356848_1_alg».proof.Proof.Gen.KernelIdeal.Frame
import proofs.«154958_j32916629356848_1_alg».proof.Proof.PairDecoder
import Idealize.ShloMosaic.Lib.StableHlo.Run
import Idealize.ShloMosaic.Lib.Pipeline.Value
import Idealize.ShloMosaic.Lib.ValueIdx

noncomputable section

open Idealize.ShloMosaic Idealize.ShloMosaic.TcCoe Idealize.SL.Sem Idealize.ShloMosaic.ValueIdx Idealize.ShloMosaic.StableHlo

namespace Cert.PairDecoder

/-- A transposed matrix read at (row, column) is the matrix read at (column, row). -/
theorem rd2_transpose {α : Type} {n0 n1 : Nat} (a : (⟨2, ![n0, n1]⟩ : Shape).Idx → α)
    (h : (⟨2, ![n0, n1]⟩ : Shape).Transposes [1, 0] ⟨2, ![n1, n0]⟩) :
    rd2 (transpose ⟨2, ![n1, n0]⟩ [1, 0] a h) = rd2T a := by
  funext e k
  exact transpose_apply [1, 0] a h (ix2 e k) (ix2 k e) (fun b => match b with | ⟨0, _⟩ => rfl | ⟨1, _⟩ => rfl)

/-- The transposed first column half of the first edge weight, read (input, output). -/
theorem rd2_transpose_lo {α : Type} (a : (⟨2, ![512, 512]⟩ : Shape).Idx → α)
    (hs : (⟨2, ![512, 512]⟩ : Shape).Slices ![0, 0] ⟨2, ![512, 256]⟩)
    (h : (⟨2, ![512, 256]⟩ : Shape).Transposes [1, 0] ⟨2, ![256, 512]⟩) :
    rd2 (transpose ⟨2, ![256, 512]⟩ [1, 0] (extractStridedSlice ⟨2, ![512, 256]⟩ ![0, 0] a hs) h) = loHalf a := by
  rw [rd2_transpose]
  funext e k
  exact extractStridedSlice_apply ![0, 0] a hs (ix2 k e) (ix2 k ⟨e.val, by omega⟩)
    (fun b => match b with | ⟨0, _⟩ => (Nat.zero_add _).symm | ⟨1, _⟩ => (Nat.zero_add _).symm)

/-- The transposed second column half, read (input, output). -/
theorem rd2_transpose_hi {α : Type} (a : (⟨2, ![512, 512]⟩ : Shape).Idx → α)
    (hs : (⟨2, ![512, 512]⟩ : Shape).Slices ![0, 256] ⟨2, ![512, 256]⟩)
    (h : (⟨2, ![512, 256]⟩ : Shape).Transposes [1, 0] ⟨2, ![256, 512]⟩) :
    rd2 (transpose ⟨2, ![256, 512]⟩ [1, 0] (extractStridedSlice ⟨2, ![512, 256]⟩ ![0, 256] a hs) h) = hiHalf a := by
  rw [rd2_transpose]
  funext e k
  exact extractStridedSlice_apply ![0, 256] a hs (ix2 k e) (ix2 k ⟨256 + e.val, by omega⟩)
    (fun b => match b with | ⟨0, _⟩ => (Nat.zero_add _).symm | ⟨1, _⟩ => rfl)

end Cert.PairDecoder

namespace Cert.KernelIdeal.Inputs

open Cert.KernelIdeal Cert.KernelIdeal.Gen Cert.PairDecoder

variable (m : (ℓ : Loc nD τ sig) → Buf (Elt Ideal) ℓ) (ρ : Dev nD → PrngReg)

/-! ## At the first region's entry -/

/-- A buffer that is none of the eight the host operations write holds at the first region's entry what it held at
    launch. -/
theorem V1_kept (c : Dev nD) (b : Ref sig .tc)
    (hb : b ≠ main_v0 ∧ b ≠ main_v1 ∧ b ≠ main_v2 ∧ b ≠ main_v3 ∧ b ≠ main_v4 ∧ b ≠ main_v5 ∧ b ≠ main_v6 ∧ b ≠ main_v7) :
    V1 m ρ c b = m ((c : Thread nD τ).loc b) := by
  obtain ⟨h0, h1, h2, h3, h4, h5, h6, h7⟩ := hb
  show W1 m ρ c (Proc.devRef .tc b) = _
  refine (StableHlo.after_of_forall_not_mem (b := Proc.devRef .tc b) _ _ (List.forall_iff_forall_mem.mp ?_)).trans rfl
  simp only [hostOps0, List.Forall, StableHlo.unary_writes, Finset.mem_singleton]
  exact ⟨StableHlo.devRef_ne_of_ne h0, StableHlo.devRef_ne_of_ne h1, StableHlo.devRef_ne_of_ne h2,
    StableHlo.devRef_ne_of_ne h3, StableHlo.devRef_ne_of_ne h4, StableHlo.devRef_ne_of_ne h5,
    StableHlo.devRef_ne_of_ne h6, StableHlo.devRef_ne_of_ne h7⟩

/-- The first node weight, transposed. -/
theorem V1_v0 (c : Dev nD) : V1 m ρ c main_v0
    = transpose S256x512 [1, 0] (m ((c : Thread nD τ).loc main_arg1)) transposes_S512x256_S256x512_1_0 := by
  show W1 m ρ c (Proc.devRef .tc main_v0) = _
  dsimp only [W1, hostOps0]
  after_results

/-- The second node weight, transposed. -/
theorem V1_v1 (c : Dev nD) : V1 m ρ c main_v1
    = transpose S512x128 [1, 0] (m ((c : Thread nD τ).loc main_arg7)) transposes_S128x512_S512x128_1_0 := by
  show W1 m ρ c (Proc.devRef .tc main_v1) = _
  dsimp only [W1, hostOps0]
  after_results

/-- The first column half of the first edge weight, transposed. -/
theorem V1_v4 (c : Dev nD) : V1 m ρ c main_v4
    = transpose S256x512 [1, 0] (extractStridedSlice S512x256 ![0, 0] (m ((c : Thread nD τ).loc main_arg9))
        slices_S512x512_S512x256_0_0) transposes_S512x256_S256x512_1_0 := by
  show W1 m ρ c (Proc.devRef .tc main_v4) = _
  dsimp only [W1, hostOps0]
  after_results

/-- Its second column half, transposed. -/
theorem V1_v5 (c : Dev nD) : V1 m ρ c main_v5
    = transpose S256x512 [1, 0] (extractStridedSlice S512x256 ![0, 256] (m ((c : Thread nD τ).loc main_arg9))
        slices_S512x512_S512x256_0_256) transposes_S512x256_S256x512_1_0 := by
  show W1 m ρ c (Proc.devRef .tc main_v5) = _
  dsimp only [W1, hostOps0]
  after_results

/-- The second edge weight, transposed. -/
theorem V1_v6 (c : Dev nD) : V1 m ρ c main_v6
    = transpose S512x512 [1, 0] (m ((c : Thread nD τ).loc main_arg15)) transposes_S512x512_S512x512_1_0 := by
  show W1 m ρ c (Proc.devRef .tc main_v6) = _
  dsimp only [W1, hostOps0]
  after_results

/-- The third edge weight, transposed. -/
theorem V1_v7 (c : Dev nD) : V1 m ρ c main_v7
    = transpose S512x33 [1, 0] (m ((c : Thread nD τ).loc main_arg21)) transposes_S33x512_S512x33_1_0 := by
  show W1 m ρ c (Proc.devRef .tc main_v7) = _
  dsimp only [W1, hostOps0]
  after_results

/-! ## At the second region's entry -/

/-- A buffer that is none of the first region's arrays holds at the second region's entry what it held at the
    first region's. -/
theorem V2_kept (c : Dev nD) (b : Ref sig .tc) (hb : ∀ w, Pipeline.arrRef spec0 w ≠ b) : V2 m ρ c b = V1 m ρ c b :=
  W2_of_ne m ρ c b hb

/-- The second region finds the projection of x_i where the first region's write-backs left it. -/
theorem V2_v8_1 (c : Dev nD) : V2 m ρ c main_v8_1 = (dat0 (V1 m ρ) c).arrAt 12 cfg0.N := (hF0 m ρ c 12).symm

/-- Likewise the projection of x_j. -/
theorem V2_v8_2 (c : Dev nD) : V2 m ρ c main_v8_2 = (dat0 (V1 m ρ) c).arrAt 13 cfg0.N := (hF0 m ρ c 13).symm

end Cert.KernelIdeal.Inputs

end
-- ==== Proof.NodeRegionBlocks.lean ====
/-
  The node region's windows at its one grid point.

  The region's grid has a single point and every window's block is its whole array: each index map sends the point to
  block 0 on every axis, so the block an input window reads there is the array itself as the region finds it, and the
  block an output window writes back covers every index of its array.
-/
import proofs.«154958_j32916629356848_1_alg».proof.Proof.Gen.KernelIdeal.Frame
import Idealize.ShloMosaic.Lib.ValueIdx
import Idealize.ShloMosaic.Lib.Pipeline.Value

noncomputable section

open Idealize.ShloMosaic Idealize.ShloMosaic.TcCoe Idealize.SL.Sem Idealize.ShloMosaic.ValueIdx
open Idealize.ShloMosaic.Pipeline (Dat)

namespace Cert.KernelIdeal.NodeRegion

open Cert.KernelIdeal Cert.KernelIdeal.Gen

variable (V : (c : Dev nD) → (b : Ref sig .tc) → Buf (Elt Ideal) ((c : Thread nD τ).loc b))

/-- The zero offsets of a matrix access, however they are spelt. -/
theorem zeroOff2 : (![0, 0] : Fin 2 → Nat) = fun _ => 0 := funext fun a => by fin_cases a <;> rfl
/-- The zero offset of a vector access. -/
theorem zeroOff1 : (![0] : Fin 1 → Nat) = fun _ => 0 := funext fun a => by fin_cases a <;> rfl

/-- The grid's one point. -/
abbrev pt0 : Fin cfg0.N := ⟨0, by decide⟩

/-! ## Every index map is zero at the point -/

theorem idx0_0 : ∀ (t : Fin cfg0.N) (a : Fin 2), win0_0.index t a = 0 :=
  (by decide +kernel : ∀ (t : Fin grid0.N) (a : Fin 2), win0_0.index t a = 0)
theorem idx0_1 : ∀ (t : Fin cfg0.N) (a : Fin 2), win0_1.index t a = 0 :=
  (by decide +kernel : ∀ (t : Fin grid0.N) (a : Fin 2), win0_1.index t a = 0)
theorem idx0_2 : ∀ (t : Fin cfg0.N) (a : Fin 1), win0_2.index t a = 0 :=
  (by decide +kernel : ∀ (t : Fin grid0.N) (a : Fin 1), win0_2.index t a = 0)
theorem idx0_3 : ∀ (t : Fin cfg0.N) (a : Fin 1), win0_3.index t a = 0 :=
  (by decide +kernel : ∀ (t : Fin grid0.N) (a : Fin 1), win0_3.index t a = 0)
theorem idx0_4 : ∀ (t : Fin cfg0.N) (a : Fin 1), win0_4.index t a = 0 :=
  (by decide +kernel : ∀ (t : Fin grid0.N) (a : Fin 1), win0_4.index t a = 0)
theorem idx0_5 : ∀ (t : Fin cfg0.N) (a : Fin 1), win0_5.index t a = 0 :=
  (by decide +kernel : ∀ (t : Fin grid0.N) (a : Fin 1), win0_5.index t a = 0)
theorem idx0_6 : ∀ (t : Fin cfg0.N) (a : Fin 1), win0_6.index t a = 0 :=
  (by decide +kernel : ∀ (t : Fin grid0.N) (a : Fin 1), win0_6.index t a = 0)
theorem idx0_7 : ∀ (t : Fin cfg0.N) (a : Fin 2), win0_7.index t a = 0 :=
  (by decide +kernel : ∀ (t : Fin grid0.N) (a : Fin 2), win0_7.index t a = 0)
theorem idx0_8 : ∀ (t : Fin cfg0.N) (a : Fin 1), win0_8.index t a = 0 :=
  (by decide +kernel : ∀ (t : Fin grid0.N) (a : Fin 1), win0_8.index t a = 0)
theorem idx0_9 : ∀ (t : Fin cfg0.N) (a : Fin 2), win0_9.index t a = 0 :=
  (by decide +kernel : ∀ (t : Fin grid0.N) (a : Fin 2), win0_9.index t a = 0)
theorem idx0_10 : ∀ (t : Fin cfg0.N) (a : Fin 2), win0_10.index t a = 0 :=
  (by decide +kernel : ∀ (t : Fin grid0.N) (a : Fin 2), win0_10.index t a = 0)
theorem idx0_11 : ∀ (t : Fin cfg0.N) (a : Fin 2), win0_11.index t a = 0 :=
  (by decide +kernel : ∀ (t : Fin grid0.N) (a : Fin 2), win0_11.index t a = 0)
theorem idx0_12 : ∀ (t : Fin cfg0.N) (a : Fin 2), win0_12.index t a = 0 :=
  (by decide +kernel : ∀ (t : Fin grid0.N) (a : Fin 2), win0_12.index t a = 0)
theorem idx0_13 : ∀ (t : Fin cfg0.N) (a : Fin 2), win0_13.index t a = 0 :=
  (by decide +kernel : ∀ (t : Fin grid0.N) (a : Fin 2), win0_13.index t a = 0)

/-! ## The block an input window reads is its whole array -/

/-- The node embeddings. -/
theorem blk0_0 (c : Dev nD) (t : Fin cfg0.N) : (iblk0 V c 0 t : Vec Ideal S512x256 .f32) = V c main_arg0 := by
  have hz : (fun a => win0_0.index t a * main_arg0.ty.shape.size a) = fun _ => 0 :=
    funext fun a => by rw [idx0_0 t a, Nat.zero_mul]
  exact Memref.read_access_unit_zero (Elt Ideal) main_arg0 hz (fun a => by rw [congrFun hz a]; simp) (V c main_arg0)

/-- The first dense layer's weight, (input, output). -/
theorem blk0_1 (c : Dev nD) (t : Fin cfg0.N) : (iblk0 V c 1 t : Vec Ideal S256x512 .f32) = V c main_v0 := by
  have hz : (fun a => win0_1.index t a * main_v0.ty.shape.size a) = fun _ => 0 :=
    funext fun a => by rw [idx0_1 t a, Nat.zero_mul]
  exact Memref.read_access_unit_zero (Elt Ideal) main_v0 hz (fun a => by rw [congrFun hz a]; simp) (V c main_v0)

/-- The first dense layer's bias. -/
theorem blk0_2 (c : Dev nD) (t : Fin cfg0.N) : (iblk0 V c 2 t : Vec Ideal S512 .f32) = V c main_arg2 := by
  have hz : (fun a => win0_2.index t a * main_arg2.ty.shape.size a) = fun _ => 0 :=
    funext fun a => by rw [idx0_2 t a, Nat.zero_mul]
  exact Memref.read_access_unit_zero (Elt Ideal) main_arg2 hz (fun a => by rw [congrFun hz a]; simp) (V c main_arg2)

/-- Batch normalisation's γ. -/
theorem blk0_3 (c : Dev nD) (t : Fin cfg0.N) : (iblk0 V c 3 t : Vec Ideal S512 .f32) = V c main_arg3 := by
  have hz : (fun a => win0_3.index t a * main_arg3.ty.shape.size a) = fun _ => 0 :=
    funext fun a => by rw [idx0_3 t a, Nat.zero_mul]
  exact Memref.read_access_unit_zero (Elt Ideal) main_arg3 hz (fun a => by rw [congrFun hz a]; simp) (V c main_arg3)

/-- Batch normalisation's β. -/
theorem blk0_4 (c : Dev nD) (t : Fin cfg0.N) : (iblk0 V c 4 t : Vec Ideal S512 .f32) = V c main_arg4 := by
  have hz : (fun a => win0_4.index t a * main_arg4.ty.shape.size a) = fun _ => 0 :=
    funext fun a => by rw [idx0_4 t a, Nat.zero_mul]
  exact Memref.read_access_unit_zero (Elt Ideal) main_arg4 hz (fun a => by rw [congrFun hz a]; simp) (V c main_arg4)

/-- Batch normalisation's running mean. -/
theorem blk0_5 (c : Dev nD) (t : Fin cfg0.N) : (iblk0 V c 5 t : Vec Ideal S512 .f32) = V c main_arg5 := by
  have hz : (fun a => win0_5.index t a * main_arg5.ty.shape.size a) = fun _ => 0 :=
    funext fun a => by rw [idx0_5 t a, Nat.zero_mul]
  exact Memref.read_access_unit_zero (Elt Ideal) main_arg5 hz (fun a => by rw [congrFun hz a]; simp) (V c main_arg5)

/-- Batch normalisation's running variance. -/
theorem blk0_6 (c : Dev nD) (t : Fin cfg0.N) : (iblk0 V c 6 t : Vec Ideal S512 .f32) = V c main_arg6 := by
  have hz : (fun a => win0_6.index t a * main_arg6.ty.shape.size a) = fun _ => 0 :=
    funext fun a => by rw [idx0_6 t a, Nat.zero_mul]
  exact Memref.read_access_unit_zero (Elt Ideal) main_arg6 hz (fun a => by rw [congrFun hz a]; simp) (V c main_arg6)

/-- The second dense layer's weight, (input, output). -/
theorem blk0_7 (c : Dev nD) (t : Fin cfg0.N) : (iblk0 V c 7 t : Vec Ideal S512x128 .f32) = V c main_v1 := by
  have hz : (fun a => win0_7.index t a * main_v1.ty.shape.size a) = fun _ => 0 :=
    funext fun a => by rw [idx0_7 t a, Nat.zero_mul]
  exact Memref.read_access_unit_zero (Elt Ideal) main_v1 hz (fun a => by rw [congrFun hz a]; simp) (V c main_v1)

/-- The second dense layer's bias. -/
theorem blk0_8 (c : Dev nD) (t : Fin cfg0.N) : (iblk0 V c 8 t : Vec Ideal S128 .f32) = V c main_arg8 := by
  have hz : (fun a => win0_8.index t a * main_arg8.ty.shape.size a) = fun _ => 0 :=
    funext fun a => by rw [idx0_8 t a, Nat.zero_mul]
  exact Memref.read_access_unit_zero (Elt Ideal) main_arg8 hz (fun a => by rw [congrFun hz a]; simp) (V c main_arg8)

/-- The first edge layer's weight on x_i, (input, output). -/
theorem blk0_9 (c : Dev nD) (t : Fin cfg0.N) : (iblk0 V c 9 t : Vec Ideal S256x512 .f32) = V c main_v4 := by
  have hz : (fun a => win0_9.index t a * main_v4.ty.shape.size a) = fun _ => 0 :=
    funext fun a => by rw [idx0_9 t a, Nat.zero_mul]
  exact Memref.read_access_unit_zero (Elt Ideal) main_v4 hz (fun a => by rw [congrFun hz a]; simp) (V c main_v4)

/-- The first edge layer's weight on x_j, (input, output). -/
theorem blk0_10 (c : Dev nD) (t : Fin cfg0.N) : (iblk0 V c 10 t : Vec Ideal S256x512 .f32) = V c main_v5 := by
  have hz : (fun a => win0_10.index t a * main_v5.ty.shape.size a) = fun _ => 0 :=
    funext fun a => by rw [idx0_10 t a, Nat.zero_mul]
  exact Memref.read_access_unit_zero (Elt Ideal) main_v5 hz (fun a => by rw [congrFun hz a]; simp) (V c main_v5)

/-! ## An output window's block, read back, is the whole array; and it covers every index -/

/-- The node features' block read off an array is the array. -/
theorem read_blk11 (t : Fin cfg0.N) (X : Vec Ideal S512x128 .f32) :
    ((cfg0.win 11).blk t).view.read (Elt Ideal) X = X := by
  have hz : (fun a => win0_11.index t a * main_v8_0.ty.shape.size a) = fun _ => 0 :=
    funext fun a => by rw [idx0_11 t a, Nat.zero_mul]
  exact Memref.read_access_unit_zero (Elt Ideal) main_v8_0 hz (fun a => by rw [congrFun hz a]; simp) X

/-- The first projection's block read off an array is the array. -/
theorem read_blk12 (t : Fin cfg0.N) (X : Vec Ideal S512x512 .bf16) :
    ((cfg0.win 12).blk t).view.read (Elt Ideal) X = X := by
  have hz : (fun a => win0_12.index t a * main_v8_1.ty.shape.size a) = fun _ => 0 :=
    funext fun a => by rw [idx0_12 t a, Nat.zero_mul]
  exact Memref.read_access_unit_zero (Elt Ideal) main_v8_1 hz (fun a => by rw [congrFun hz a]; simp) X

/-- The second projection's block read off an array is the array. -/
theorem read_blk13 (t : Fin cfg0.N) (X : Vec Ideal S512x512 .bf16) :
    ((cfg0.win 13).blk t).view.read (Elt Ideal) X = X := by
  have hz : (fun a => win0_13.index t a * main_v8_2.ty.shape.size a) = fun _ => 0 :=
    funext fun a => by rw [idx0_13 t a, Nat.zero_mul]
  exact Memref.read_access_unit_zero (Elt Ideal) main_v8_2 hz (fun a => by rw [congrFun hz a]; simp) X

/-- Every index of the node features is in the block. -/
theorem mem_blk11 (t : Fin cfg0.N) (i : S512x128.Idx) : i ∈ ((cfg0.win 11).blk t).view.set := by
  show i ∈ ((View.whole main_v8_0).slice (win0_11.rect t)).set
  rw [View.set_slice_whole, Rect.mem_set_unit]
  intro a
  have h0 : (i 0 : Nat) < 512 := (i 0).isLt
  have h1 : (i 1 : Nat) < 128 := (i 1).isLt
  match a with
  | ⟨0, _⟩ => show win0_11.index t (0 : Fin 2) * 512 ≤ (i 0 : Nat) ∧ (i 0 : Nat) < win0_11.index t (0 : Fin 2) * 512 + 512
              rw [idx0_11 t 0]; omega
  | ⟨1, _⟩ => show win0_11.index t (1 : Fin 2) * 128 ≤ (i 1 : Nat) ∧ (i 1 : Nat) < win0_11.index t (1 : Fin 2) * 128 + 128
              rw [idx0_11 t 1]; omega

/-- Every index of the first projection is in the block. -/
theorem mem_blk12 (t : Fin cfg0.N) (i : S512x512.Idx) : i ∈ ((cfg0.win 12).blk t).view.set := by
  show i ∈ ((View.whole main_v8_1).slice (win0_12.rect t)).set
  rw [View.set_slice_whole, Rect.mem_set_unit]
  intro a
  have h0 : (i 0 : Nat) < 512 := (i 0).isLt
  have h1 : (i 1 : Nat) < 512 := (i 1).isLt
  match a with
  | ⟨0, _⟩ => show win0_12.index t (0 : Fin 2) * 512 ≤ (i 0 : Nat) ∧ (i 0 : Nat) < win0_12.index t (0 : Fin 2) * 512 + 512
              rw [idx0_12 t 0]; omega
  | ⟨1, _⟩ => show win0_12.index t (1 : Fin 2) * 512 ≤ (i 1 : Nat) ∧ (i 1 : Nat) < win0_12.index t (1 : Fin 2) * 512 + 512
              rw [idx0_12 t 1]; omega

/-- Every index of the second projection is in the block. -/
theorem mem_blk13 (t : Fin cfg0.N) (i : S512x512.Idx) : i ∈ ((cfg0.win 13).blk t).view.set := by
  show i ∈ ((View.whole main_v8_2).slice (win0_13.rect t)).set
  rw [View.set_slice_whole, Rect.mem_set_unit]
  intro a
  have h0 : (i 0 : Nat) < 512 := (i 0).isLt
  have h1 : (i 1 : Nat) < 512 := (i 1).isLt
  match a with
  | ⟨0, _⟩ => show win0_13.index t (0 : Fin 2) * 512 ≤ (i 0 : Nat) ∧ (i 0 : Nat) < win0_13.index t (0 : Fin 2) * 512 + 512
              rw [idx0_13 t 0]; omega
  | ⟨1, _⟩ => show win0_13.index t (1 : Fin 2) * 512 ≤ (i 1 : Nat) ∧ (i 1 : Nat) < win0_13.index t (1 : Fin 2) * 512 + 512
              rw [idx0_13 t 1]; omega

end Cert.KernelIdeal.NodeRegion

end
-- ==== Proof.NodeRegionDot.lean ====
/-
  The two matrix products of the node region, read at an index.

  Into a zero accumulator a matrix product on the extended reals is the plain sum over the contracted axis:
  entry (i, k) of `A · B` is `∑ e, A[i, e] * B[e, k]`. The contraction index of the dimension numbers
  (one contracted axis: axis 1 of the left operand against axis 0 of the right) is re-indexed by its one coordinate.
-/
import proofs.«154958_j32916629356848_1_alg».proof.Proof.Gen.KernelIdeal.Skeleton
import Idealize.ShloMosaic.Lib.ValueIdx
import Idealize.ShloMosaic.PureOps.Ideal.Laws

noncomputable section

open scoped BigOperators

namespace Cert.KernelIdeal.NodeRegion

open Idealize.ShloMosaic Idealize.ShloMosaic.ValueIdx Cert.KernelIdeal Cert.KernelIdeal.Gen

/-! ## [512, 256] · [256, 512] -/

/-- The left operand's row is the output's row. -/
theorem lhsWide_0 (i : S512x512.Idx) (q : dot_S512x256_S256x512_S512x512_1_0_0_1_n_n.contr.Idx) :
    (dot_S512x256_S256x512_S512x512_1_0_0_1_n_n.lhsIdx i q 0).val = (i 0).val := by
  unfold DotDims.lhsIdx
  rw [dif_neg (show ¬(0 : Fin S512x256.rank) ∈ dot_S512x256_S256x512_S512x512_1_0_0_1_n_n.lhsBatch by decide), dif_pos (show (0 : Fin S512x256.rank) ∈ dot_S512x256_S256x512_S512x512_1_0_0_1_n_n.lhsNonContracting by decide)]
  rfl
/-- The left operand's column is the contracted coordinate. -/
theorem lhsWide_1 (i : S512x512.Idx) (q : dot_S512x256_S256x512_S512x512_1_0_0_1_n_n.contr.Idx) :
    (dot_S512x256_S256x512_S512x512_1_0_0_1_n_n.lhsIdx i q 1).val = (q ⟨0, by decide⟩).val :=
  dot_S512x256_S256x512_S512x512_1_0_0_1_n_n.lhsIdx_val_of_single rfl i q
/-- The right operand's row is the contracted coordinate. -/
theorem rhsWide_0 (i : S512x512.Idx) (q : dot_S512x256_S256x512_S512x512_1_0_0_1_n_n.contr.Idx) :
    (dot_S512x256_S256x512_S512x512_1_0_0_1_n_n.rhsIdx i q 0).val = (q ⟨0, by decide⟩).val :=
  dot_S512x256_S256x512_S512x512_1_0_0_1_n_n.rhsIdx_val_of_single rfl i q
/-- The right operand's column is the output's column. -/
theorem rhsWide_1 (i : S512x512.Idx) (q : dot_S512x256_S256x512_S512x512_1_0_0_1_n_n.contr.Idx) :
    (dot_S512x256_S256x512_S512x512_1_0_0_1_n_n.rhsIdx i q 1).val = (i 1).val := by
  unfold DotDims.rhsIdx
  rw [dif_neg (show ¬(1 : Fin S256x512.rank) ∈ dot_S512x256_S256x512_S512x512_1_0_0_1_n_n.rhsBatch by decide), dif_pos (show (1 : Fin S256x512.rank) ∈ dot_S512x256_S256x512_S512x512_1_0_0_1_n_n.rhsNonContracting by decide)]
  rfl

/-- Entry (i, k) of the product of a [512, 256] by a [256, 512] matrix into the zero accumulator. -/
theorem matmulWide_apply {φ₁ φ₂ : FTy} (a : FVec Ideal S512x256 φ₁) (b : FVec Ideal S256x512 φ₂) (i k : Fin 512) :
    matmul dot_S512x256_S256x512_S512x512_1_0_0_1_n_n none a b (constant (F := Ideal) S512x512 .f32 0x00000000#32) (ix2 i k)
      = ∑ e : Fin 256, a (ix2 i e) * b (ix2 e k) := by
  refine (Ideal.matmul_constant_zero_apply dot_S512x256_S256x512_S512x512_1_0_0_1_n_n none a b (ix2 i k)).trans ?_
  rw [← Equiv.sum_comp (contrEquiv1 dot_S512x256_S256x512_S512x512_1_0_0_1_n_n 256 rfl rfl).symm]
  refine Finset.sum_congr rfl fun e _ => ?_
  have he := contrEquiv1_symm_val dot_S512x256_S256x512_S512x512_1_0_0_1_n_n 256 rfl rfl e
  have el : dot_S512x256_S256x512_S512x512_1_0_0_1_n_n.lhsIdx (ix2 i k) ((contrEquiv1 dot_S512x256_S256x512_S512x512_1_0_0_1_n_n 256 rfl rfl).symm e) = ix2 i e := funext fun a => Fin.ext (by
    match a with
    | ⟨0, _⟩ => exact lhsWide_0 _ _
    | ⟨1, _⟩ => exact (lhsWide_1 _ _).trans he)
  have er : dot_S512x256_S256x512_S512x512_1_0_0_1_n_n.rhsIdx (ix2 i k) ((contrEquiv1 dot_S512x256_S256x512_S512x512_1_0_0_1_n_n 256 rfl rfl).symm e) = ix2 e k := funext fun a => Fin.ext (by
    match a with
    | ⟨0, _⟩ => exact (rhsWide_0 _ _).trans he
    | ⟨1, _⟩ => exact rhsWide_1 _ _)
  rw [el, er]

/-! ## [512, 512] · [512, 128] -/

/-- The left operand's row is the output's row. -/
theorem lhsOut_0 (i : S512x128.Idx) (q : dot_S512x512_S512x128_S512x128_1_0_0_1_n_n.contr.Idx) :
    (dot_S512x512_S512x128_S512x128_1_0_0_1_n_n.lhsIdx i q 0).val = (i 0).val := by
  unfold DotDims.lhsIdx
  rw [dif_neg (show ¬(0 : Fin S512x512.rank) ∈ dot_S512x512_S512x128_S512x128_1_0_0_1_n_n.lhsBatch by decide), dif_pos (show (0 : Fin S512x512.rank) ∈ dot_S512x512_S512x128_S512x128_1_0_0_1_n_n.lhsNonContracting by decide)]
  rfl
/-- The left operand's column is the contracted coordinate. -/
theorem lhsOut_1 (i : S512x128.Idx) (q : dot_S512x512_S512x128_S512x128_1_0_0_1_n_n.contr.Idx) :
    (dot_S512x512_S512x128_S512x128_1_0_0_1_n_n.lhsIdx i q 1).val = (q ⟨0, by decide⟩).val :=
  dot_S512x512_S512x128_S512x128_1_0_0_1_n_n.lhsIdx_val_of_single rfl i q
/-- The right operand's row is the contracted coordinate. -/
theorem rhsOut_0 (i : S512x128.Idx) (q : dot_S512x512_S512x128_S512x128_1_0_0_1_n_n.contr.Idx) :
    (dot_S512x512_S512x128_S512x128_1_0_0_1_n_n.rhsIdx i q 0).val = (q ⟨0, by decide⟩).val :=
  dot_S512x512_S512x128_S512x128_1_0_0_1_n_n.rhsIdx_val_of_single rfl i q
/-- The right operand's column is the output's column. -/
theorem rhsOut_1 (i : S512x128.Idx) (q : dot_S512x512_S512x128_S512x128_1_0_0_1_n_n.contr.Idx) :
    (dot_S512x512_S512x128_S512x128_1_0_0_1_n_n.rhsIdx i q 1).val = (i 1).val := by
  unfold DotDims.rhsIdx
  rw [dif_neg (show ¬(1 : Fin S512x128.rank) ∈ dot_S512x512_S512x128_S512x128_1_0_0_1_n_n.rhsBatch by decide), dif_pos (show (1 : Fin S512x128.rank) ∈ dot_S512x512_S512x128_S512x128_1_0_0_1_n_n.rhsNonContracting by decide)]
  rfl

/-- Entry (i, f) of the product of a [512, 512] by a [512, 128] matrix into the zero accumulator. -/
theorem matmulOut_apply {φ₁ φ₂ : FTy} (a : FVec Ideal S512x512 φ₁) (b : FVec Ideal S512x128 φ₂) (i : Fin 512) (f : Fin 128) :
    matmul dot_S512x512_S512x128_S512x128_1_0_0_1_n_n none a b (constant (F := Ideal) S512x128 .f32 0x00000000#32) (ix2 i f)
      = ∑ k : Fin 512, a (ix2 i k) * b (ix2 k f) := by
  refine (Ideal.matmul_constant_zero_apply dot_S512x512_S512x128_S512x128_1_0_0_1_n_n none a b (ix2 i f)).trans ?_
  rw [← Equiv.sum_comp (contrEquiv1 dot_S512x512_S512x128_S512x128_1_0_0_1_n_n 512 rfl rfl).symm]
  refine Finset.sum_congr rfl fun k _ => ?_
  have hk := contrEquiv1_symm_val dot_S512x512_S512x128_S512x128_1_0_0_1_n_n 512 rfl rfl k
  have el : dot_S512x512_S512x128_S512x128_1_0_0_1_n_n.lhsIdx (ix2 i f) ((contrEquiv1 dot_S512x512_S512x128_S512x128_1_0_0_1_n_n 512 rfl rfl).symm k) = ix2 i k := funext fun a => Fin.ext (by
    match a with
    | ⟨0, _⟩ => exact lhsOut_0 _ _
    | ⟨1, _⟩ => exact (lhsOut_1 _ _).trans hk)
  have er : dot_S512x512_S512x128_S512x128_1_0_0_1_n_n.rhsIdx (ix2 i f) ((contrEquiv1 dot_S512x512_S512x128_S512x128_1_0_0_1_n_n 512 rfl rfl).symm k) = ix2 k f := funext fun a => Fin.ext (by
    match a with
    | ⟨0, _⟩ => exact (rhsOut_0 _ _).trans hk
    | ⟨1, _⟩ => exact rhsOut_1 _ _)
  rw [el, er]

end Cert.KernelIdeal.NodeRegion

end
-- ==== Proof.NodeRegionPayload.lean ====
/-
  The node region's three results, element by element.

  The node features: the first dense layer's product `x · W1` plus its bias, batch normalisation with the scale
  `γ · (var + ε)^(-1/2)`, the rectifier, then the second dense layer's product plus its bias. The two projections:
  the products `x · Wa` and `x · Wb`. On the extended reals a change of float format is the identity, a vector
  cast to one row and broadcast down the rows reads the vector at the column, and a matrix product into a zero
  accumulator is the plain sum over the contracted axis.
-/
import proofs.«154958_j32916629356848_1_alg».proof.Proof.NodeRegionDot
import proofs.«154958_j32916629356848_1_alg».proof.Proof.PairDecoder
import Idealize.ShloMosaic.Lib.ValueLayout

noncomputable section

open scoped BigOperators

namespace Cert.KernelIdeal.NodeRegion

open Idealize.ShloMosaic Idealize.ShloMosaic.ValueIdx Cert.KernelIdeal Cert.KernelIdeal.Gen Cert.PairDecoder

/-! ## Layout and pointwise operations at an index -/

/-- A vector of 512 features cast to one row and broadcast down 512 rows reads, at (i, k), the vector at k. -/
theorem rowOf512_apply {α : Type} (v : S512.Idx → α) (h1 : S512.ShapeCasts S1x512) (h2 : S1x512.Broadcasts S512x512)
    (i k : Fin 512) : broadcastTo S512x512 (shapeCast S1x512 v h1) h2 (ix2 i k) = v (ix1 k) := by
  rw [broadcastTo_1b_ab_apply, shapeCast_a_1a_apply]

/-- A vector of 128 features cast to one row and broadcast down 512 rows reads, at (i, f), the vector at f. -/
theorem rowOf128_apply {α : Type} (v : S128.Idx → α) (h1 : S128.ShapeCasts S1x128) (h2 : S1x128.Broadcasts S512x128)
    (i : Fin 512) (f : Fin 128) : broadcastTo S512x128 (shapeCast S1x128 v h1) h2 (ix2 i f) = v (ix1 f) := by
  rw [broadcastTo_1b_ab_apply, shapeCast_a_1a_apply]

/-- The reciprocal square root of a vector at an index is that of the element. -/
theorem rsqrt_apply {s : Shape} {φ : FTy} (a : FVec Ideal s φ) (i : s.Idx) : rsqrt a i = Ideal.rsqrt (a i) := rfl

/-! ## The two projections -/

/-- Entry (i, k) of the first projection: `∑ e, x[i, e] · Wa[e, k]`. -/
theorem projI_payload (x0 : Vec Ideal S512x256 .f32) (x9 : Vec Ideal S256x512 .f32) (i k : Fin 512) :
    k0_pay1 (k0_pay3 x0) x9 (ix2 i k) = proj (rd2 x0) (rd2 x9) i k := by
  unfold k0_pay1 k0_pay3 proj
  dsimp only
  simp only [truncf_apply, matmulWide_apply, shapeCast_self]

/-- Entry (i, k) of the second projection: `∑ e, x[i, e] · Wb[e, k]`. -/
theorem projJ_payload (x0 : Vec Ideal S512x256 .f32) (x10 : Vec Ideal S256x512 .f32) (i k : Fin 512) :
    k0_pay2 (k0_pay3 x0) x10 (ix2 i k) = proj (rd2 x0) (rd2 x10) i k := by
  unfold k0_pay2 k0_pay3 proj
  dsimp only
  simp only [truncf_apply, matmulWide_apply, shapeCast_self]

/-! ## The node features -/

/-- Entry (i, f) of the node features. -/
theorem nodeFeat_payload (x0 : Vec Ideal S512x256 .f32) (x1 : Vec Ideal S256x512 .f32)
    (x2 x3 x6 x5 x4 : Vec Ideal S512 .f32) (x7 : Vec Ideal S512x128 .f32) (x8 : Vec Ideal S128 .f32)
    (i : Fin 512) (f : Fin 128) :
    k0_pay4 x0 x1 x2 x3 x6 x5 x4 x7 x8 (ix2 i f)
      = nodeFeat (rd2 x0) (rd2 x1) (rd1 x2) (rd1 x5) (scaleR (rd1 x3) (rd1 x6)) (rd1 x4) (rd2 x7) (rd1 x8) i f := by
  unfold k0_pay4 k0_pay3 nodeFeat nodeHidden relu0 scaleR eps
  dsimp only
  simp only [addf_apply, subf_apply, mulf_apply, maximumf_apply, truncf_apply, matmulOut_apply, matmulWide_apply,
    rowOf512_apply, rowOf128_apply, shapeCast_self, broadcast_apply, rsqrt_apply]
  rfl

end Cert.KernelIdeal.NodeRegion

end
-- ==== Proof.NodeRegion.lean ====
/-
  The node region's three result arrays after the region: the node features and the two projections, each as one
  function of the arrays the region finds at its entry, index by index.

  At the grid's one point every input block is its whole array, the body leaves in each output's buffer one store of a
  value computed from those blocks, and the one write-back per output covers its array: so each result array is that
  value of the entry arrays, which element by element is the node decoder (the two projections) of the specification.
-/
import proofs.«154958_j32916629356848_1_alg».proof.Proof.NodeRegionBlocks
import proofs.«154958_j32916629356848_1_alg».proof.Proof.NodeRegionPayload

noncomputable section

open Idealize.ShloMosaic Idealize.ShloMosaic.TcCoe Idealize.SL.Sem Idealize.ShloMosaic.ValueIdx
open Idealize.ShloMosaic.Pipeline (Dat)

namespace Cert.KernelIdeal.NodeRegion

open Cert.KernelIdeal Cert.KernelIdeal.Gen Cert.PairDecoder

variable (V : (c : Dev nD) → (b : Ref sig .tc) → Buf (Elt Ideal) ((c : Thread nD τ).loc b))

/-! ## The three results as functions of the entry arrays -/

/-- The node features of the entry arrays. -/
abbrev nodeFeatArr (c : Dev nD) : Vec Ideal S512x128 .f32 := fun j =>
  nodeFeat (rd2 (V c main_arg0)) (rd2 (V c main_v0)) (rd1 (V c main_arg2)) (rd1 (V c main_arg5))
    (scaleR (rd1 (V c main_arg3)) (rd1 (V c main_arg6))) (rd1 (V c main_arg4)) (rd2 (V c main_v1)) (rd1 (V c main_arg8)) (j 0) (j 1)

/-- The projection of the node embeddings by the weight on x_i. -/
abbrev projIArr (c : Dev nD) : Vec Ideal S512x512 .bf16 := fun j =>
  proj (rd2 (V c main_arg0)) (rd2 (V c main_v4)) (j 0) (j 1)

/-- The projection of the node embeddings by the weight on x_j. -/
abbrev projJArr (c : Dev nD) : Vec Ideal S512x512 .bf16 := fun j =>
  proj (rd2 (V c main_arg0)) (rd2 (V c main_v5)) (j 0) (j 1)

/-! ## What the point writes back -/

/-- The node features' write-back is the block of `nodeFeatArr`. -/
theorem flushed11_eq (c : Dev nD) (t : Fin cfg0.N) :
    (dat0 (F := Ideal) V c).flushed 11 t = ((cfg0.win 11).blk t).view.read (Elt Ideal) (nodeFeatArr V c) := by
  show (cfg0.win 11).cut (grid0.coords t) ((dat0 (F := Ideal) V c).after 11 t) = _
  rw [after0_11]
  unfold out0_11
  rw [View.canon_unit_zero zeroOff2]
  simp only [View.ld_unit_zero (S := S512x256) zeroOff2, View.ld_unit_zero (S := S256x512) zeroOff2,
    View.ld_unit_zero (S := S512) zeroOff1, View.ld_unit_zero (S := S512x128) zeroOff2, View.ld_unit_zero (S := S128) zeroOff1]
  rw [blk0_0 V c t, blk0_1 V c t, blk0_2 V c t, blk0_3 V c t, blk0_6 V c t, blk0_5 V c t, blk0_4 V c t, blk0_7 V c t, blk0_8 V c t]
  refine Eq.trans ?_ (read_blk11 t (nodeFeatArr V c)).symm
  funext j
  obtain ⟨p, q, rfl⟩ : ∃ (p : Fin 512) (q : Fin 128), j = ix2 p q := ⟨j 0, j 1, eq_ix2 j⟩
  exact nodeFeat_payload (V c main_arg0) (V c main_v0) (V c main_arg2) (V c main_arg3) (V c main_arg6) (V c main_arg5)
    (V c main_arg4) (V c main_v1) (V c main_arg8) p q

/-- The first projection's write-back is the block of `projIArr`. -/
theorem flushed12_eq (c : Dev nD) (t : Fin cfg0.N) :
    (dat0 (F := Ideal) V c).flushed 12 t = ((cfg0.win 12).blk t).view.read (Elt Ideal) (projIArr V c) := by
  show (cfg0.win 12).cut (grid0.coords t) ((dat0 (F := Ideal) V c).after 12 t) = _
  rw [after0_12]
  unfold out0_12
  rw [View.canon_unit_zero zeroOff2]
  simp only [View.ld_unit_zero (S := S512x256) zeroOff2, View.ld_unit_zero (S := S256x512) zeroOff2]
  rw [blk0_0 V c t, blk0_9 V c t]
  refine Eq.trans ?_ (read_blk12 t (projIArr V c)).symm
  funext j
  obtain ⟨p, q, rfl⟩ : ∃ (p : Fin 512) (q : Fin 512), j = ix2 p q := ⟨j 0, j 1, eq_ix2 j⟩
  exact projI_payload (V c main_arg0) (V c main_v4) p q

/-- The second projection's write-back is the block of `projJArr`. -/
theorem flushed13_eq (c : Dev nD) (t : Fin cfg0.N) :
    (dat0 (F := Ideal) V c).flushed 13 t = ((cfg0.win 13).blk t).view.read (Elt Ideal) (projJArr V c) := by
  show (cfg0.win 13).cut (grid0.coords t) ((dat0 (F := Ideal) V c).after 13 t) = _
  rw [after0_13]
  unfold out0_13
  rw [View.canon_unit_zero zeroOff2]
  simp only [View.ld_unit_zero (S := S512x256) zeroOff2, View.ld_unit_zero (S := S256x512) zeroOff2]
  rw [blk0_0 V c t, blk0_10 V c t]
  refine Eq.trans ?_ (read_blk13 t (projJArr V c)).symm
  funext j
  obtain ⟨p, q, rfl⟩ : ∃ (p : Fin 512) (q : Fin 512), j = ix2 p q := ⟨j 0, j 1, eq_ix2 j⟩
  exact projJ_payload (V c main_arg0) (V c main_v5) p q

/-! ## The arrays after the region -/

/-- The node features' array after the region. -/
theorem nodeFeat_arr (c : Dev nD) :
    ((dat0 (F := Ideal) V c).arrAt 11 cfg0.N : Vec Ideal S512x128 .f32) = fun j =>
      nodeFeat (rd2 (V c main_arg0)) (rd2 (V c main_v0)) (rd1 (V c main_arg2)) (rd1 (V c main_arg5))
        (scaleR (rd1 (V c main_arg3)) (rd1 (V c main_arg6))) (rd1 (V c main_arg4)) (rd2 (V c main_v1)) (rd1 (V c main_arg8)) (j 0) (j 1) :=
  (dat0 (F := Ideal) V c).arrAt_eq_of_cover 11 (nodeFeatArr V c) (fun t _ => flushed11_eq V c t) fun i =>
    ⟨pt0, flush0_11 pt0, mem_blk11 pt0 i⟩

/-- The first projection's array after the region. -/
theorem projI_arr (c : Dev nD) :
    ((dat0 (F := Ideal) V c).arrAt 12 cfg0.N : Vec Ideal S512x512 .bf16) = fun j =>
      proj (rd2 (V c main_arg0)) (rd2 (V c main_v4)) (j 0) (j 1) :=
  (dat0 (F := Ideal) V c).arrAt_eq_of_cover 12 (projIArr V c) (fun t _ => flushed12_eq V c t) fun i =>
    ⟨pt0, flush0_12 pt0, mem_blk12 pt0 i⟩

/-- The second projection's array after the region. -/
theorem projJ_arr (c : Dev nD) :
    ((dat0 (F := Ideal) V c).arrAt 13 cfg0.N : Vec Ideal S512x512 .bf16) = fun j =>
      proj (rd2 (V c main_arg0)) (rd2 (V c main_v5)) (j 0) (j 1) :=
  (dat0 (F := Ideal) V c).arrAt_eq_of_cover 13 (projJArr V c) (fun t _ => flushed13_eq V c t) fun i =>
    ⟨pt0, flush0_13 pt0, mem_blk13 pt0 i⟩

end Cert.KernelIdeal.NodeRegion

end
-- ==== Proof.EdgeBlocks.lean ====
/-
  The blocks the second region's body sees at a tile. The region walks an 8 × 4 grid; point t is the tile
  (t / 4, t % 4). The first projection is shown in row blocks of 64 (block t / 4), the second in row blocks of 128
  (block t % 4), every parameter array whole. A block's coordinate in its array is always
  (block index) × (block size) + (coordinate inside the block), axis by axis; with the block indices decided once over
  the 32 points, each block read is a read of the array.
-/
import proofs.«154958_j32916629356848_1_alg».proof.Proof.Gen.KernelIdeal.Frame
import Idealize.ShloMosaic.Lib.ValueIdx
import Idealize.ShloMosaic.Lib.Pipeline.Value

noncomputable section

open Idealize.ShloMosaic Idealize.ShloMosaic.TcCoe Idealize.SL.Sem Idealize.ShloMosaic.ValueIdx
open Idealize.ShloMosaic.Pipeline (Dat)

namespace Cert.KernelIdeal.EdgeRegion

open Cert.KernelIdeal Cert.KernelIdeal.Gen

variable (V : (c : Dev nD) → (b : Ref sig .tc) → Buf (Elt Ideal) ((c : Thread nD τ).loc b))

/-! ## Zero offsets, however many axes -/

theorem zeros1 : (![0] : Fin 1 → Nat) = fun _ => 0 := funext fun a => by fin_cases a <;> rfl
theorem zeros2 : (![0, 0] : Fin 2 → Nat) = fun _ => 0 := funext fun a => by fin_cases a <;> rfl
theorem zeros3 : (![0, 0, 0] : Fin 3 → Nat) = fun _ => 0 := funext fun a => by fin_cases a <;> rfl

/-! ## Which block each window shows at a point -/

/-- Point t of the grid is the tile (t / 4, t % 4): both outputs' blocks sit there, the first projection's row block
    follows the tile's row, the second's the tile's column. -/
theorem tile_index : ∀ t : Fin cfg1.N,
    win1_15.index t (0 : Fin 2) = t.val / 4 ∧ win1_15.index t (1 : Fin 2) = t.val % 4
    ∧ win1_16.index t (0 : Fin 3) = t.val / 4 ∧ win1_16.index t (1 : Fin 3) = t.val % 4 ∧ win1_16.index t (2 : Fin 3) = 0
    ∧ win1_0.index t (0 : Fin 2) = t.val / 4 ∧ win1_0.index t (1 : Fin 2) = 0
    ∧ win1_1.index t (0 : Fin 2) = t.val % 4 ∧ win1_1.index t (1 : Fin 2) = 0 :=
  (by decide +kernel : ∀ t : Fin grid1.N, _)

/-- The thirteen parameter windows stay on their one block, the whole array. -/
theorem param_index : ∀ t : Fin cfg1.N,
    win1_2.index t (0 : Fin 1) = 0 ∧ win1_3.index t (0 : Fin 1) = 0 ∧ win1_4.index t (0 : Fin 1) = 0
    ∧ win1_5.index t (0 : Fin 1) = 0 ∧ win1_6.index t (0 : Fin 1) = 0
    ∧ win1_7.index t (0 : Fin 2) = 0 ∧ win1_7.index t (1 : Fin 2) = 0
    ∧ win1_8.index t (0 : Fin 1) = 0 ∧ win1_9.index t (0 : Fin 1) = 0 ∧ win1_10.index t (0 : Fin 1) = 0
    ∧ win1_11.index t (0 : Fin 1) = 0 ∧ win1_12.index t (0 : Fin 1) = 0
    ∧ win1_13.index t (0 : Fin 2) = 0 ∧ win1_13.index t (1 : Fin 2) = 0
    ∧ win1_14.index t (0 : Fin 1) = 0 :=
  (by decide +kernel : ∀ t : Fin grid1.N, _)

/-! ## The input blocks read from the arrays: a block's coordinate is index × size + the coordinate inside it -/

/-- Row p of the tile's first row block is row 64·(t / 4) + p of the first projection. -/
theorem rowI_read (c : Dev nD) (t : Fin cfg1.N) (p : Fin 64) (k : Fin 512) (i : Fin 512) (hi : i.val = 64 * (t.val / 4) + p.val) :
    (iblk1 V c 0 t : Vec Ideal S64x512 .bf16) (ix2 p k) = (V c main_v8_1 : Vec Ideal S512x512 .bf16) (ix2 i k) := by
  have e := tile_index t
  unfold iblk1
  rw [View.read_apply]
  show V c main_v8_1 _ = V c main_v8_1 _
  congr 1
  funext a
  apply Fin.ext
  match a with
  | ⟨0, _⟩ => show win1_0.index t (0 : Fin 2) * 64 + 1 * p.val = i.val; omega
  | ⟨1, _⟩ => show win1_0.index t (1 : Fin 2) * 512 + 1 * k.val = k.val; omega

/-- Row q of the tile's second row block is row 128·(t % 4) + q of the second projection. -/
theorem rowJ_read (c : Dev nD) (t : Fin cfg1.N) (q : Fin 128) (k : Fin 512) (j : Fin 512) (hj : j.val = 128 * (t.val % 4) + q.val) :
    (iblk1 V c 1 t : Vec Ideal S128x512 .bf16) (ix2 q k) = (V c main_v8_2 : Vec Ideal S512x512 .bf16) (ix2 j k) := by
  have e := tile_index t
  unfold iblk1
  rw [View.read_apply]
  show V c main_v8_2 _ = V c main_v8_2 _
  congr 1
  funext a
  apply Fin.ext
  match a with
  | ⟨0, _⟩ => show win1_1.index t (0 : Fin 2) * 128 + 1 * q.val = j.val; omega
  | ⟨1, _⟩ => show win1_1.index t (1 : Fin 2) * 512 + 1 * k.val = k.val; omega

/-! ## The parameter blocks are the parameter arrays -/

/-- The first layer's bias. -/
theorem bias1_blk (c : Dev nD) (t : Fin cfg1.N) : (iblk1 V c 2 t : Vec Ideal S512 .f32) = V c main_arg10 := by
  have e := param_index t
  funext y
  unfold iblk1
  rw [View.read_apply]
  show V c main_arg10 _ = V c main_arg10 _
  congr 1
  funext a
  apply Fin.ext
  match a with
  | ⟨0, _⟩ => show win1_2.index t (0 : Fin 1) * 512 + 1 * (y 0).val = (y 0).val; omega

/-- The first normalisation's γ. -/
theorem gamma1_blk (c : Dev nD) (t : Fin cfg1.N) : (iblk1 V c 3 t : Vec Ideal S512 .f32) = V c main_arg11 := by
  have e := param_index t
  funext y
  unfold iblk1
  rw [View.read_apply]
  show V c main_arg11 _ = V c main_arg11 _
  congr 1
  funext a
  apply Fin.ext
  match a with
  | ⟨0, _⟩ => show win1_3.index t (0 : Fin 1) * 512 + 1 * (y 0).val = (y 0).val; omega

/-- The first normalisation's β. -/
theorem beta1_blk (c : Dev nD) (t : Fin cfg1.N) : (iblk1 V c 4 t : Vec Ideal S512 .f32) = V c main_arg12 := by
  have e := param_index t
  funext y
  unfold iblk1
  rw [View.read_apply]
  show V c main_arg12 _ = V c main_arg12 _
  congr 1
  funext a
  apply Fin.ext
  match a with
  | ⟨0, _⟩ => show win1_4.index t (0 : Fin 1) * 512 + 1 * (y 0).val = (y 0).val; omega

/-- The first normalisation's running mean. -/
theorem mean1_blk (c : Dev nD) (t : Fin cfg1.N) : (iblk1 V c 5 t : Vec Ideal S512 .f32) = V c main_arg13 := by
  have e := param_index t
  funext y
  unfold iblk1
  rw [View.read_apply]
  show V c main_arg13 _ = V c main_arg13 _
  congr 1
  funext a
  apply Fin.ext
  match a with
  | ⟨0, _⟩ => show win1_5.index t (0 : Fin 1) * 512 + 1 * (y 0).val = (y 0).val; omega

/-- The first normalisation's running variance. -/
theorem var1_blk (c : Dev nD) (t : Fin cfg1.N) : (iblk1 V c 6 t : Vec Ideal S512 .f32) = V c main_arg14 := by
  have e := param_index t
  funext y
  unfold iblk1
  rw [View.read_apply]
  show V c main_arg14 _ = V c main_arg14 _
  congr 1
  funext a
  apply Fin.ext
  match a with
  | ⟨0, _⟩ => show win1_6.index t (0 : Fin 1) * 512 + 1 * (y 0).val = (y 0).val; omega

/-- The second layer's weight, stored (input feature, output feature). -/
theorem weight2_blk (c : Dev nD) (t : Fin cfg1.N) : (iblk1 V c 7 t : Vec Ideal S512x512 .f32) = V c main_v6 := by
  have e := param_index t
  funext y
  unfold iblk1
  rw [View.read_apply]
  show V c main_v6 _ = V c main_v6 _
  congr 1
  funext a
  apply Fin.ext
  match a with
  | ⟨0, _⟩ => show win1_7.index t (0 : Fin 2) * 512 + 1 * (y 0).val = (y 0).val; omega
  | ⟨1, _⟩ => show win1_7.index t (1 : Fin 2) * 512 + 1 * (y 1).val = (y 1).val; omega

/-- The second layer's bias. -/
theorem bias2_blk (c : Dev nD) (t : Fin cfg1.N) : (iblk1 V c 8 t : Vec Ideal S512 .f32) = V c main_arg16 := by
  have e := param_index t
  funext y
  unfold iblk1
  rw [View.read_apply]
  show V c main_arg16 _ = V c main_arg16 _
  congr 1
  funext a
  apply Fin.ext
  match a with
  | ⟨0, _⟩ => show win1_8.index t (0 : Fin 1) * 512 + 1 * (y 0).val = (y 0).val; omega

/-- The second normalisation's γ. -/
theorem gamma2_blk (c : Dev nD) (t : Fin cfg1.N) : (iblk1 V c 9 t : Vec Ideal S512 .f32) = V c main_arg17 := by
  have e := param_index t
  funext y
  unfold iblk1
  rw [View.read_apply]
  show V c main_arg17 _ = V c main_arg17 _
  congr 1
  funext a
  apply Fin.ext
  match a with
  | ⟨0, _⟩ => show win1_9.index t (0 : Fin 1) * 512 + 1 * (y 0).val = (y 0).val; omega

/-- The second normalisation's β. -/
theorem beta2_blk (c : Dev nD) (t : Fin cfg1.N) : (iblk1 V c 10 t : Vec Ideal S512 .f32) = V c main_arg18 := by
  have e := param_index t
  funext y
  unfold iblk1
  rw [View.read_apply]
  show V c main_arg18 _ = V c main_arg18 _
  congr 1
  funext a
  apply Fin.ext
  match a with
  | ⟨0, _⟩ => show win1_10.index t (0 : Fin 1) * 512 + 1 * (y 0).val = (y 0).val; omega

/-- The second normalisation's running mean. -/
theorem mean2_blk (c : Dev nD) (t : Fin cfg1.N) : (iblk1 V c 11 t : Vec Ideal S512 .f32) = V c main_arg19 := by
  have e := param_index t
  funext y
  unfold iblk1
  rw [View.read_apply]
  show V c main_arg19 _ = V c main_arg19 _
  congr 1
  funext a
  apply Fin.ext
  match a with
  | ⟨0, _⟩ => show win1_11.index t (0 : Fin 1) * 512 + 1 * (y 0).val = (y 0).val; omega

/-- The second normalisation's running variance. -/
theorem var2_blk (c : Dev nD) (t : Fin cfg1.N) : (iblk1 V c 12 t : Vec Ideal S512 .f32) = V c main_arg20 := by
  have e := param_index t
  funext y
  unfold iblk1
  rw [View.read_apply]
  show V c main_arg20 _ = V c main_arg20 _
  congr 1
  funext a
  apply Fin.ext
  match a with
  | ⟨0, _⟩ => show win1_12.index t (0 : Fin 1) * 512 + 1 * (y 0).val = (y 0).val; omega

/-- The last layer's weight, stored (input feature, output), 33 outputs. -/
theorem weight3_blk (c : Dev nD) (t : Fin cfg1.N) : (iblk1 V c 13 t : Vec Ideal S512x33 .f32) = V c main_v7 := by
  have e := param_index t
  funext y
  unfold iblk1
  rw [View.read_apply]
  show V c main_v7 _ = V c main_v7 _
  congr 1
  funext a
  apply Fin.ext
  match a with
  | ⟨0, _⟩ => show win1_13.index t (0 : Fin 2) * 512 + 1 * (y 0).val = (y 0).val; omega
  | ⟨1, _⟩ => show win1_13.index t (1 : Fin 2) * 33 + 1 * (y 1).val = (y 1).val; omega

/-- The last layer's bias. -/
theorem bias3_blk (c : Dev nD) (t : Fin cfg1.N) : (iblk1 V c 14 t : Vec Ideal S33 .f32) = V c main_arg22 := by
  have e := param_index t
  funext y
  unfold iblk1
  rw [View.read_apply]
  show V c main_arg22 _ = V c main_arg22 _
  congr 1
  funext a
  apply Fin.ext
  match a with
  | ⟨0, _⟩ => show win1_14.index t (0 : Fin 1) * 33 + 1 * (y 0).val = (y 0).val; omega

end Cert.KernelIdeal.EdgeRegion

end
-- ==== Proof.EdgeTile.lean ====
/-
  One tile of the pair grid: 64 nodes i against 128 nodes j. From the two row blocks of the projections (64 × 512 and
  128 × 512) and the whole parameter arrays the tile's body computes, at the local pair (p, q), the edge predictor's
  outputs: output 0 into the logit tile, outputs 1 … 32 into the feature tile.
-/
import proofs.«154958_j32916629356848_1_alg».proof.Proof.Gen.KernelIdeal.Frame
import proofs.«154958_j32916629356848_1_alg».proof.Proof.PairDecoder
import Idealize.ShloMosaic.Lib.ValueIdx
import Idealize.ShloMosaic.Lib.Pipeline.Value
import Idealize.ShloMosaic.PureOps.Ideal.Laws

noncomputable section

open Idealize.ShloMosaic Idealize.ShloMosaic.TcCoe Idealize.SL.Sem Idealize.ShloMosaic.ValueIdx

namespace Cert.KernelIdeal.EdgeTile

open Cert.KernelIdeal Cert.KernelIdeal.Gen Cert.PairDecoder

/-! ## The layout operations of the tile's body, each read at explicit coordinates -/

section Layout
variable {α : Type}

/-- The local pair (p, q) of a 64 × 128 tile is row `128 · p + q` of the tile flattened to 8192 rows. -/
def flatRow (p : Fin 64) (q : Fin 128) : Fin 8192 := ⟨128 * p.val + q.val, by omega⟩

/-- A [64, 512] block viewed [64, 1, 512]. -/
theorem cast_rows_mid (x : S64x512.Idx → α) (h : S64x512.ShapeCasts S64x1x512) (p : Fin 64) (z : Fin 1) (k : Fin 512) :
    shapeCast S64x1x512 x h (ix3 p z k) = x (ix2 p k) := by
  refine shapeCast_apply x h _ _ ?_
  rw [Shape.rowMajor_val_two, Shape.rowMajor_val_three]
  show p.val * 512 + k.val = (p.val * 1 + z.val) * 512 + k.val
  omega

/-- A [128, 512] block viewed [1, 128, 512]. -/
theorem cast_rows_lead (x : S128x512.Idx → α) (h : S128x512.ShapeCasts S1x128x512) (z : Fin 1) (q : Fin 128) (k : Fin 512) :
    shapeCast S1x128x512 x h (ix3 z q k) = x (ix2 q k) := by
  refine shapeCast_apply x h _ _ ?_
  rw [Shape.rowMajor_val_two, Shape.rowMajor_val_three]
  show q.val * 512 + k.val = (z.val * 128 + q.val) * 512 + k.val
  omega

/-- A [512] vector viewed [1, 1, 512]. -/
theorem cast_vec (x : S512.Idx → α) (h : S512.ShapeCasts S1x1x512) (z z' : Fin 1) (k : Fin 512) :
    shapeCast S1x1x512 x h (ix3 z z' k) = x (ix1 k) := by
  refine shapeCast_apply x h _ _ ?_
  rw [Shape.rowMajor_val_one, Shape.rowMajor_val_three]
  show k.val = (z.val * 1 + z'.val) * 512 + k.val
  omega

/-- [64, 1, 512] repeated along the middle axis. -/
theorem bcast_mid (x : S64x1x512.Idx → α) (h : S64x1x512.Broadcasts S64x128x512) (p : Fin 64) (q : Fin 128) (k : Fin 512) :
    broadcastTo S64x128x512 x h (ix3 p q k) = x (ix3 p 0 k) := by
  refine broadcastTo_apply x h _ _ fun a => ?_
  match a with
  | ⟨0, _⟩ => show p.val = if (64 : Nat) = 1 then 0 else p.val; rw [if_neg (by decide)]
  | ⟨1, _⟩ => show 0 = if (1 : Nat) = 1 then 0 else q.val; rw [if_pos rfl]
  | ⟨2, _⟩ => show k.val = if (512 : Nat) = 1 then 0 else k.val; rw [if_neg (by decide)]

/-- [1, 128, 512] repeated along the leading axis. -/
theorem bcast_lead (x : S1x128x512.Idx → α) (h : S1x128x512.Broadcasts S64x128x512) (p : Fin 64) (q : Fin 128) (k : Fin 512) :
    broadcastTo S64x128x512 x h (ix3 p q k) = x (ix3 0 q k) := by
  refine broadcastTo_apply x h _ _ fun a => ?_
  match a with
  | ⟨0, _⟩ => show 0 = if (1 : Nat) = 1 then 0 else p.val; rw [if_pos rfl]
  | ⟨1, _⟩ => show q.val = if (128 : Nat) = 1 then 0 else q.val; rw [if_neg (by decide)]
  | ⟨2, _⟩ => show k.val = if (512 : Nat) = 1 then 0 else k.val; rw [if_neg (by decide)]

/-- [1, 1, 512] repeated along both pair axes. -/
theorem bcast_feat (x : S1x1x512.Idx → α) (h : S1x1x512.Broadcasts S64x128x512) (p : Fin 64) (q : Fin 128) (k : Fin 512) :
    broadcastTo S64x128x512 x h (ix3 p q k) = x (ix3 0 0 k) := by
  refine broadcastTo_apply x h _ _ fun a => ?_
  match a with
  | ⟨0, _⟩ => show 0 = if (1 : Nat) = 1 then 0 else p.val; rw [if_pos rfl]
  | ⟨1, _⟩ => show 0 = if (1 : Nat) = 1 then 0 else q.val; rw [if_pos rfl]
  | ⟨2, _⟩ => show k.val = if (512 : Nat) = 1 then 0 else k.val; rw [if_neg (by decide)]

/-- A per-feature vector carried to the whole tile: [512] viewed [1, 1, 512], then repeated. -/
theorem feat_apply (x : S512.Idx → α) (h : S512.ShapeCasts S1x1x512) (h' : S1x1x512.Broadcasts S64x128x512)
    (p : Fin 64) (q : Fin 128) (k : Fin 512) :
    broadcastTo S64x128x512 (shapeCast S1x1x512 x h) h' (ix3 p q k) = x (ix1 k) :=
  (bcast_feat _ h' p q k).trans (cast_vec x h 0 0 k)

/-- The tile flattened: [64, 128, 512] viewed [8192, 512]. -/
theorem cast_flat (x : S64x128x512.Idx → α) (h : S64x128x512.ShapeCasts S8192x512) (p : Fin 64) (q : Fin 128) (k : Fin 512) :
    shapeCast S8192x512 x h (ix2 (flatRow p q) k) = x (ix3 p q k) := by
  refine shapeCast_apply x h _ _ ?_
  rw [Shape.rowMajor_val_two, Shape.rowMajor_val_three]
  show (p.val * 128 + q.val) * 512 + k.val = (128 * p.val + q.val) * 512 + k.val
  omega

/-- And back: [8192, 512] viewed [64, 128, 512]. -/
theorem cast_unflat (x : S8192x512.Idx → α) (h : S8192x512.ShapeCasts S64x128x512) (p : Fin 64) (q : Fin 128) (k : Fin 512) :
    shapeCast S64x128x512 x h (ix3 p q k) = x (ix2 (flatRow p q) k) := by
  refine shapeCast_apply x h _ _ ?_
  rw [Shape.rowMajor_val_two, Shape.rowMajor_val_three]
  show (128 * p.val + q.val) * 512 + k.val = (p.val * 128 + q.val) * 512 + k.val
  omega

/-- The 33 outputs: [8192, 33] viewed [64, 128, 33]. -/
theorem cast_unflat_out (x : S8192x33.Idx → α) (h : S8192x33.ShapeCasts S64x128x33) (p : Fin 64) (q : Fin 128) (o : Fin 33) :
    shapeCast S64x128x33 x h (ix3 p q o) = x (ix2 (flatRow p q) o) := by
  refine shapeCast_apply x h _ _ ?_
  rw [Shape.rowMajor_val_two, Shape.rowMajor_val_three]
  show (128 * p.val + q.val) * 33 + o.val = (p.val * 128 + q.val) * 33 + o.val
  omega

/-- The last bias: [33] viewed [1, 33], then repeated down the 8192 rows. -/
theorem bias_out_apply (x : S33.Idx → α) (h : S33.ShapeCasts S1x33) (h' : S1x33.Broadcasts S8192x33) (r : Fin 8192) (o : Fin 33) :
    broadcastTo S8192x33 (shapeCast S1x33 x h) h' (ix2 r o) = x (ix1 o) := by
  refine (broadcastTo_apply _ h' _ (ix2 (0 : Fin 1) o) fun a => ?_).trans ?_
  · match a with
    | ⟨0, _⟩ => show 0 = if (1 : Nat) = 1 then 0 else r.val; rw [if_pos rfl]
    | ⟨1, _⟩ => show o.val = if (33 : Nat) = 1 then 0 else o.val; rw [if_neg (by decide)]
  · refine shapeCast_apply x h _ _ ?_
    rw [Shape.rowMajor_val_one, Shape.rowMajor_val_two]
    show o.val = 0 * 33 + o.val
    omega

/-- Output 0 cut out ([64, 128, 33] → [64, 128, 1]) and its unit axis dropped. -/
theorem slice_logit (x : S64x128x33.Idx → α) (h : S64x128x33.Slices ![0, 0, 0] S64x128x1) (h' : S64x128x1.ShapeCasts S64x128)
    (p : Fin 64) (q : Fin 128) :
    shapeCast S64x128 (extractStridedSlice S64x128x1 ![0, 0, 0] x h) h' (ix2 p q) = x (ix3 p q 0) := by
  refine (shapeCast_apply _ h' _ (ix3 p q (0 : Fin 1)) ?_).trans ?_
  · rw [Shape.rowMajor_val_two, Shape.rowMajor_val_three]
    show (p.val * 128 + q.val) * 1 + 0 = p.val * 128 + q.val
    omega
  · refine extractStridedSlice_apply _ x h _ _ fun a => ?_
    match a with
    | ⟨0, _⟩ => show p.val = 0 + p.val; omega
    | ⟨1, _⟩ => show q.val = 0 + q.val; omega
    | ⟨2, _⟩ => show 0 = 0 + 0; rfl

/-- Outputs 1 … 32 cut out ([64, 128, 33] → [64, 128, 32] at offset 1 on the last axis). -/
theorem slice_feat (x : S64x128x33.Idx → α) (h : S64x128x33.Slices ![0, 0, 1] S64x128x32) (p : Fin 64) (q : Fin 128) (d : Fin 32) :
    extractStridedSlice S64x128x32 ![0, 0, 1] x h (ix3 p q d) = x (ix3 p q (⟨d.val + 1, by omega⟩ : Fin 33)) := by
  refine extractStridedSlice_apply _ x h _ _ fun a => ?_
  match a with
  | ⟨0, _⟩ => show p.val = 0 + p.val; omega
  | ⟨1, _⟩ => show q.val = 0 + q.val; omega
  | ⟨2, _⟩ => show d.val + 1 = 1 + d.val; omega

end Layout

/-! ## The two products of the tile's body at an index

Each contracts the 512 features of a row of the flattened tile against a column of the weight (stored (input, output)):
into a zero accumulator, at the extended reals, it is the plain sum. -/

section Dots

theorem lhs_hid_0 (i : S8192x512.Idx) (c : dot_S8192x512_S512x512_S8192x512_1_0_0_1_n_n.contr.Idx) :
    (dot_S8192x512_S512x512_S8192x512_1_0_0_1_n_n.lhsIdx i c 0).val = (i 0).val := by
  unfold DotDims.lhsIdx
  rw [dif_neg (show ¬(0 : Fin S8192x512.rank) ∈ dot_S8192x512_S512x512_S8192x512_1_0_0_1_n_n.lhsBatch by decide), dif_pos (show (0 : Fin S8192x512.rank) ∈ dot_S8192x512_S512x512_S8192x512_1_0_0_1_n_n.lhsNonContracting by decide)]
  rfl
theorem lhs_hid_1 (i : S8192x512.Idx) (c : dot_S8192x512_S512x512_S8192x512_1_0_0_1_n_n.contr.Idx) :
    (dot_S8192x512_S512x512_S8192x512_1_0_0_1_n_n.lhsIdx i c 1).val = (c ⟨0, by decide⟩).val :=
  dot_S8192x512_S512x512_S8192x512_1_0_0_1_n_n.lhsIdx_val_of_single rfl i c
theorem rhs_hid_0 (i : S8192x512.Idx) (c : dot_S8192x512_S512x512_S8192x512_1_0_0_1_n_n.contr.Idx) :
    (dot_S8192x512_S512x512_S8192x512_1_0_0_1_n_n.rhsIdx i c 0).val = (c ⟨0, by decide⟩).val :=
  dot_S8192x512_S512x512_S8192x512_1_0_0_1_n_n.rhsIdx_val_of_single rfl i c
theorem rhs_hid_1 (i : S8192x512.Idx) (c : dot_S8192x512_S512x512_S8192x512_1_0_0_1_n_n.contr.Idx) :
    (dot_S8192x512_S512x512_S8192x512_1_0_0_1_n_n.rhsIdx i c 1).val = (i 1).val := by
  unfold DotDims.rhsIdx
  rw [dif_neg (show ¬(1 : Fin S512x512.rank) ∈ dot_S8192x512_S512x512_S8192x512_1_0_0_1_n_n.rhsBatch by decide), dif_pos (show (1 : Fin S512x512.rank) ∈ dot_S8192x512_S512x512_S8192x512_1_0_0_1_n_n.rhsNonContracting by decide)]
  rfl

theorem lhs_out_0 (i : S8192x33.Idx) (c : dot_S8192x512_S512x33_S8192x33_1_0_0_1_n_n.contr.Idx) :
    (dot_S8192x512_S512x33_S8192x33_1_0_0_1_n_n.lhsIdx i c 0).val = (i 0).val := by
  unfold DotDims.lhsIdx
  rw [dif_neg (show ¬(0 : Fin S8192x512.rank) ∈ dot_S8192x512_S512x33_S8192x33_1_0_0_1_n_n.lhsBatch by decide), dif_pos (show (0 : Fin S8192x512.rank) ∈ dot_S8192x512_S512x33_S8192x33_1_0_0_1_n_n.lhsNonContracting by decide)]
  rfl
theorem lhs_out_1 (i : S8192x33.Idx) (c : dot_S8192x512_S512x33_S8192x33_1_0_0_1_n_n.contr.Idx) :
    (dot_S8192x512_S512x33_S8192x33_1_0_0_1_n_n.lhsIdx i c 1).val = (c ⟨0, by decide⟩).val :=
  dot_S8192x512_S512x33_S8192x33_1_0_0_1_n_n.lhsIdx_val_of_single rfl i c
theorem rhs_out_0 (i : S8192x33.Idx) (c : dot_S8192x512_S512x33_S8192x33_1_0_0_1_n_n.contr.Idx) :
    (dot_S8192x512_S512x33_S8192x33_1_0_0_1_n_n.rhsIdx i c 0).val = (c ⟨0, by decide⟩).val :=
  dot_S8192x512_S512x33_S8192x33_1_0_0_1_n_n.rhsIdx_val_of_single rfl i c
theorem rhs_out_1 (i : S8192x33.Idx) (c : dot_S8192x512_S512x33_S8192x33_1_0_0_1_n_n.contr.Idx) :
    (dot_S8192x512_S512x33_S8192x33_1_0_0_1_n_n.rhsIdx i c 1).val = (i 1).val := by
  unfold DotDims.rhsIdx
  rw [dif_neg (show ¬(1 : Fin S512x33.rank) ∈ dot_S8192x512_S512x33_S8192x33_1_0_0_1_n_n.rhsBatch by decide), dif_pos (show (1 : Fin S512x33.rank) ∈ dot_S8192x512_S512x33_S8192x33_1_0_0_1_n_n.rhsNonContracting by decide)]
  rfl

/-- The hidden-layer product at (row r, feature k'). -/
theorem matmul_hid_apply (a : FVec Ideal S8192x512 .bf16) (b : FVec Ideal S512x512 .bf16) (r : Fin 8192) (k' : Fin 512) :
    matmul dot_S8192x512_S512x512_S8192x512_1_0_0_1_n_n none a b (constant (F := Ideal) S8192x512 .f32 0x00000000#32) (ix2 r k')
      = ∑ k : Fin 512, a (ix2 r k) * b (ix2 k k') := by
  show FloatOps.matmul dot_S8192x512_S512x512_S8192x512_1_0_0_1_n_n none a b (constant (F := Ideal) S8192x512 .f32 0x00000000#32) (ix2 r k') = _
  rw [Ideal.matmul_constant_zero_apply, ← Equiv.sum_comp (contrEquiv1 dot_S8192x512_S512x512_S8192x512_1_0_0_1_n_n 512 rfl rfl).symm]
  refine Finset.sum_congr rfl fun k _ => ?_
  have hk := contrEquiv1_symm_val dot_S8192x512_S512x512_S8192x512_1_0_0_1_n_n 512 rfl rfl k
  have el : dot_S8192x512_S512x512_S8192x512_1_0_0_1_n_n.lhsIdx (ix2 r k') ((contrEquiv1 dot_S8192x512_S512x512_S8192x512_1_0_0_1_n_n 512 rfl rfl).symm k) = ix2 r k := funext fun x => Fin.ext (by
    match x with
    | ⟨0, _⟩ => exact lhs_hid_0 _ _
    | ⟨1, _⟩ => exact (lhs_hid_1 _ _).trans hk)
  have er : dot_S8192x512_S512x512_S8192x512_1_0_0_1_n_n.rhsIdx (ix2 r k') ((contrEquiv1 dot_S8192x512_S512x512_S8192x512_1_0_0_1_n_n 512 rfl rfl).symm k) = ix2 k k' := funext fun x => Fin.ext (by
    match x with
    | ⟨0, _⟩ => exact (rhs_hid_0 _ _).trans hk
    | ⟨1, _⟩ => exact rhs_hid_1 _ _)
  rw [el, er]

/-- The output-layer product at (row r, output o). -/
theorem matmul_out_apply (a : FVec Ideal S8192x512 .bf16) (b : FVec Ideal S512x33 .bf16) (r : Fin 8192) (o : Fin 33) :
    matmul dot_S8192x512_S512x33_S8192x33_1_0_0_1_n_n none a b (constant (F := Ideal) S8192x33 .f32 0x00000000#32) (ix2 r o)
      = ∑ k : Fin 512, a (ix2 r k) * b (ix2 k o) := by
  show FloatOps.matmul dot_S8192x512_S512x33_S8192x33_1_0_0_1_n_n none a b (constant (F := Ideal) S8192x33 .f32 0x00000000#32) (ix2 r o) = _
  rw [Ideal.matmul_constant_zero_apply, ← Equiv.sum_comp (contrEquiv1 dot_S8192x512_S512x33_S8192x33_1_0_0_1_n_n 512 rfl rfl).symm]
  refine Finset.sum_congr rfl fun k _ => ?_
  have hk := contrEquiv1_symm_val dot_S8192x512_S512x33_S8192x33_1_0_0_1_n_n 512 rfl rfl k
  have el : dot_S8192x512_S512x33_S8192x33_1_0_0_1_n_n.lhsIdx (ix2 r o) ((contrEquiv1 dot_S8192x512_S512x33_S8192x33_1_0_0_1_n_n 512 rfl rfl).symm k) = ix2 r k := funext fun x => Fin.ext (by
    match x with
    | ⟨0, _⟩ => exact lhs_out_0 _ _
    | ⟨1, _⟩ => exact (lhs_out_1 _ _).trans hk)
  have er : dot_S8192x512_S512x33_S8192x33_1_0_0_1_n_n.rhsIdx (ix2 r o) ((contrEquiv1 dot_S8192x512_S512x33_S8192x33_1_0_0_1_n_n 512 rfl rfl).symm k) = ix2 k o := funext fun x => Fin.ext (by
    match x with
    | ⟨0, _⟩ => exact (rhs_out_0 _ _).trans hk
    | ⟨1, _⟩ => exact rhs_out_1 _ _)
  rw [el, er]

end Dots

section Body

/-- The first hidden layer of the tile, multiplied into the second layer's weight: at the local pair (p, q) and feature
    k' the sum over the 512 hidden features, the second bias not yet added. -/
theorem pay4_apply (x0 : Vec Ideal S64x512 .bf16) (x1 : Vec Ideal S128x512 .bf16) (x2 x3 x6 x5 x4 : Vec Ideal S512 .f32)
    (x7 : Vec Ideal S512x512 .f32) (p : Fin 64) (q : Fin 128) (k' : Fin 512) :
    k1_pay4 x0 x1 x2 x3 x6 x5 x4 x7 (ix3 p q k')
      = ∑ k : Fin 512, pairHidden1 (rd2 x0) (rd2 x1) (rd1 x2) (rd1 x5) (scaleR (rd1 x3) (rd1 x6)) (rd1 x4) p q k * rd2 x7 k k' := by
  unfold k1_pay4
  refine (cast_unflat _ _ p q k').trans ?_
  refine (matmul_hid_apply _ _ (flatRow p q) k').trans ?_
  refine Finset.sum_congr rfl fun k _ => ?_
  refine congrArg₂ (· * ·) ?_ ?_
  · refine (cast_flat _ _ p q k).trans ?_
    simp only [truncf_apply, maximumf_apply, addf_apply, mulf_apply, subf_apply, extf_apply, broadcast_apply, feat_apply,
      bcast_mid, bcast_lead, cast_rows_mid, cast_rows_lead, shapeCast_self]
    rfl
  · exact congrFun (shapeCast_self x7 _) (ix2 k k')

end Body

section Body1

/-- The 33 outputs of the edge predictor on the tile, at the local pair (p, q) and output o: the second bias, batch
    normalisation and rectifier on the hidden product, then the last layer and its bias. -/
theorem pay1_apply (x0 : Vec Ideal S64x512 .bf16) (x1 : Vec Ideal S128x512 .bf16) (x2 x3 x4 x5 x6 : Vec Ideal S512 .f32)
    (x7 : Vec Ideal S512x512 .f32) (x8 x9 x10 x11 x12 : Vec Ideal S512 .f32) (x13 : Vec Ideal S512x33 .f32) (x14 : Vec Ideal S33 .f32)
    (p : Fin 64) (q : Fin 128) (o : Fin 33) :
    k1_pay1 (k1_pay4 x0 x1 x2 x3 x6 x5 x4 x7) (k1_pay5 x8) x9 x12 x11 x10 x13 x14 (ix3 p q o)
      = pairOut (rd2 x0) (rd2 x1) (rd1 x2) (rd1 x5) (scaleR (rd1 x3) (rd1 x6)) (rd1 x4) (rd2 x7) (rd1 x8) (rd1 x11)
          (scaleR (rd1 x9) (rd1 x12)) (rd1 x10) (rd2 x13) (rd1 x14) p q o := by
  unfold k1_pay1 k1_pay5 pairOut pairHidden2
  refine (cast_unflat_out _ _ p q o).trans ?_
  refine (addf_apply _ _ _).trans ?_
  refine congrArg₂ (· + ·) ?_ (bias_out_apply x14 _ _ (flatRow p q) o)
  refine (matmul_out_apply _ _ (flatRow p q) o).trans ?_
  refine Finset.sum_congr rfl fun k' _ => ?_
  refine congrArg₂ (· * ·) ?_ ?_
  · refine (cast_flat _ _ p q k').trans ?_
    simp only [truncf_apply, maximumf_apply, addf_apply, mulf_apply, subf_apply, broadcast_apply, feat_apply, pay4_apply]
    rfl
  · exact congrFun (shapeCast_self x13 _) (ix2 k' o)

end Body1

/-- The logit tile at the local pair (p, q) is output 0 of the edge predictor read from the two row blocks. -/
theorem logit_tile (x0 : Vec Ideal S64x512 .bf16) (x1 : Vec Ideal S128x512 .bf16) (x2 x3 x4 x5 x6 : Vec Ideal S512 .f32)
    (x7 : Vec Ideal S512x512 .f32) (x8 x9 x10 x11 x12 : Vec Ideal S512 .f32) (x13 : Vec Ideal S512x33 .f32) (x14 : Vec Ideal S33 .f32)
    (p : Fin 64) (q : Fin 128) :
    k1_pay2 (k1_pay4 x0 x1 x2 x3 x6 x5 x4 x7) (k1_pay5 x8) x9 x12 x11 x10 x13 x14 (ix2 p q)
      = pairOut (rd2 x0) (rd2 x1) (rd1 x2) (rd1 x5) (scaleR (rd1 x3) (rd1 x6)) (rd1 x4) (rd2 x7) (rd1 x8) (rd1 x11)
          (scaleR (rd1 x9) (rd1 x12)) (rd1 x10) (rd2 x13) (rd1 x14) p q 0 := by
  unfold k1_pay2
  exact (slice_logit _ _ _ p q).trans (pay1_apply x0 x1 x2 x3 x4 x5 x6 x7 x8 x9 x10 x11 x12 x13 x14 p q 0)

/-- The feature tile at the local pair (p, q), feature d, is output 1 + d. -/
theorem feat_tile (x0 : Vec Ideal S64x512 .bf16) (x1 : Vec Ideal S128x512 .bf16) (x2 x3 x4 x5 x6 : Vec Ideal S512 .f32)
    (x7 : Vec Ideal S512x512 .f32) (x8 x9 x10 x11 x12 : Vec Ideal S512 .f32) (x13 : Vec Ideal S512x33 .f32) (x14 : Vec Ideal S33 .f32)
    (p : Fin 64) (q : Fin 128) (d : Fin 32) :
    k1_pay3 (k1_pay4 x0 x1 x2 x3 x6 x5 x4 x7) (k1_pay5 x8) x9 x12 x11 x10 x13 x14 (ix3 p q d)
      = pairOut (rd2 x0) (rd2 x1) (rd1 x2) (rd1 x5) (scaleR (rd1 x3) (rd1 x6)) (rd1 x4) (rd2 x7) (rd1 x8) (rd1 x11)
          (scaleR (rd1 x9) (rd1 x12)) (rd1 x10) (rd2 x13) (rd1 x14) p q (featIx d) := by
  unfold k1_pay3
  exact (slice_feat _ _ p q d).trans (pay1_apply x0 x1 x2 x3 x4 x5 x6 x7 x8 x9 x10 x11 x12 x13 x14 p q (featIx d))

end Cert.KernelIdeal.EdgeTile

end
-- ==== Proof.EdgeRegion.lean ====
/-
  The pair grid from tiles to arrays. The second region of the kernel program walks an 8 × 4 grid of tiles, tile
  (I, J) holding the pairs (i, j) with 64·I ≤ i < 64·I + 64 and 128·J ≤ j < 128·J + 128. At each tile the body reads
  rows 64·I … of the first projection, rows 128·J … of the second, and every parameter array whole, and writes the
  tile of the logits and the tile of the features. Here: each tile's block of either output is the block of ONE
  function of the region-entry arrays (the edge predictor's outputs at the pair), and the 32 tiles cover the pair
  grid, so after the region each output array is that function.
-/
import proofs.«154958_j32916629356848_1_alg».proof.Proof.EdgeBlocks
import proofs.«154958_j32916629356848_1_alg».proof.Proof.PairDecoder
import proofs.«154958_j32916629356848_1_alg».proof.Proof.EdgeTile
import Idealize.ShloMosaic.Lib.ValueIdx
import Idealize.ShloMosaic.Lib.Pipeline.Value

noncomputable section

open Idealize.ShloMosaic Idealize.ShloMosaic.TcCoe Idealize.SL.Sem Idealize.ShloMosaic.ValueIdx
open Idealize.ShloMosaic.Pipeline (Dat)

namespace Cert.KernelIdeal.EdgeRegion

open Cert.KernelIdeal Cert.KernelIdeal.Gen Cert.PairDecoder Cert.KernelIdeal.EdgeTile

variable (V : (c : Dev nD) → (b : Ref sig .tc) → Buf (Elt Ideal) ((c : Thread nD τ).loc b))

/-! ## The logits -/

/-- The logit of the pair (j 0, j 1): output 0 of the edge predictor over the region-entry arrays. -/
abbrev logitsOf (c : Dev nD) : Vec Ideal S512x512 .f32 := fun j =>
  pairOut (rd2 (V c main_v8_1)) (rd2 (V c main_v8_2)) (rd1 (V c main_arg10)) (rd1 (V c main_arg13))
    (scaleR (rd1 (V c main_arg11)) (rd1 (V c main_arg14))) (rd1 (V c main_arg12)) (rd2 (V c main_v6)) (rd1 (V c main_arg16))
    (rd1 (V c main_arg19)) (scaleR (rd1 (V c main_arg17)) (rd1 (V c main_arg20))) (rd1 (V c main_arg18))
    (rd2 (V c main_v7)) (rd1 (V c main_arg22)) (j 0) (j 1) 0

/-- One pair of a tile read from the whole projections: the tile's two row blocks agree with them on the two rows the
    pair reads, and the edge predictor at a pair reads no other row. -/
theorem logit_pair (x0 : Vec Ideal S64x512 .bf16) (x1 : Vec Ideal S128x512 .bf16) (x2 x3 x4 x5 x6 : Vec Ideal S512 .f32)
    (x7 : Vec Ideal S512x512 .f32) (x8 x9 x10 x11 x12 : Vec Ideal S512 .f32) (x13 : Vec Ideal S512x33 .f32) (x14 : Vec Ideal S33 .f32)
    (a0 a1 : Vec Ideal S512x512 .bf16) (p : Fin 64) (q : Fin 128) (i j : Fin 512)
    (e0 : ∀ k, x0 (ix2 p k) = a0 (ix2 i k)) (e1 : ∀ k, x1 (ix2 q k) = a1 (ix2 j k)) :
    k1_pay2 (k1_pay4 x0 x1 x2 x3 x6 x5 x4 x7) (k1_pay5 x8) x9 x12 x11 x10 x13 x14 (ix2 p q)
      = pairOut (rd2 a0) (rd2 a1) (rd1 x2) (rd1 x5) (scaleR (rd1 x3) (rd1 x6)) (rd1 x4) (rd2 x7) (rd1 x8) (rd1 x11)
          (scaleR (rd1 x9) (rd1 x12)) (rd1 x10) (rd2 x13) (rd1 x14) i j 0 := by
  rw [logit_tile]
  exact pairOut_congr _ _ _ _ _ _ _ _ _ _ _ _ _ _ _ p q i j e0 e1 0

/-- What point t writes back to the logits is its tile of `logitsOf`. -/
theorem logits_flushed (c : Dev nD) (t : Fin cfg1.N) :
    (dat1 (F := Ideal) V c).flushed 15 t = ((cfg1.win 15).blk t).view.read (Elt Ideal) (logitsOf V c) := by
  show (cfg1.win 15).cut (grid1.coords t) ((dat1 (F := Ideal) V c).after 15 t) = _
  rw [after1_15]
  unfold out1_15
  rw [View.canon_unit_zero zeros2]
  simp only [View.ld_unit_zero (S := S64x512) zeros2, View.ld_unit_zero (S := S128x512) zeros2, View.ld_unit_zero (S := S512) zeros1,
    View.ld_unit_zero (S := S512x512) zeros2, View.ld_unit_zero (S := S512x33) zeros2, View.ld_unit_zero (S := S33) zeros1]
  funext y
  obtain ⟨p, q, rfl⟩ : ∃ (p : Fin 64) (q : Fin 128), (y : S64x128.Idx) = ix2 p q := ⟨y 0, y 1, eq_ix2 y⟩
  have e := tile_index t
  show k1_pay2 (k1_pay4 (iblk1 V c 0 t) (iblk1 V c 1 t) (iblk1 V c 2 t) (iblk1 V c 3 t) (iblk1 V c 6 t) (iblk1 V c 5 t)
        (iblk1 V c 4 t) (iblk1 V c 7 t)) (k1_pay5 (iblk1 V c 8 t)) (iblk1 V c 9 t) (iblk1 V c 12 t) (iblk1 V c 11 t)
        (iblk1 V c 10 t) (iblk1 V c 13 t) (iblk1 V c 14 t) (ix2 p q)
      = logitsOf V c (((cfg1.win 15).blk t).view.emb (ix2 p q))
  refine (logit_pair (iblk1 V c 0 t) (iblk1 V c 1 t) (iblk1 V c 2 t) (iblk1 V c 3 t) (iblk1 V c 4 t) (iblk1 V c 5 t) (iblk1 V c 6 t)
    (iblk1 V c 7 t) (iblk1 V c 8 t) (iblk1 V c 9 t) (iblk1 V c 10 t) (iblk1 V c 11 t) (iblk1 V c 12 t) (iblk1 V c 13 t) (iblk1 V c 14 t)
    (V c main_v8_1) (V c main_v8_2) p q
    (((cfg1.win 15).blk t).view.emb (ix2 p q) 0) (((cfg1.win 15).blk t).view.emb (ix2 p q) 1)
    (fun k => rowI_read V c t p k _ ?_) (fun k => rowJ_read V c t q k _ ?_)).trans ?_
  · show win1_15.index t (0 : Fin 2) * 64 + 1 * p.val = 64 * (t.val / 4) + p.val; omega
  · show win1_15.index t (1 : Fin 2) * 128 + 1 * q.val = 128 * (t.val % 4) + q.val; omega
  · rw [bias1_blk V c t, gamma1_blk V c t, beta1_blk V c t, mean1_blk V c t, var1_blk V c t, weight2_blk V c t, bias2_blk V c t,
      gamma2_blk V c t, beta2_blk V c t, mean2_blk V c t, var2_blk V c t, weight3_blk V c t, bias3_blk V c t]

/-- An index of the logits is in point t's tile iff each coordinate is in the tile's range on its axis. -/
theorem mem_logit_tile (t : Fin cfg1.N) (i : S512x512.Idx) :
    i ∈ ((cfg1.win 15).blk t).view.set ↔ ∀ a : Fin 2, win1_15.index t a * S64x128.size a ≤ (i a).val ∧ (i a).val < win1_15.index t a * S64x128.size a + S64x128.size a := by
  show i ∈ ((View.whole main_v9_0).slice (win1_15.rect t)).set ↔ _
  rw [View.set_slice_whole, Rect.mem_set_unit]
  exact Iff.rfl

/-- Every pair is in a tile: the pair (i, j) in tile (i / 64, j / 128), which is point 4·(i / 64) + j / 128. -/
theorem logits_cover (i : S512x512.Idx) : ∃ t : Fin cfg1.N, (cfg1.win 15).flush t = true ∧ i ∈ ((cfg1.win 15).blk t).view.set := by
  have h0 : (i 0).val < 512 := (i 0).isLt
  have h1 : (i 1).val < 512 := (i 1).isLt
  obtain ⟨t, ht⟩ : ∃ t : Fin cfg1.N, t.val = (i 0).val / 64 * 4 + (i 1).val / 128 :=
    ⟨⟨(i 0).val / 64 * 4 + (i 1).val / 128, by have hN : cfg1.N = 32 := N_1; omega⟩, rfl⟩
  have e := tile_index t
  refine ⟨t, flush1_15 t, ?_⟩
  rw [mem_logit_tile]
  intro a
  match a with
  | ⟨0, _⟩ => show win1_15.index t (0 : Fin 2) * 64 ≤ (i 0).val ∧ (i 0).val < win1_15.index t (0 : Fin 2) * 64 + 64; omega
  | ⟨1, _⟩ => show win1_15.index t (1 : Fin 2) * 128 ≤ (i 1).val ∧ (i 1).val < win1_15.index t (1 : Fin 2) * 128 + 128; omega

/-- After the region the logits array holds, at every pair, output 0 of the edge predictor over the region-entry arrays. -/
theorem logits_arr (c : Dev nD) :
    ((dat1 (F := Ideal) V c).arrAt 15 cfg1.N : Vec Ideal S512x512 .f32) = fun j =>
      pairOut (rd2 (V c main_v8_1)) (rd2 (V c main_v8_2)) (rd1 (V c main_arg10)) (rd1 (V c main_arg13))
        (scaleR (rd1 (V c main_arg11)) (rd1 (V c main_arg14))) (rd1 (V c main_arg12)) (rd2 (V c main_v6)) (rd1 (V c main_arg16))
        (rd1 (V c main_arg19)) (scaleR (rd1 (V c main_arg17)) (rd1 (V c main_arg20))) (rd1 (V c main_arg18))
        (rd2 (V c main_v7)) (rd1 (V c main_arg22)) (j 0) (j 1) 0 :=
  (dat1 (F := Ideal) V c).arrAt_eq_of_cover 15 (logitsOf V c) (fun t _ => logits_flushed V c t) (logits_cover)

/-! ## The features -/

/-- Feature j 2 of the pair (j 0, j 1): output 1 + (j 2) of the edge predictor over the region-entry arrays. -/
abbrev featsOf (c : Dev nD) : Vec Ideal S512x512x32 .f32 := fun j =>
  pairOut (rd2 (V c main_v8_1)) (rd2 (V c main_v8_2)) (rd1 (V c main_arg10)) (rd1 (V c main_arg13))
    (scaleR (rd1 (V c main_arg11)) (rd1 (V c main_arg14))) (rd1 (V c main_arg12)) (rd2 (V c main_v6)) (rd1 (V c main_arg16))
    (rd1 (V c main_arg19)) (scaleR (rd1 (V c main_arg17)) (rd1 (V c main_arg20))) (rd1 (V c main_arg18))
    (rd2 (V c main_v7)) (rd1 (V c main_arg22)) (j 0) (j 1) (featIx (j 2))

/-- One feature of one pair of a tile read from the whole projections; the feature axis is not tiled, so the
    feature's number in the tile is its number in the array. -/
theorem feat_pair (x0 : Vec Ideal S64x512 .bf16) (x1 : Vec Ideal S128x512 .bf16) (x2 x3 x4 x5 x6 : Vec Ideal S512 .f32)
    (x7 : Vec Ideal S512x512 .f32) (x8 x9 x10 x11 x12 : Vec Ideal S512 .f32) (x13 : Vec Ideal S512x33 .f32) (x14 : Vec Ideal S33 .f32)
    (a0 a1 : Vec Ideal S512x512 .bf16) (p : Fin 64) (q : Fin 128) (d : Fin 32) (i j : Fin 512) (d' : Fin 32)
    (e0 : ∀ k, x0 (ix2 p k) = a0 (ix2 i k)) (e1 : ∀ k, x1 (ix2 q k) = a1 (ix2 j k)) (ed : d'.val = d.val) :
    k1_pay3 (k1_pay4 x0 x1 x2 x3 x6 x5 x4 x7) (k1_pay5 x8) x9 x12 x11 x10 x13 x14 (ix3 p q d)
      = pairOut (rd2 a0) (rd2 a1) (rd1 x2) (rd1 x5) (scaleR (rd1 x3) (rd1 x6)) (rd1 x4) (rd2 x7) (rd1 x8) (rd1 x11)
          (scaleR (rd1 x9) (rd1 x12)) (rd1 x10) (rd2 x13) (rd1 x14) i j (featIx d') := by
  obtain rfl : d' = d := Fin.ext ed
  rw [feat_tile]
  exact pairOut_congr _ _ _ _ _ _ _ _ _ _ _ _ _ _ _ p q i j e0 e1 (featIx d')

/-- What point t writes back to the features is its tile of `featsOf`. -/
theorem feats_flushed (c : Dev nD) (t : Fin cfg1.N) :
    (dat1 (F := Ideal) V c).flushed 16 t = ((cfg1.win 16).blk t).view.read (Elt Ideal) (featsOf V c) := by
  show (cfg1.win 16).cut (grid1.coords t) ((dat1 (F := Ideal) V c).after 16 t) = _
  rw [after1_16]
  unfold out1_16
  rw [View.canon_unit_zero zeros3]
  simp only [View.ld_unit_zero (S := S64x512) zeros2, View.ld_unit_zero (S := S128x512) zeros2, View.ld_unit_zero (S := S512) zeros1,
    View.ld_unit_zero (S := S512x512) zeros2, View.ld_unit_zero (S := S512x33) zeros2, View.ld_unit_zero (S := S33) zeros1]
  funext y
  obtain ⟨p, q, d, rfl⟩ : ∃ (p : Fin 64) (q : Fin 128) (d : Fin 32), (y : S64x128x32.Idx) = ix3 p q d := ⟨y 0, y 1, y 2, eq_ix3 y⟩
  have e := tile_index t
  show k1_pay3 (k1_pay4 (iblk1 V c 0 t) (iblk1 V c 1 t) (iblk1 V c 2 t) (iblk1 V c 3 t) (iblk1 V c 6 t) (iblk1 V c 5 t)
        (iblk1 V c 4 t) (iblk1 V c 7 t)) (k1_pay5 (iblk1 V c 8 t)) (iblk1 V c 9 t) (iblk1 V c 12 t) (iblk1 V c 11 t)
        (iblk1 V c 10 t) (iblk1 V c 13 t) (iblk1 V c 14 t) (ix3 p q d)
      = featsOf V c (((cfg1.win 16).blk t).view.emb (ix3 p q d))
  refine (feat_pair (iblk1 V c 0 t) (iblk1 V c 1 t) (iblk1 V c 2 t) (iblk1 V c 3 t) (iblk1 V c 4 t) (iblk1 V c 5 t) (iblk1 V c 6 t)
    (iblk1 V c 7 t) (iblk1 V c 8 t) (iblk1 V c 9 t) (iblk1 V c 10 t) (iblk1 V c 11 t) (iblk1 V c 12 t) (iblk1 V c 13 t) (iblk1 V c 14 t)
    (V c main_v8_1) (V c main_v8_2) p q d
    (((cfg1.win 16).blk t).view.emb (ix3 p q d) 0) (((cfg1.win 16).blk t).view.emb (ix3 p q d) 1)
    (((cfg1.win 16).blk t).view.emb (ix3 p q d) 2)
    (fun k => rowI_read V c t p k _ ?_) (fun k => rowJ_read V c t q k _ ?_) ?_).trans ?_
  · show win1_16.index t (0 : Fin 3) * 64 + 1 * p.val = 64 * (t.val / 4) + p.val; omega
  · show win1_16.index t (1 : Fin 3) * 128 + 1 * q.val = 128 * (t.val % 4) + q.val; omega
  · show win1_16.index t (2 : Fin 3) * 32 + 1 * d.val = d.val; omega
  · rw [bias1_blk V c t, gamma1_blk V c t, beta1_blk V c t, mean1_blk V c t, var1_blk V c t, weight2_blk V c t, bias2_blk V c t,
      gamma2_blk V c t, beta2_blk V c t, mean2_blk V c t, var2_blk V c t, weight3_blk V c t, bias3_blk V c t]

/-- An index of the features is in point t's tile iff each coordinate is in the tile's range on its axis. -/
theorem mem_feat_tile (t : Fin cfg1.N) (i : S512x512x32.Idx) :
    i ∈ ((cfg1.win 16).blk t).view.set ↔ ∀ a : Fin 3, win1_16.index t a * S64x128x32.size a ≤ (i a).val ∧ (i a).val < win1_16.index t a * S64x128x32.size a + S64x128x32.size a := by
  show i ∈ ((View.whole main_v9_1).slice (win1_16.rect t)).set ↔ _
  rw [View.set_slice_whole, Rect.mem_set_unit]
  exact Iff.rfl

/-- Every (pair, feature) is in a tile: the pair's tile, whatever the feature. -/
theorem feats_cover (i : S512x512x32.Idx) : ∃ t : Fin cfg1.N, (cfg1.win 16).flush t = true ∧ i ∈ ((cfg1.win 16).blk t).view.set := by
  have h0 : (i 0).val < 512 := (i 0).isLt
  have h1 : (i 1).val < 512 := (i 1).isLt
  have h2 : (i 2).val < 32 := (i 2).isLt
  obtain ⟨t, ht⟩ : ∃ t : Fin cfg1.N, t.val = (i 0).val / 64 * 4 + (i 1).val / 128 :=
    ⟨⟨(i 0).val / 64 * 4 + (i 1).val / 128, by have hN : cfg1.N = 32 := N_1; omega⟩, rfl⟩
  have e := tile_index t
  refine ⟨t, flush1_16 t, ?_⟩
  rw [mem_feat_tile]
  intro a
  match a with
  | ⟨0, _⟩ => show win1_16.index t (0 : Fin 3) * 64 ≤ (i 0).val ∧ (i 0).val < win1_16.index t (0 : Fin 3) * 64 + 64; omega
  | ⟨1, _⟩ => show win1_16.index t (1 : Fin 3) * 128 ≤ (i 1).val ∧ (i 1).val < win1_16.index t (1 : Fin 3) * 128 + 128; omega
  | ⟨2, _⟩ => show win1_16.index t (2 : Fin 3) * 32 ≤ (i 2).val ∧ (i 2).val < win1_16.index t (2 : Fin 3) * 32 + 32; omega

/-- After the region the features array holds, at every pair and feature d, output 1 + d of the edge predictor over
    the region-entry arrays. -/
theorem feats_arr (c : Dev nD) :
    ((dat1 (F := Ideal) V c).arrAt 16 cfg1.N : Vec Ideal S512x512x32 .f32) = fun j =>
      pairOut (rd2 (V c main_v8_1)) (rd2 (V c main_v8_2)) (rd1 (V c main_arg10)) (rd1 (V c main_arg13))
        (scaleR (rd1 (V c main_arg11)) (rd1 (V c main_arg14))) (rd1 (V c main_arg12)) (rd2 (V c main_v6)) (rd1 (V c main_arg16))
        (rd1 (V c main_arg19)) (scaleR (rd1 (V c main_arg17)) (rd1 (V c main_arg20))) (rd1 (V c main_arg18))
        (rd2 (V c main_v7)) (rd1 (V c main_arg22)) (j 0) (j 1) (featIx (j 2)) :=
  (dat1 (F := Ideal) V c).arrAt_eq_of_cover 16 (featsOf V c) (fun t _ => feats_flushed V c t) (feats_cover)

end Cert.KernelIdeal.EdgeRegion

end
-- ==== Proof.DecoderResults.lean ====
/-
  The decoder's three results — node features [512,128], edge logits [512,512], edge features [512,512,32] — as
  functions of the 23 argument arrays as they are stored (weights (output, input)), with the per-feature scale of the
  three batch normalisations as a parameter: `scaleR` is the kernel's spelling, `scaleD` the reference's, and where
  every `0 < var + ε` the two give the same results.
-/
import proofs.«154958_j32916629356848_1_alg».proof.Proof.PairDecoder

noncomputable section

namespace Cert.PairDecoder

open Idealize.ShloMosaic Idealize.ShloMosaic.ValueIdx

/-- A per-feature scale from γ and the variance. -/
abbrev Scale := (Fin 512 → EReal) → (Fin 512 → EReal) → Fin 512 → EReal

/-- The node features from the stored arrays. -/
def nodeFeatOf (sc : Scale) (a0 a1 : (⟨2, ![512, 256]⟩ : Shape).Idx → EReal) (a2 a3 a4 a5 a6 : (⟨1, ![512]⟩ : Shape).Idx → EReal)
    (a7 : (⟨2, ![128, 512]⟩ : Shape).Idx → EReal) (a8 : (⟨1, ![128]⟩ : Shape).Idx → EReal) :
    (⟨2, ![512, 128]⟩ : Shape).Idx → EReal := fun j =>
  nodeFeat (rd2 a0) (rd2T a1) (rd1 a2) (rd1 a5) (sc (rd1 a3) (rd1 a6)) (rd1 a4) (rd2T a7) (rd1 a8) (j 0) (j 1)

/-- The edge predictor's output `o` at the pair (i, j) from the stored arrays. -/
def edgeOutOf (sc : Scale) (a0 : (⟨2, ![512, 256]⟩ : Shape).Idx → EReal) (a9 : (⟨2, ![512, 512]⟩ : Shape).Idx → EReal)
    (a10 a11 a12 a13 a14 : (⟨1, ![512]⟩ : Shape).Idx → EReal) (a15 : (⟨2, ![512, 512]⟩ : Shape).Idx → EReal)
    (a16 a17 a18 a19 a20 : (⟨1, ![512]⟩ : Shape).Idx → EReal) (a21 : (⟨2, ![33, 512]⟩ : Shape).Idx → EReal)
    (a22 : (⟨1, ![33]⟩ : Shape).Idx → EReal) (i j : Fin 512) (o : Fin 33) : EReal :=
  pairOut (proj (rd2 a0) (loHalf a9)) (proj (rd2 a0) (hiHalf a9)) (rd1 a10) (rd1 a13) (sc (rd1 a11) (rd1 a14)) (rd1 a12)
    (rd2T a15) (rd1 a16) (rd1 a19) (sc (rd1 a17) (rd1 a20)) (rd1 a18) (rd2T a21) (rd1 a22) i j o

/-- The edge logits from the stored arrays. -/
def logitsOf (sc : Scale) (a0 : (⟨2, ![512, 256]⟩ : Shape).Idx → EReal) (a9 : (⟨2, ![512, 512]⟩ : Shape).Idx → EReal)
    (a10 a11 a12 a13 a14 : (⟨1, ![512]⟩ : Shape).Idx → EReal) (a15 : (⟨2, ![512, 512]⟩ : Shape).Idx → EReal)
    (a16 a17 a18 a19 a20 : (⟨1, ![512]⟩ : Shape).Idx → EReal) (a21 : (⟨2, ![33, 512]⟩ : Shape).Idx → EReal)
    (a22 : (⟨1, ![33]⟩ : Shape).Idx → EReal) : (⟨2, ![512, 512]⟩ : Shape).Idx → EReal := fun j =>
  edgeOutOf sc a0 a9 a10 a11 a12 a13 a14 a15 a16 a17 a18 a19 a20 a21 a22 (j 0) (j 1) 0

/-- The edge features from the stored arrays. -/
def featsOf (sc : Scale) (a0 : (⟨2, ![512, 256]⟩ : Shape).Idx → EReal) (a9 : (⟨2, ![512, 512]⟩ : Shape).Idx → EReal)
    (a10 a11 a12 a13 a14 : (⟨1, ![512]⟩ : Shape).Idx → EReal) (a15 : (⟨2, ![512, 512]⟩ : Shape).Idx → EReal)
    (a16 a17 a18 a19 a20 : (⟨1, ![512]⟩ : Shape).Idx → EReal) (a21 : (⟨2, ![33, 512]⟩ : Shape).Idx → EReal)
    (a22 : (⟨1, ![33]⟩ : Shape).Idx → EReal) : (⟨3, ![512, 512, 32]⟩ : Shape).Idx → EReal := fun j =>
  edgeOutOf sc a0 a9 a10 a11 a12 a13 a14 a15 a16 a17 a18 a19 a20 a21 a22 (j 0) (j 1) (featIx (j 2))

/-- Where `0 < var + ε` at every feature, the node features under the two spellings of the scale agree. -/
theorem nodeFeatOf_scale (a0 a1 : (⟨2, ![512, 256]⟩ : Shape).Idx → EReal) (a2 a3 a4 a5 a6 : (⟨1, ![512]⟩ : Shape).Idx → EReal)
    (a7 : (⟨2, ![128, 512]⟩ : Shape).Idx → EReal) (a8 : (⟨1, ![128]⟩ : Shape).Idx → EReal)
    (h6 : ∀ k : Fin 512, 0 < a6 (ix1 k) + eps) :
    nodeFeatOf scaleD a0 a1 a2 a3 a4 a5 a6 a7 a8 = nodeFeatOf scaleR a0 a1 a2 a3 a4 a5 a6 a7 a8 := by
  unfold nodeFeatOf
  rw [scaleR_eq_scaleD (rd1 a3) (rd1 a6) h6]

/-- Likewise the edge predictor's outputs. -/
theorem edgeOutOf_scale (a0 : (⟨2, ![512, 256]⟩ : Shape).Idx → EReal) (a9 : (⟨2, ![512, 512]⟩ : Shape).Idx → EReal)
    (a10 a11 a12 a13 a14 : (⟨1, ![512]⟩ : Shape).Idx → EReal) (a15 : (⟨2, ![512, 512]⟩ : Shape).Idx → EReal)
    (a16 a17 a18 a19 a20 : (⟨1, ![512]⟩ : Shape).Idx → EReal) (a21 : (⟨2, ![33, 512]⟩ : Shape).Idx → EReal)
    (a22 : (⟨1, ![33]⟩ : Shape).Idx → EReal)
    (h14 : ∀ k : Fin 512, 0 < a14 (ix1 k) + eps) (h20 : ∀ k : Fin 512, 0 < a20 (ix1 k) + eps) :
    edgeOutOf scaleD a0 a9 a10 a11 a12 a13 a14 a15 a16 a17 a18 a19 a20 a21 a22
      = edgeOutOf scaleR a0 a9 a10 a11 a12 a13 a14 a15 a16 a17 a18 a19 a20 a21 a22 := by
  funext i j o
  unfold edgeOutOf
  rw [scaleR_eq_scaleD (rd1 a11) (rd1 a14) h14, scaleR_eq_scaleD (rd1 a17) (rd1 a20) h20]

end Cert.PairDecoder

end
-- ==== Proof.KernelValue.lean ====
/-
  The idealized kernel program's three results as functions of its arguments. The last boundary's contents at the
  node features' array are what the first region's write-backs leave there; at the logits' and the features' arrays what
  the second region's leave, the second region reading the two projections where the first region left them. With
  what each region finds in its other input arrays (the transposed weights, the column halves of the first edge
  weight, the vectors as launched) the three arrays are the decoder's results with the scale `γ · (var + ε)^(-1/2)`.
-/
import proofs.«154958_j32916629356848_1_alg».proof.Proof.KernelRun
import proofs.«154958_j32916629356848_1_alg».proof.Proof.KernelInputs
import proofs.«154958_j32916629356848_1_alg».proof.Proof.NodeRegion
import proofs.«154958_j32916629356848_1_alg».proof.Proof.EdgeRegion
import proofs.«154958_j32916629356848_1_alg».proof.Proof.DecoderResults

noncomputable section

open Idealize.ShloMosaic Idealize.ShloMosaic.TcCoe Idealize.SL.Sem Idealize.ShloMosaic.ValueIdx

namespace Cert.KernelIdeal.Results

open Cert.KernelIdeal Cert.KernelIdeal.Gen Cert.KernelIdeal.Inputs Cert.PairDecoder

variable (m : (ℓ : Loc nD τ sig) → Buf (Elt Ideal) ℓ) (ρ : Dev nD → PrngReg)

/-- The node features' array at the end of the run. -/
theorem nodeFeat_final (c : Dev nD) :
    W3 m ρ c (Proc.devRef .tc main_v8_0)
      = nodeFeatOf scaleR (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7))
          (m ((c : Thread nD τ).loc main_arg8)) := by
  have e1 : W3 m ρ c (Proc.devRef .tc main_v8_0) = (dat0 (V1 m ρ) c).arrAt 11 cfg0.N :=
    (W3_of_ne m ρ c main_v8_0 (by decide)).trans (W2_arr m ρ c 11)
  rw [e1, NodeRegion.nodeFeat_arr (V1 m ρ) c, V1_kept m ρ c main_arg0 (by decide), V1_v0 m ρ c,
    V1_kept m ρ c main_arg2 (by decide), V1_kept m ρ c main_arg5 (by decide), V1_kept m ρ c main_arg3 (by decide),
    V1_kept m ρ c main_arg6 (by decide), V1_kept m ρ c main_arg4 (by decide), V1_v1 m ρ c,
    V1_kept m ρ c main_arg8 (by decide), rd2_transpose, rd2_transpose]
  rfl

set_option maxHeartbeats 4000000 in
/-- The second region's two projections and thirteen parameter arrays, read: the edge predictor over what the
    second region finds is the edge predictor over the arguments. -/
theorem edge_final (c : Dev nD) (i j : Fin 512) (o : Fin 33) :
    pairOut (rd2 (V2 m ρ c main_v8_1)) (rd2 (V2 m ρ c main_v8_2)) (rd1 (V2 m ρ c main_arg10)) (rd1 (V2 m ρ c main_arg13))
        (scaleR (rd1 (V2 m ρ c main_arg11)) (rd1 (V2 m ρ c main_arg14))) (rd1 (V2 m ρ c main_arg12))
        (rd2 (V2 m ρ c main_v6)) (rd1 (V2 m ρ c main_arg16)) (rd1 (V2 m ρ c main_arg19))
        (scaleR (rd1 (V2 m ρ c main_arg17)) (rd1 (V2 m ρ c main_arg20))) (rd1 (V2 m ρ c main_arg18))
        (rd2 (V2 m ρ c main_v7)) (rd1 (V2 m ρ c main_arg22)) i j o
      = edgeOutOf scaleR (m ((c : Thread nD τ).loc main_arg0)) (m ((c : Thread nD τ).loc main_arg9))
          (m ((c : Thread nD τ).loc main_arg10)) (m ((c : Thread nD τ).loc main_arg11)) (m ((c : Thread nD τ).loc main_arg12))
          (m ((c : Thread nD τ).loc main_arg13)) (m ((c : Thread nD τ).loc main_arg14)) (m ((c : Thread nD τ).loc main_arg15))
          (m ((c : Thread nD τ).loc main_arg16)) (m ((c : Thread nD τ).loc main_arg17)) (m ((c : Thread nD τ).loc main_arg18))
          (m ((c : Thread nD τ).loc main_arg19)) (m ((c : Thread nD τ).loc main_arg20)) (m ((c : Thread nD τ).loc main_arg21))
          (m ((c : Thread nD τ).loc main_arg22)) i j o := by
  rw [V2_v8_1 m ρ c, V2_v8_2 m ρ c, NodeRegion.projI_arr (V1 m ρ) c, NodeRegion.projJ_arr (V1 m ρ) c,
    V1_kept m ρ c main_arg0 (by decide), V1_v4 m ρ c, V1_v5 m ρ c,
    V2_kept m ρ c main_arg10 (by decide), V1_kept m ρ c main_arg10 (by decide),
    V2_kept m ρ c main_arg13 (by decide), V1_kept m ρ c main_arg13 (by decide),
    V2_kept m ρ c main_arg11 (by decide), V1_kept m ρ c main_arg11 (by decide),
    V2_kept m ρ c main_arg14 (by decide), V1_kept m ρ c main_arg14 (by decide),
    V2_kept m ρ c main_arg12 (by decide), V1_kept m ρ c main_arg12 (by decide),
    V2_kept m ρ c main_v6 (by decide), V1_v6 m ρ c,
    V2_kept m ρ c main_arg16 (by decide), V1_kept m ρ c main_arg16 (by decide),
    V2_kept m ρ c main_arg19 (by decide), V1_kept m ρ c main_arg19 (by decide),
    V2_kept m ρ c main_arg17 (by decide), V1_kept m ρ c main_arg17 (by decide),
    V2_kept m ρ c main_arg20 (by decide), V1_kept m ρ c main_arg20 (by decide),
    V2_kept m ρ c main_arg18 (by decide), V1_kept m ρ c main_arg18 (by decide),
    V2_kept m ρ c main_v7 (by decide), V1_v7 m ρ c,
    V2_kept m ρ c main_arg22 (by decide), V1_kept m ρ c main_arg22 (by decide),
    rd2_transpose_lo, rd2_transpose_hi, rd2_transpose, rd2_transpose]
  rfl

/-- The edge logits' array at the end of the run. -/
theorem logits_final (c : Dev nD) :
    W3 m ρ c (Proc.devRef .tc main_v9_0)
      = logitsOf scaleR (m ((c : Thread nD τ).loc main_arg0)) (m ((c : Thread nD τ).loc main_arg9))
          (m ((c : Thread nD τ).loc main_arg10)) (m ((c : Thread nD τ).loc main_arg11)) (m ((c : Thread nD τ).loc main_arg12))
          (m ((c : Thread nD τ).loc main_arg13)) (m ((c : Thread nD τ).loc main_arg14)) (m ((c : Thread nD τ).loc main_arg15))
          (m ((c : Thread nD τ).loc main_arg16)) (m ((c : Thread nD τ).loc main_arg17)) (m ((c : Thread nD τ).loc main_arg18))
          (m ((c : Thread nD τ).loc main_arg19)) (m ((c : Thread nD τ).loc main_arg20)) (m ((c : Thread nD τ).loc main_arg21))
          (m ((c : Thread nD τ).loc main_arg22)) := by
  have e1 : W3 m ρ c (Proc.devRef .tc main_v9_0) = (dat1 (V2 m ρ) c).arrAt 15 cfg1.N := W3_arr m ρ c 15
  rw [e1, EdgeRegion.logits_arr (V2 m ρ) c]
  funext j
  exact edge_final m ρ c (j 0) (j 1) 0

/-- The edge features' array at the end of the run. -/
theorem feats_final (c : Dev nD) :
    W3 m ρ c (Proc.devRef .tc main_v9_1)
      = featsOf scaleR (m ((c : Thread nD τ).loc main_arg0)) (m ((c : Thread nD τ).loc main_arg9))
          (m ((c : Thread nD τ).loc main_arg10)) (m ((c : Thread nD τ).loc main_arg11)) (m ((c : Thread nD τ).loc main_arg12))
          (m ((c : Thread nD τ).loc main_arg13)) (m ((c : Thread nD τ).loc main_arg14)) (m ((c : Thread nD τ).loc main_arg15))
          (m ((c : Thread nD τ).loc main_arg16)) (m ((c : Thread nD τ).loc main_arg17)) (m ((c : Thread nD τ).loc main_arg18))
          (m ((c : Thread nD τ).loc main_arg19)) (m ((c : Thread nD τ).loc main_arg20)) (m ((c : Thread nD τ).loc main_arg21))
          (m ((c : Thread nD τ).loc main_arg22)) := by
  have e1 : W3 m ρ c (Proc.devRef .tc main_v9_1) = (dat1 (V2 m ρ) c).arrAt 16 cfg1.N := W3_arr m ρ c 16
  rw [e1, EdgeRegion.feats_arr (V2 m ρ) c]
  funext j
  exact edge_final m ρ c (j 0) (j 1) (featIx (j 2))

/-- The run of the idealized kernel program over the decoder: its three results, then whatever the run says of the
    arguments (they end as launched). -/
theorem run_spec : θ_run defs (onTc (τ := τ) (main (F := Ideal))) ⟨m, fun _ => 0, ρ⟩ (fun r => ∀ c : Dev nD,
      r.2.mem ((c.tc : Thread nD τ).loc main_v8_0)
        = nodeFeatOf scaleR (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
            (m ((c.tc : Thread nD τ).loc main_arg5)) (m ((c.tc : Thread nD τ).loc main_arg6)) (m ((c.tc : Thread nD τ).loc main_arg7))
            (m ((c.tc : Thread nD τ).loc main_arg8))
      ∧ r.2.mem ((c.tc : Thread nD τ).loc main_v9_0)
        = logitsOf scaleR (m ((c.tc : Thread nD τ).loc main_arg0)) (m ((c.tc : Thread nD τ).loc main_arg9))
            (m ((c.tc : Thread nD τ).loc main_arg10)) (m ((c.tc : Thread nD τ).loc main_arg11)) (m ((c.tc : Thread nD τ).loc main_arg12))
            (m ((c.tc : Thread nD τ).loc main_arg13)) (m ((c.tc : Thread nD τ).loc main_arg14)) (m ((c.tc : Thread nD τ).loc main_arg15))
            (m ((c.tc : Thread nD τ).loc main_arg16)) (m ((c.tc : Thread nD τ).loc main_arg17)) (m ((c.tc : Thread nD τ).loc main_arg18))
            (m ((c.tc : Thread nD τ).loc main_arg19)) (m ((c.tc : Thread nD τ).loc main_arg20)) (m ((c.tc : Thread nD τ).loc main_arg21))
            (m ((c.tc : Thread nD τ).loc main_arg22))
      ∧ r.2.mem ((c.tc : Thread nD τ).loc main_v9_1)
        = featsOf scaleR (m ((c.tc : Thread nD τ).loc main_arg0)) (m ((c.tc : Thread nD τ).loc main_arg9))
            (m ((c.tc : Thread nD τ).loc main_arg10)) (m ((c.tc : Thread nD τ).loc main_arg11)) (m ((c.tc : Thread nD τ).loc main_arg12))
            (m ((c.tc : Thread nD τ).loc main_arg13)) (m ((c.tc : Thread nD τ).loc main_arg14)) (m ((c.tc : Thread nD τ).loc main_arg15))
            (m ((c.tc : Thread nD τ).loc main_arg16)) (m ((c.tc : Thread nD τ).loc main_arg17)) (m ((c.tc : Thread nD τ).loc main_arg18))
            (m ((c.tc : Thread nD τ).loc main_arg19)) (m ((c.tc : Thread nD τ).loc main_arg20)) (m ((c.tc : Thread nD τ).loc main_arg21))
            (m ((c.tc : Thread nD τ).loc main_arg22))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)) :=
  (θ_run defs _ _).mono (fun r h c =>
    ⟨(h c).1.trans (nodeFeat_final m ρ c), (h c).2.1.trans (logits_final m ρ c), (h c).2.2.1.trans (feats_final m ρ c),
      (h c).2.2.2⟩)
    (RunValues.run_values m ρ)

end Cert.KernelIdeal.Results

end
-- ==== Proof.ReferenceNode.lean ====
/-
  The reference program's node decoder, element by element. The program transposes the first node weight (stored
  output × input), contracts the node embeddings against it, adds the bias, subtracts the running mean, multiplies by
  the scale γ / √(var + ε) (computed once per feature and broadcast along the nodes), adds the shift and rectifies
  against zero: that is the hidden layer at (node, feature). It then transposes the second node weight, contracts the
  hidden layer against it and adds the second bias: the node features at (node, feature).
-/
import proofs.«154958_j32916629356848_1_alg».proof.Proof.Gen.ReferenceIdeal.Read
import proofs.«154958_j32916629356848_1_alg».proof.Proof.PairDecoder
import Idealize.ShloMosaic.Lib.ValueIdx

noncomputable section

open Idealize.ShloMosaic Idealize.ShloMosaic.TcCoe Idealize.SL.Sem Idealize.ShloMosaic.ValueIdx

namespace Cert.ReferenceIdeal.NodeValue

open Cert.ReferenceIdeal Cert.ReferenceIdeal.Gen Cert.PairDecoder

/-! ## Where each stage reads its operands

Every per-feature vector reaches the (node, feature) grid through two broadcasts, [512] → [1, 512] → [512, 512]:
at (i, k) the composite reads the vector at k. A contraction at (i, k) reads the left operand at (i, e) and the
transposed weight at (e, k), that is the stored weight at (k, e). -/

/-- The first contraction's left operand at (i, k), summand e: the embeddings at (i, e). -/
theorem embed_at (i k : Fin 512) (e : Fin 256) : Read.lidx_main_v1 (ix2 i k) e = ix2 i e :=
  funext fun a => Fin.ext (by match a with | ⟨0, _⟩ => rfl | ⟨1, _⟩ => rfl)

/-- The first contraction's right operand at (i, k), summand e, through the transposition: the stored weight at (k, e). -/
theorem weight1_at (i k : Fin 512) (e : Fin 256) : Read.idx_main_v0 (Read.ridx_main_v1 (ix2 i k) e) = ix2 k e :=
  funext fun a => Fin.ext (by match a with | ⟨0, _⟩ => rfl | ⟨1, _⟩ => rfl)

/-- The first bias broadcast to (i, k) reads feature k. -/
theorem bias1_at (i k : Fin 512) : Read.idx_main_v2 (Read.idx_main_v3 (ix2 i k)) = ix1 k :=
  funext fun a => Fin.ext (by match a with | ⟨0, _⟩ => rfl)

/-- The running mean broadcast to (i, k) reads feature k. -/
theorem mean1_at (i k : Fin 512) : Read.idx_main_v5 (Read.idx_main_v6 (ix2 i k)) = ix1 k :=
  funext fun a => Fin.ext (by match a with | ⟨0, _⟩ => rfl)

/-- The scale broadcast to (i, k) reads feature k. -/
theorem scale1_at (i k : Fin 512) : Read.idx_main_v12 (Read.idx_main_v13 (ix2 i k)) = ix1 k :=
  funext fun a => Fin.ext (by match a with | ⟨0, _⟩ => rfl)

/-- The shift broadcast to (i, k) reads feature k. -/
theorem shift1_at (i k : Fin 512) : Read.idx_main_v15 (Read.idx_main_v16 (ix2 i k)) = ix1 k :=
  funext fun a => Fin.ext (by match a with | ⟨0, _⟩ => rfl)

/-- The second contraction's left operand at (i, f), summand k: the hidden layer at (i, k). -/
theorem hidden_at (i : Fin 512) (f : Fin 128) (k : Fin 512) : Read.lidx_main_v20 (ix2 i f) k = ix2 i k :=
  funext fun a => Fin.ext (by match a with | ⟨0, _⟩ => rfl | ⟨1, _⟩ => rfl)

/-- The second contraction's right operand at (i, f), summand k, through the transposition: the stored weight at (f, k). -/
theorem weight2_at (i : Fin 512) (f : Fin 128) (k : Fin 512) : Read.idx_main_v19 (Read.ridx_main_v20 (ix2 i f) k) = ix2 f k :=
  funext fun a => Fin.ext (by match a with | ⟨0, _⟩ => rfl | ⟨1, _⟩ => rfl)

/-- The second bias broadcast to (i, f) reads feature f. -/
theorem bias2_at (i : Fin 512) (f : Fin 128) : Read.idx_main_v21 (Read.idx_main_v22 (ix2 i f)) = ix1 f :=
  funext fun a => Fin.ext (by match a with | ⟨0, _⟩ => rfl)

/-! ## The hidden layer -/

/-- The rectified, normalised first dense layer of the reference at node i, feature k. -/
theorem hidden_ref (a0 a1 : (⟨S512x256, .f32⟩ : BufTy).Contents (Elt Ideal)) (a2 a3 a4 a5 a6 : (⟨S512, .f32⟩ : BufTy).Contents (Elt Ideal))
    (i k : Fin 512) :
    Read.val_main_v18 (F := Ideal) a0 a1 a2 a3 a4 a5 a6 (ix2 i k)
      = nodeHidden (rd2 a0) (rd2T a1) (rd1 a2) (rd1 a5) (scaleD (rd1 a3) (rd1 a6)) (rd1 a4) i k := by
  rw [Read.val_main_v18_apply, Read.val_main_call0_v0_apply, Read.val_main_call0_cst_apply,
    Read.val_main_v17_apply, Read.val_main_v16_apply, Read.val_main_v15_apply, shift1_at,
    Read.val_main_v14_apply, Read.val_main_v13_apply, Read.val_main_v12_apply, scale1_at,
    Read.val_main_v11_apply, Read.val_main_v10_apply, Read.val_main_v9_apply, Read.val_main_v8_apply, Read.val_main_cst_apply,
    Read.val_main_v7_apply, Read.val_main_v6_apply, Read.val_main_v5_apply, mean1_at,
    Read.val_main_v4_apply, Read.val_main_v3_apply, Read.val_main_v2_apply, bias1_at,
    Read.val_main_v1_apply]
  simp only [Read.val_main_v0_apply, embed_at, weight1_at, Ideal.maximumf_def, Ideal.addf_def, Ideal.subf_def, Ideal.mulf_def,
    Ideal.hostDivf_def, Ideal.hostUnary_sqrt_def, Ideal.ofBits_def]
  unfold nodeHidden relu0 scaleD eps
  rfl

/-! ## The node features -/

/-- The reference's node features are the specification's, at the scale γ / √(var + ε). -/
theorem nodeFeat_ref (a0 a1 : (⟨S512x256, .f32⟩ : BufTy).Contents (Elt Ideal)) (a2 a3 a4 a5 a6 : (⟨S512, .f32⟩ : BufTy).Contents (Elt Ideal))
    (a7 : (⟨S128x512, .f32⟩ : BufTy).Contents (Elt Ideal)) (a8 : (⟨S128, .f32⟩ : BufTy).Contents (Elt Ideal)) :
    Read.val_main_v23 (F := Ideal) a0 a1 a2 a3 a4 a5 a6 a7 a8 = fun j => nodeFeat (rd2 a0) (rd2T a1) (rd1 a2) (rd1 a5)
      (scaleD (rd1 a3) (rd1 a6)) (rd1 a4) (rd2T a7) (rd1 a8) (j 0) (j 1) := by
  funext j
  obtain ⟨i, f, rfl⟩ : ∃ (i : Fin 512) (f : Fin 128), j = ix2 i f := ⟨j 0, j 1, eq_ix2 j⟩
  rw [Read.val_main_v23_apply, Read.val_main_v22_apply, Read.val_main_v21_apply, bias2_at, Read.val_main_v20_apply]
  simp only [Read.val_main_v19_apply, hidden_at, weight2_at, hidden_ref, Ideal.addf_def]
  unfold nodeFeat
  rfl

end Cert.ReferenceIdeal.NodeValue

end
-- ==== Proof.ReferenceHidden.lean ====
/-
  The reference's edge predictor up to its first rectifier, on the flattened pair axis: row r of the
  262144 × 512 matrix is the pair (r / 512, r % 512), and its entry k is the first hidden layer at that pair —
  the two projections of the node embeddings through the two column halves of the first edge weight, added with the
  bias, normalised with the scale γ / √(var + ε), rectified.
-/
import proofs.«154958_j32916629356848_1_alg».proof.Proof.Gen.ReferenceIdeal.Read
import proofs.«154958_j32916629356848_1_alg».proof.Proof.PairDecoder
import Idealize.ShloMosaic.Lib.ValueIdx

noncomputable section

open Idealize.ShloMosaic Idealize.ShloMosaic.TcCoe Idealize.SL.Sem Idealize.ShloMosaic.ValueIdx

namespace Cert.ReferenceIdeal.EdgeHidden

open Cert.ReferenceIdeal Cert.ReferenceIdeal.Gen Cert.PairDecoder

/-! ## The two halves of the first edge weight, read (input feature, output feature)

The program slices columns 0 … 255 and 256 … 511 of the stored (output, input) matrix and transposes each slice:
entry (e, k) of the first transpose is the stored entry (k, e), of the second the stored entry (k, 256 + e). -/

theorem loHalf_read (a9 : (⟨S512x512, .f32⟩ : BufTy).Contents (Elt Ideal)) (e : Fin 256) (k : Fin 512) :
    Read.val_main_v26 (F := Ideal) a9 (ix2 e k) = loHalf a9 e k := by
  rw [Read.val_main_v26_apply, Read.val_main_v24_apply]
  unfold loHalf
  exact congrArg a9 (funext fun a => Fin.ext (by
    match a with
    | ⟨0, _⟩ => rfl
    | ⟨1, _⟩ => rfl))

theorem hiHalf_read (a9 : (⟨S512x512, .f32⟩ : BufTy).Contents (Elt Ideal)) (e : Fin 256) (k : Fin 512) :
    Read.val_main_v28 (F := Ideal) a9 (ix2 e k) = hiHalf a9 e k := by
  rw [Read.val_main_v28_apply, Read.val_main_v25_apply]
  unfold hiHalf
  exact congrArg a9 (funext fun a => Fin.ext (by
    match a with
    | ⟨0, _⟩ => rfl
    | ⟨1, _⟩ => rfl))

/-! ## The two projections of the node embeddings

Each contraction runs over the 256 input features: entry (i, k) is the sum over e of x[i, e] times the half's (e, k). -/

theorem projLo_read (a0 : (⟨S512x256, .f32⟩ : BufTy).Contents (Elt Ideal)) (a9 : (⟨S512x512, .f32⟩ : BufTy).Contents (Elt Ideal))
    (i k : Fin 512) :
    Read.val_main_v27 (F := Ideal) a0 a9 (ix2 i k) = proj (rd2 a0) (loHalf a9) i k := by
  rw [Read.val_main_v27_apply]
  unfold proj
  refine Finset.sum_congr rfl fun e _ => ?_
  have hl : Read.lidx_main_v27 (ix2 i k) e = ix2 i e := funext fun a => Fin.ext (by
    match a with
    | ⟨0, _⟩ => rfl
    | ⟨1, _⟩ => rfl)
  have hr : Read.ridx_main_v27 (ix2 i k) e = ix2 e k := funext fun a => Fin.ext (by
    match a with
    | ⟨0, _⟩ => rfl
    | ⟨1, _⟩ => rfl)
  rw [hl, hr, loHalf_read]

theorem projHi_read (a0 : (⟨S512x256, .f32⟩ : BufTy).Contents (Elt Ideal)) (a9 : (⟨S512x512, .f32⟩ : BufTy).Contents (Elt Ideal))
    (j k : Fin 512) :
    Read.val_main_v29 (F := Ideal) a0 a9 (ix2 j k) = proj (rd2 a0) (hiHalf a9) j k := by
  rw [Read.val_main_v29_apply]
  unfold proj
  refine Finset.sum_congr rfl fun e _ => ?_
  have hl : Read.lidx_main_v29 (ix2 j k) e = ix2 j e := funext fun a => Fin.ext (by
    match a with
    | ⟨0, _⟩ => rfl
    | ⟨1, _⟩ => rfl)
  have hr : Read.ridx_main_v29 (ix2 j k) e = ix2 e k := funext fun a => Fin.ext (by
    match a with
    | ⟨0, _⟩ => rfl
    | ⟨1, _⟩ => rfl)
  rw [hl, hr, hiHalf_read]

/-! ## The sum over all pairs, before the flattening

At (i, j, k) the first projection is read at (i, k) (broadcast along j), the second at (j, k) (broadcast along i), the
bias at k (broadcast along both). -/

theorem pairSum_read (a0 : (⟨S512x256, .f32⟩ : BufTy).Contents (Elt Ideal)) (a9 : (⟨S512x512, .f32⟩ : BufTy).Contents (Elt Ideal))
    (a10 : (⟨S512, .f32⟩ : BufTy).Contents (Elt Ideal)) (i j k : Fin 512) :
    Read.val_main_v37 (F := Ideal) a0 a9 a10 (ix3 i j k)
      = (proj (rd2 a0) (loHalf a9) i k + proj (rd2 a0) (hiHalf a9) j k) + rd1 a10 k := by
  have h1 : Read.idx_main_v30 (Read.idx_main_v32 (ix3 i j k)) = ix2 i k := funext fun a => Fin.ext (by
    match a with
    | ⟨0, _⟩ => rfl
    | ⟨1, _⟩ => rfl)
  have h2 : Read.idx_main_v31 (Read.idx_main_v33 (ix3 i j k)) = ix2 j k := funext fun a => Fin.ext (by
    match a with
    | ⟨0, _⟩ => rfl
    | ⟨1, _⟩ => rfl)
  have h3 : Read.idx_main_v35 (Read.idx_main_v36 (ix3 i j k)) = ix1 k := funext fun a => Fin.ext (by
    match a with
    | ⟨0, _⟩ => rfl)
  rw [Read.val_main_v37_apply, Read.val_main_v34_apply, Read.val_main_v32_apply, Read.val_main_v30_apply,
    Read.val_main_v33_apply, Read.val_main_v31_apply, Read.val_main_v36_apply, Read.val_main_v35_apply,
    h1, h2, h3, projLo_read, projHi_read]
  simp only [Ideal.addf_def]

/-! ## The flattening: row r of the 262144 × 512 matrix is the pair (r / 512, r % 512) -/

theorem flat_ix (r : Fin 262144) (k : Fin 512) :
    Read.idx_main_v38 (ix2 r k) = ix3 (pairRow r) (pairCol r) k := funext fun a => Fin.ext (by
  have hr : r.val < 262144 := r.isLt
  have hk : k.val < 512 := k.isLt
  match a with
  | ⟨0, _⟩ => show (r.val * 512 + k.val) / 262144 = r.val / 512; omega
  | ⟨1, _⟩ => show (r.val * 512 + k.val) / 512 % 512 = r.val % 512; omega
  | ⟨2, _⟩ => show (r.val * 512 + k.val) % 512 = k.val; omega)

/-! ## The per-feature vectors broadcast along the rows: mean, scale γ / √(var + ε), shift -/

theorem mean_read (a13 : (⟨S512, .f32⟩ : BufTy).Contents (Elt Ideal)) (r : Fin 262144) (k : Fin 512) :
    Read.val_main_v40 (F := Ideal) a13 (ix2 r k) = rd1 a13 k := by
  rw [Read.val_main_v40_apply, Read.val_main_v39_apply]
  exact congrArg a13 (funext fun a => Fin.ext (by
    match a with
    | ⟨0, _⟩ => rfl))

theorem shift_read (a12 : (⟨S512, .f32⟩ : BufTy).Contents (Elt Ideal)) (r : Fin 262144) (k : Fin 512) :
    Read.val_main_v50 (F := Ideal) a12 (ix2 r k) = rd1 a12 k := by
  rw [Read.val_main_v50_apply, Read.val_main_v49_apply]
  exact congrArg a12 (funext fun a => Fin.ext (by
    match a with
    | ⟨0, _⟩ => rfl))

theorem scale_read (a11 a14 : (⟨S512, .f32⟩ : BufTy).Contents (Elt Ideal)) (r : Fin 262144) (k : Fin 512) :
    Read.val_main_v47 (F := Ideal) a11 a14 (ix2 r k) = scaleD (rd1 a11) (rd1 a14) k := by
  have h : Read.idx_main_v46 (Read.idx_main_v47 (ix2 r k)) = ix1 k := funext fun a => Fin.ext (by
    match a with
    | ⟨0, _⟩ => rfl)
  rw [Read.val_main_v47_apply, Read.val_main_v46_apply, h, Read.val_main_v45_apply, Read.val_main_v44_apply,
    Read.val_main_v43_apply, Read.val_main_v42_apply, Read.val_main_cst_0_apply]
  simp only [Ideal.hostDivf_def, Ideal.hostUnary_sqrt_def, Ideal.addf_def, Ideal.ofBits_def]
  rfl

/-- The rectifier's zero, broadcast to every entry. -/
theorem zero_read (r : Fin 262144) (k : Fin 512) :
    Read.val_main_call1_v0 (F := Ideal) (ix2 r k) = Ideal.ofBits .f32 0x00000000#32 := by
  rw [Read.val_main_call1_v0_apply, Read.val_main_call1_cst_apply, Ideal.ofBits_def]

/-- The first hidden layer of the reference's edge predictor at flattened row r, feature k. -/
theorem hidden1_ref (a0 : (⟨S512x256, .f32⟩ : BufTy).Contents (Elt Ideal)) (a9 : (⟨S512x512, .f32⟩ : BufTy).Contents (Elt Ideal))
    (a10 a11 a12 a13 a14 : (⟨S512, .f32⟩ : BufTy).Contents (Elt Ideal)) (r : Fin 262144) (k : Fin 512) :
    Read.val_main_v52 (F := Ideal) a0 a9 a10 a11 a12 a13 a14 (ix2 r k)
      = pairHidden1 (proj (rd2 a0) (loHalf a9)) (proj (rd2 a0) (hiHalf a9)) (rd1 a10) (rd1 a13)
          (scaleD (rd1 a11) (rd1 a14)) (rd1 a12) (pairRow r) (pairCol r) k := by
  rw [Read.val_main_v52_apply, Read.val_main_v51_apply, Read.val_main_v48_apply, Read.val_main_v41_apply,
    Read.val_main_v38_apply, flat_ix, pairSum_read, mean_read, scale_read, shift_read, zero_read]
  simp only [Ideal.maximumf_def, Ideal.addf_def, Ideal.subf_def, Ideal.mulf_def]
  rfl

end Cert.ReferenceIdeal.EdgeHidden

end
-- ==== Proof.ReferenceEdge.lean ====
/-
  The reference's edge predictor from its first rectifier to its two results. On the flattened pair axis (row r of a
  matrix with 262144 rows is the pair (r / 512, r % 512)) the second dense layer contracts the first hidden layer with
  the second edge weight read (input, output), adds its bias, normalises with the scale γ / √(var + ε) and rectifies;
  the last dense layer contracts that with the third edge weight and adds its bias, giving 33 numbers per pair.
  Column 0 of that matrix, laid out as 512 × 512, is the logit of the pair (i, j); columns 1 … 32, laid out as
  512 × 512 × 32, are its features: row 512 · i + j is the pair (i, j), and column 1 + d is feature d.
-/
import proofs.«154958_j32916629356848_1_alg».proof.Proof.ReferenceHidden

noncomputable section

open scoped BigOperators

open Idealize.ShloMosaic Idealize.ShloMosaic.TcCoe Idealize.SL.Sem Idealize.ShloMosaic.ValueIdx

namespace Cert.ReferenceIdeal.EdgeValue

open Cert.ReferenceIdeal Cert.ReferenceIdeal.Gen Cert.PairDecoder

/-! ## Where the layout operations read -/

/-- A per-feature vector stretched over the rows: entry (r, k) reads the vector at k (second layer's bias). -/
theorem row_bias2 (r : Fin 262144) (k : Fin 512) : Read.idx_main_v55 (Read.idx_main_v56 (ix2 r k)) = ix1 k :=
  funext fun a => Fin.ext (by match a with | ⟨0, _⟩ => rfl)

/-- The same for the second normalisation's mean. -/
theorem row_mean2 (r : Fin 262144) (k : Fin 512) : Read.idx_main_v58 (Read.idx_main_v59 (ix2 r k)) = ix1 k :=
  funext fun a => Fin.ext (by match a with | ⟨0, _⟩ => rfl)

/-- The same for the second normalisation's scale. -/
theorem row_scale2 (r : Fin 262144) (k : Fin 512) : Read.idx_main_v65 (Read.idx_main_v66 (ix2 r k)) = ix1 k :=
  funext fun a => Fin.ext (by match a with | ⟨0, _⟩ => rfl)

/-- The same for the second normalisation's shift. -/
theorem row_shift2 (r : Fin 262144) (k : Fin 512) : Read.idx_main_v68 (Read.idx_main_v69 (ix2 r k)) = ix1 k :=
  funext fun a => Fin.ext (by match a with | ⟨0, _⟩ => rfl)

/-- The same for the last layer's bias over its 33 outputs. -/
theorem row_bias3 (r : Fin 262144) (o : Fin 33) : Read.idx_main_v74 (Read.idx_main_v75 (ix2 r o)) = ix1 o :=
  funext fun a => Fin.ext (by match a with | ⟨0, _⟩ => rfl)

/-- The second dense layer's contraction reads row r of the first hidden layer at feature k … -/
theorem dot2_left (r : Fin 262144) (k' k : Fin 512) : Read.lidx_main_v54 (ix2 r k') k = ix2 r k :=
  funext fun a => Fin.ext (by match a with | ⟨0, _⟩ => rfl | ⟨1, _⟩ => rfl)

/-- … against the stored (output, input) weight at (k', k). -/
theorem dot2_right (r : Fin 262144) (k' k : Fin 512) : Read.idx_main_v53 (Read.ridx_main_v54 (ix2 r k') k) = ix2 k' k :=
  funext fun a => Fin.ext (by match a with | ⟨0, _⟩ => rfl | ⟨1, _⟩ => rfl)

/-- The last dense layer's contraction reads row r of the second hidden layer at feature k … -/
theorem dot3_left (r : Fin 262144) (o : Fin 33) (k : Fin 512) : Read.lidx_main_v73 (ix2 r o) k = ix2 r k :=
  funext fun a => Fin.ext (by match a with | ⟨0, _⟩ => rfl | ⟨1, _⟩ => rfl)

/-- … against the stored (output, input) weight at (o, k). -/
theorem dot3_right (r : Fin 262144) (o : Fin 33) (k : Fin 512) : Read.idx_main_v72 (Read.ridx_main_v73 (ix2 r o) k) = ix2 o k :=
  funext fun a => Fin.ext (by match a with | ⟨0, _⟩ => rfl | ⟨1, _⟩ => rfl)

/-- Entry (i, j) of the logits is column 0 of row 512 · i + j. -/
theorem logit_at (j : S512x512.Idx) :
    Read.idx_main_v77 (Read.idx_main_v78 (Read.idx_main_v79 j)) = ix2 (pairFlat (j 0) (j 1)) (0 : Fin 33) :=
  funext fun a => Fin.ext (by
    match a with
    | ⟨0, _⟩ => show ((j 0).val * 512 + (j 1).val) / 1 = (j 0).val * 512 + (j 1).val; omega
    | ⟨1, _⟩ => rfl)

/-- Entry (i, j, d) of the features is column 1 + d of row 512 · i + j. -/
theorem feat_at (j : S512x512x32.Idx) :
    Read.idx_main_v80 (Read.idx_main_v81 j) = ix2 (pairFlat (j 0) (j 1)) (featIx (j 2)) :=
  funext fun a => Fin.ext (by
    have h2 : (j 2).val < 32 := (j 2).isLt
    match a with
    | ⟨0, _⟩ => show (((j 0).val * 512 + (j 1).val) * 32 + (j 2).val) / 32 = (j 0).val * 512 + (j 1).val; omega
    | ⟨1, _⟩ => show 1 + (((j 0).val * 512 + (j 1).val) * 32 + (j 2).val) % 32 = (j 2).val + 1; omega)

/-! ## The per-feature vectors at an entry -/

theorem bias2_at (a16 : (⟨S512, .f32⟩ : BufTy).Contents (Elt Ideal)) (r : Fin 262144) (k : Fin 512) :
    Read.val_main_v56 (F := Ideal) a16 (ix2 r k) = rd1 a16 k := by
  rw [Read.val_main_v56_apply, Read.val_main_v55_apply, row_bias2]

theorem mean2_at (a19 : (⟨S512, .f32⟩ : BufTy).Contents (Elt Ideal)) (r : Fin 262144) (k : Fin 512) :
    Read.val_main_v59 (F := Ideal) a19 (ix2 r k) = rd1 a19 k := by
  rw [Read.val_main_v59_apply, Read.val_main_v58_apply, row_mean2]

/-- The second normalisation's scale is γ / √(var + ε). -/
theorem scale2_at (a17 a20 : (⟨S512, .f32⟩ : BufTy).Contents (Elt Ideal)) (r : Fin 262144) (k : Fin 512) :
    Read.val_main_v66 (F := Ideal) a17 a20 (ix2 r k) = scaleD (rd1 a17) (rd1 a20) k := by
  rw [Read.val_main_v66_apply, Read.val_main_v65_apply, row_scale2, Read.val_main_v64_apply, Read.val_main_v63_apply,
    Read.val_main_v62_apply, Read.val_main_v61_apply, Read.val_main_cst_1_apply]
  rfl

theorem shift2_at (a18 : (⟨S512, .f32⟩ : BufTy).Contents (Elt Ideal)) (r : Fin 262144) (k : Fin 512) :
    Read.val_main_v69 (F := Ideal) a18 (ix2 r k) = rd1 a18 k := by
  rw [Read.val_main_v69_apply, Read.val_main_v68_apply, row_shift2]

/-- The zero the second rectifier compares with. -/
theorem zero2_at (i : S262144x512.Idx) : Read.val_main_call2_v0 (F := Ideal) i = Ideal.ofBits .f32 0x00000000#32 := by
  rw [Read.val_main_call2_v0_apply, Read.val_main_call2_cst_apply]
  rfl

theorem bias3_at (a22 : (⟨S33, .f32⟩ : BufTy).Contents (Elt Ideal)) (r : Fin 262144) (o : Fin 33) :
    Read.val_main_v75 (F := Ideal) a22 (ix2 r o) = rd1 a22 o := by
  rw [Read.val_main_v75_apply, Read.val_main_v74_apply, row_bias3]

/-! ## The layers -/

/-- The second hidden layer of the reference's edge predictor at flattened row r, feature k'. -/
theorem hidden2_ref (a0 : (⟨S512x256, .f32⟩ : BufTy).Contents (Elt Ideal)) (a9 : (⟨S512x512, .f32⟩ : BufTy).Contents (Elt Ideal))
    (a10 a11 a12 a13 a14 : (⟨S512, .f32⟩ : BufTy).Contents (Elt Ideal)) (a15 : (⟨S512x512, .f32⟩ : BufTy).Contents (Elt Ideal))
    (a16 a17 a18 a19 a20 : (⟨S512, .f32⟩ : BufTy).Contents (Elt Ideal)) (r : Fin 262144) (k' : Fin 512) :
    Read.val_main_v71 (F := Ideal) a0 a9 a10 a11 a12 a13 a14 a15 a16 a17 a18 a19 a20 (ix2 r k')
      = pairHidden2 (proj (rd2 a0) (loHalf a9)) (proj (rd2 a0) (hiHalf a9)) (rd1 a10) (rd1 a13) (scaleD (rd1 a11) (rd1 a14)) (rd1 a12)
          (rd2T a15) (rd1 a16) (rd1 a19) (scaleD (rd1 a17) (rd1 a20)) (rd1 a18) (pairRow r) (pairCol r) k' := by
  rw [Read.val_main_v71_apply, Read.val_main_v70_apply, Read.val_main_v67_apply, Read.val_main_v60_apply,
    Read.val_main_v57_apply, Read.val_main_v54_apply, bias2_at, mean2_at, scale2_at, shift2_at, zero2_at]
  unfold pairHidden2 relu0
  simp only [dot2_left, dot2_right, Read.val_main_v53_apply, EdgeHidden.hidden1_ref, Ideal.addf_def, Ideal.subf_def,
    Ideal.mulf_def, Ideal.maximumf_def]

/-- The 33 outputs of the reference's edge predictor at flattened row r. -/
theorem out_ref (a0 : (⟨S512x256, .f32⟩ : BufTy).Contents (Elt Ideal)) (a9 : (⟨S512x512, .f32⟩ : BufTy).Contents (Elt Ideal))
    (a10 a11 a12 a13 a14 : (⟨S512, .f32⟩ : BufTy).Contents (Elt Ideal)) (a15 : (⟨S512x512, .f32⟩ : BufTy).Contents (Elt Ideal))
    (a16 a17 a18 a19 a20 : (⟨S512, .f32⟩ : BufTy).Contents (Elt Ideal)) (a21 : (⟨S33x512, .f32⟩ : BufTy).Contents (Elt Ideal))
    (a22 : (⟨S33, .f32⟩ : BufTy).Contents (Elt Ideal)) (r : Fin 262144) (o : Fin 33) :
    Read.val_main_v76 (F := Ideal) a0 a9 a10 a11 a12 a13 a14 a15 a16 a17 a18 a19 a20 a21 a22 (ix2 r o)
      = pairOut (proj (rd2 a0) (loHalf a9)) (proj (rd2 a0) (hiHalf a9)) (rd1 a10) (rd1 a13) (scaleD (rd1 a11) (rd1 a14)) (rd1 a12)
          (rd2T a15) (rd1 a16) (rd1 a19) (scaleD (rd1 a17) (rd1 a20)) (rd1 a18)
          (rd2T a21) (rd1 a22) (pairRow r) (pairCol r) o := by
  rw [Read.val_main_v76_apply, Read.val_main_v73_apply, bias3_at]
  unfold pairOut
  simp only [dot3_left, dot3_right, Read.val_main_v72_apply, hidden2_ref, Ideal.addf_def]

/-! ## The two results -/

/-- The logits: entry (i, j) is output 0 of the edge predictor at the pair (i, j). -/
theorem logits_ref (a0 : (⟨S512x256, .f32⟩ : BufTy).Contents (Elt Ideal)) (a9 : (⟨S512x512, .f32⟩ : BufTy).Contents (Elt Ideal))
    (a10 a11 a12 a13 a14 : (⟨S512, .f32⟩ : BufTy).Contents (Elt Ideal)) (a15 : (⟨S512x512, .f32⟩ : BufTy).Contents (Elt Ideal))
    (a16 a17 a18 a19 a20 : (⟨S512, .f32⟩ : BufTy).Contents (Elt Ideal)) (a21 : (⟨S33x512, .f32⟩ : BufTy).Contents (Elt Ideal))
    (a22 : (⟨S33, .f32⟩ : BufTy).Contents (Elt Ideal)) :
    Read.val_main_v79 (F := Ideal) a0 a9 a10 a11 a12 a13 a14 a15 a16 a17 a18 a19 a20 a21 a22
      = fun j => pairOut (proj (rd2 a0) (loHalf a9)) (proj (rd2 a0) (hiHalf a9)) (rd1 a10) (rd1 a13) (scaleD (rd1 a11) (rd1 a14)) (rd1 a12)
          (rd2T a15) (rd1 a16) (rd1 a19) (scaleD (rd1 a17) (rd1 a20)) (rd1 a18)
          (rd2T a21) (rd1 a22) (j 0) (j 1) 0 := by
  funext j
  rw [Read.val_main_v79_apply, Read.val_main_v78_apply, Read.val_main_v77_apply, logit_at, out_ref,
    pairRow_flat (j 0) (j 1), pairCol_flat (j 0) (j 1)]

/-- The features: entry (i, j, d) is output 1 + d of the edge predictor at the pair (i, j). -/
theorem feats_ref (a0 : (⟨S512x256, .f32⟩ : BufTy).Contents (Elt Ideal)) (a9 : (⟨S512x512, .f32⟩ : BufTy).Contents (Elt Ideal))
    (a10 a11 a12 a13 a14 : (⟨S512, .f32⟩ : BufTy).Contents (Elt Ideal)) (a15 : (⟨S512x512, .f32⟩ : BufTy).Contents (Elt Ideal))
    (a16 a17 a18 a19 a20 : (⟨S512, .f32⟩ : BufTy).Contents (Elt Ideal)) (a21 : (⟨S33x512, .f32⟩ : BufTy).Contents (Elt Ideal))
    (a22 : (⟨S33, .f32⟩ : BufTy).Contents (Elt Ideal)) :
    Read.val_main_v81 (F := Ideal) a0 a9 a10 a11 a12 a13 a14 a15 a16 a17 a18 a19 a20 a21 a22
      = fun j => pairOut (proj (rd2 a0) (loHalf a9)) (proj (rd2 a0) (hiHalf a9)) (rd1 a10) (rd1 a13) (scaleD (rd1 a11) (rd1 a14)) (rd1 a12)
          (rd2T a15) (rd1 a16) (rd1 a19) (scaleD (rd1 a17) (rd1 a20)) (rd1 a18)
          (rd2T a21) (rd1 a22) (j 0) (j 1) (featIx (j 2)) := by
  funext j
  rw [Read.val_main_v81_apply, Read.val_main_v80_apply, feat_at, out_ref, pairRow_flat (j 0) (j 1),
    pairCol_flat (j 0) (j 1)]

end Cert.ReferenceIdeal.EdgeValue

end
-- ==== Proof.ReferenceRun.lean ====
/-
  The reference program's run, with its three results stated by the specification: on every device the program
  terminates with the node features, the edge logits and the edge features of the graph decoder — the functions
  `nodeFeatOf`, `logitsOf`, `featsOf` of the argument arrays as the launch found them, at the scale γ / √(var + ε) —
  and leaves every argument array as it was.
-/
import proofs.«154958_j32916629356848_1_alg».proof.Proof.ReferenceNode
import proofs.«154958_j32916629356848_1_alg».proof.Proof.ReferenceEdge
import proofs.«154958_j32916629356848_1_alg».proof.Proof.DecoderResults

noncomputable section

open Idealize.ShloMosaic Idealize.ShloMosaic.TcCoe Idealize.SL.Sem Idealize.ShloMosaic.ValueIdx

namespace Cert.ReferenceIdeal.RunSpec

open Cert.ReferenceIdeal Cert.ReferenceIdeal.Gen Cert.PairDecoder

/-- Every weakly fair execution of the reference terminates with the three results at the specification's functions
    of the launch contents of the arguments, the arguments unchanged. The generated run gives each result as the
    composed term of the program's operations; that term is the last stage read by the generated module, and the
    stage is the specification's function index by index. -/
theorem run_spec (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v23) = nodeFeatOf scaleD (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_v79) = logitsOf scaleD
          (m ((c.tc : Thread nD τ).loc main_arg0))
          (m ((c.tc : Thread nD τ).loc main_arg9))
          (m ((c.tc : Thread nD τ).loc main_arg10))
          (m ((c.tc : Thread nD τ).loc main_arg11))
          (m ((c.tc : Thread nD τ).loc main_arg12))
          (m ((c.tc : Thread nD τ).loc main_arg13))
          (m ((c.tc : Thread nD τ).loc main_arg14))
          (m ((c.tc : Thread nD τ).loc main_arg15))
          (m ((c.tc : Thread nD τ).loc main_arg16))
          (m ((c.tc : Thread nD τ).loc main_arg17))
          (m ((c.tc : Thread nD τ).loc main_arg18))
          (m ((c.tc : Thread nD τ).loc main_arg19))
          (m ((c.tc : Thread nD τ).loc main_arg20))
          (m ((c.tc : Thread nD τ).loc main_arg21))
          (m ((c.tc : Thread nD τ).loc main_arg22))
      ∧ r.2.mem ((c.tc : Thread nD τ).loc main_v81) = featsOf scaleD
          (m ((c.tc : Thread nD τ).loc main_arg0))
          (m ((c.tc : Thread nD τ).loc main_arg9))
          (m ((c.tc : Thread nD τ).loc main_arg10))
          (m ((c.tc : Thread nD τ).loc main_arg11))
          (m ((c.tc : Thread nD τ).loc main_arg12))
          (m ((c.tc : Thread nD τ).loc main_arg13))
          (m ((c.tc : Thread nD τ).loc main_arg14))
          (m ((c.tc : Thread nD τ).loc main_arg15))
          (m ((c.tc : Thread nD τ).loc main_arg16))
          (m ((c.tc : Thread nD τ).loc main_arg17))
          (m ((c.tc : Thread nD τ).loc main_arg18))
          (m ((c.tc : Thread nD τ).loc main_arg19))
          (m ((c.tc : Thread nD τ).loc main_arg20))
          (m ((c.tc : Thread nD τ).loc main_arg21))
          (m ((c.tc : Thread nD τ).loc main_arg22))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22) :=
  (θ_run defs _ _).mono (fun _ h c => by
    obtain ⟨h23, h79, h81, hargs⟩ := h c
    refine ⟨?_, ?_, ?_, hargs⟩
    · rw [h23, Read.val_main_v23_eq, NodeValue.nodeFeat_ref]
      rfl
    · rw [h79, Read.val_main_v79_eq, EdgeValue.logits_ref]
      rfl
    · rw [h81, Read.val_main_v81_eq, EdgeValue.feats_ref]
      rfl)
    (Value.run (F := Ideal) m ρ)

end Cert.ReferenceIdeal.RunSpec

end
-- ==== Proof.VariancePositive.lean ====
/-
  What the precondition says of the three variance inputs: each of its last three conjuncts is
  `jnp.all(var + ε > 0)`, so at every feature `0 < var + ε` on the extended reals — where the reference's
  `γ / √(var + ε)` is the kernel's `γ · (var + ε)^(-1/2)`.
-/
import proofs.«154958_j32916629356848_1_alg».proof.Pre_finite_inputs
import proofs.«154958_j32916629356848_1_alg».proof.Proof.PairDecoder
import Idealize.ShloMosaic.Lib.ReduceAll
import Idealize.ShloMosaic.Lib.ValueIdx
import Idealize.ShloMosaic.PureOps.Ideal.Laws

noncomputable section

namespace Cert.Pre_finite_inputs.VariancePositive

open Cert.Pre_finite_inputs Cert.Pre_finite_inputs.Facts Cert.PairDecoder
open Idealize.ShloMosaic Idealize.ShloMosaic.ValueIdx

variable [Facts]

instance : Subsingleton S_.Idx := ⟨fun a b => funext fun d => d.elim0⟩

/-- One conjunct `jnp.all(v + ε > 0)` read at a coordinate. -/
theorem pos_of_all (v : FVec Ideal S512 .f32)
    (h : Host.reduce IntOp.andi
      (cmpf .ogt (addf v (broadcastInDim S512 ![] bcast_S_S512 (constant (F := Ideal) S_ .f32 0x3727C5AC#32)))
        (broadcastInDim S512 ![] bcast_S_S512 (constant (F := Ideal) S_ .f32 0x00000000#32)))
      (constantI S_ 1 1#1) reducesTo_S512_S_d0 h_S_ ix0 = 1#1) (k : Fin 512) : 0 < v (ix1 k) + eps := by
  have e := Host.reduce_andi_all _ _ _ _ ix0 h (ix1 k)
  have e' : Ideal.cmp .ogt (v (ix1 k) + Ideal.ofBits .f32 0x3727C5AC#32) (Ideal.ofBits .f32 0x00000000#32) = 1#1 := e
  rw [Ideal.ofBits_zero_f32] at e'
  have e'' : BitVec.ofBool (decide (0 < v (ix1 k) + Ideal.ofBits .f32 0x3727C5AC#32)) = 1#1 := e'
  show 0 < v (ix1 k) + Ideal.ofBits .f32 0x3727C5AC#32
  by_contra hn
  rw [decide_eq_false hn] at e''
  exact absurd e'' (by decide)

/-- The precondition gives `0 < var + ε` at every feature of the three variance inputs. -/
theorem var_pos (a0 a1 : FVec Ideal S512x256 .f32) (a2 a3 a4 a5 a6 : FVec Ideal S512 .f32) (a7 : FVec Ideal S128x512 .f32)
    (a8 : FVec Ideal S128 .f32) (a9 : FVec Ideal S512x512 .f32) (a10 a11 a12 a13 a14 : FVec Ideal S512 .f32)
    (a15 : FVec Ideal S512x512 .f32) (a16 a17 a18 a19 a20 : FVec Ideal S512 .f32) (a21 : FVec Ideal S33x512 .f32)
    (a22 : FVec Ideal S33 .f32)
    (h : fn (F := Ideal) a0 a1 a2 a3 a4 a5 a6 a7 a8 a9 a10 a11 a12 a13 a14 a15 a16 a17 a18 a19 a20 a21 a22 = fun _ => 1#1) :
    (∀ k : Fin 512, 0 < a6 (ix1 k) + eps) ∧ (∀ k : Fin 512, 0 < a14 (ix1 k) + eps) ∧ (∀ k : Fin 512, 0 < a20 (ix1 k) + eps) := by
  have h0 := congrFun h ix0
  dsimp only [fn, fn_part1, fn_part2, fn_part3, fn_part4, fn_part5, fn_part6, fn_part7] at h0
  obtain ⟨h1, hC⟩ := IntOp.andi_eq_one.1 h0
  obtain ⟨h2, hB⟩ := IntOp.andi_eq_one.1 h1
  obtain ⟨-, hA⟩ := IntOp.andi_eq_one.1 h2
  exact ⟨pos_of_all a6 hA, pos_of_all a14 hB, pos_of_all a20 hC⟩

end Cert.Pre_finite_inputs.VariancePositive

end
-- ==== Proof.lean ====
/-
  The graph decoder's Pallas program against its jnp reference, over the extended reals.

  Both programs compute, from a matrix of node embeddings and the parameters of two multilayer perceptrons, the node
  features (a dense layer, evaluation-mode batch normalisation, a rectifier, a dense layer) and, for every ordered
  pair of nodes, a logit and 32 edge features (the first dense layer on the concatenated pair as the sum of two
  projections and a bias, then twice batch normalisation, a rectifier and a dense layer). The Pallas program does it
  in two regions — one grid point for the node decoder and the two projections, an 8 × 4 grid of 64 × 128 tiles of
  the pair grid for the edge predictor — over transposed weights; the reference flattens the pair axis to 262144 rows.
  Read at the ideal instance, element by element, both are the functions of Proof/PairDecoder.lean and
  Proof/DecoderResults.lean of the 23 argument arrays; they differ only in how batch normalisation's scale is spelt,
  `γ · (var + ε)^(-1/2)` in the kernel and `γ / √(var + ε)` in the reference, which agree where `0 < var + ε`: the
  domain of the reference's own quotient, which the precondition states for the three variance inputs.
-/
import proofs.«154958_j32916629356848_1_alg».proof.Defs
import proofs.«154958_j32916629356848_1_alg».proof.Proof.Gen.Kernel
import proofs.«154958_j32916629356848_1_alg».proof.Proof.Gen.Kernel.Frame
import proofs.«154958_j32916629356848_1_alg».proof.Proof.Gen.KernelIdeal
import proofs.«154958_j32916629356848_1_alg».proof.Proof.Gen.KernelIdeal.Frame
import proofs.«154958_j32916629356848_1_alg».proof.Proof.Gen.ReferenceIdeal
import proofs.«154958_j32916629356848_1_alg».proof.Proof.Gen.ReferenceIdeal.Run
import proofs.«154958_j32916629356848_1_alg».proof.Proof.Gen.Pre_finite_inputs
import proofs.«154958_j32916629356848_1_alg».proof.Proof.KernelValue
import proofs.«154958_j32916629356848_1_alg».proof.Proof.ReferenceRun
import proofs.«154958_j32916629356848_1_alg».proof.Proof.VariancePositive
import Idealize.ShloMosaic.Adequacy
import Idealize.ShloMosaic.Init

noncomputable section

namespace Cert.Proof

open Idealize.ShloMosaic Idealize.ShloMosaic.TcCoe Idealize.SL.Sem Cert.PairDecoder

/-- The word-level kernel program runs and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is a host program: its run, with the three results dropped. -/
theorem frame_referenceIdeal : Cert.frame_ReferenceIdeal := fun m ρ _ =>
  (θ_run Cert.ReferenceIdeal.defs _ _).mono (fun _ h c => (h c).2.2.2) (Cert.ReferenceIdeal.Value.run (F := Ideal) m ρ)

/-- The ideal pass rewrote nothing. -/
theorem preserves : Cert.preserves_Kernel_KernelIdeal := trivial

set_option maxHeartbeats 4000000 in
/-- From memories agreeing on the arguments both programs end with the decoder's three results: the kernel's with the
    scale `γ · (var + ε)^(-1/2)`, the reference's with `γ / √(var + ε)`, one function where every `0 < var + ε`. -/
theorem algebraic : Cert.algebraic_KernelIdeal_ReferenceIdeal := by
  intro m ρ m' ρ' hpre hagree
  refine ⟨_, _, _, Cert.KernelIdeal.Results.run_spec m ρ, ?_⟩
  refine (θ_run Cert.ReferenceIdeal.defs _ _).mono (fun r h c => ?_) (Cert.ReferenceIdeal.RunSpec.run_spec m' ρ')
  obtain ⟨h0, h1, h2, hargs⟩ := h c
  obtain ⟨p6, p14, p20⟩ := Cert.Pre_finite_inputs.VariancePositive.var_pos _ _ _ _ _ _ _ _ _ _ _ _ _ _ _ _ _ _ _ _ _ _ _ (hpre c)
  obtain ⟨e0, e1, e2, e3, e4, e5, e6, e7, e8, e9, e10, e11, e12, e13, e14, e15, e16, e17, e18, e19, e20, e21, e22⟩ := hagree c
  refine ⟨h0.trans ?_, h1.trans ?_, h2.trans ?_, hargs⟩
  · rw [e0, e1, e2, e3, e4, e5, e6, e7, e8]
    exact nodeFeatOf_scale _ _ _ _ _ _ _ _ _ p6
  · rw [e0, e9, e10, e11, e12, e13, e14, e15, e16, e17, e18, e19, e20, e21, e22]
    unfold logitsOf
    rw [edgeOutOf_scale _ _ _ _ _ _ _ _ _ _ _ _ _ _ _ p14 p20]
  · rw [e0, e9, e10, e11, e12, e13, e14, e15, e16, e17, e18, e19, e20, e21, e22]
    unfold featsOf
    rw [edgeOutOf_scale _ _ _ _ _ _ _ _ _ _ _ _ _ _ _ p14 p20]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
